-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S256x32 : Shape := ⟨2, ![256, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 1 := constantI S_ 1 1#1
  let main_v51 : IVec S_ 1 := (fun x v => Host.reduce IntOp.andi x v reducesTo_S2x800000_S_d0_1 h_S_) main_v50 main_c_19
  let main_v52 : IVec S_ 1 := andi main_v48 main_v51
  let main_c_20 : IVec S_ 32 := constantI S_ 32 50000#32
  let main_v53 : IVec S2x800000 32 := broadcastInDim S2x800000 ![] bcast_S_S2x800000 main_c_20
  let main_v54 : IVec S2x800000 1 := cmpi .slt main_arg1 main_v53
  let main_c_21 : IVec S_ 1 := constantI S_ 1 1#1
  let main_v55 : IVec S_ 1 := (fun x v => Host.reduce IntOp.andi x v reducesTo_S2x800000_S_d0_1 h_S_) main_v54 main_c_21
  let main_v56 : IVec S_ 1 := andi main_v52 main_v55
  main_v56

def fn_part2 {F : FTy → Type} [FloatOps F] (main_arg1 : IVec S2x800000 32) (main_arg8 : FVec F S32x1 .f32) (main_arg9 : FVec F S1 .f32) (main_arg10 : FVec F S128x128 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S128 .f32) (main_arg6 : FVec F S256x32 .f32) (main_arg7 : FVec F S32 .f32) (main_arg8 : FVec F S32x1 .f32) (main_arg9 : FVec F S1 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S256x32 .f32) (main_arg7 : FVec F S32 .f32) (main_arg8 : FVec F S32x1 .f32) (main_arg9 : FVec F S1 .f32) (main_arg10 : FVec F S128x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S5000x256 : Shape := ⟨2, ![5000, 256]⟩
abbrev S5000x128 : Shape := ⟨2, ![5000, 128]⟩
abbrev S50000x128 : Shape := ⟨2, ![50000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S800000x256 : Shape := ⟨2, ![800000, 256]⟩
abbrev S128x32 : Shape := ⟨2, ![128, 32]⟩
abbrev S1x32 : Shape := ⟨2, ![1, 32]⟩
abbrev S10000x128 : Shape := ⟨2, ![10000, 128]⟩
abbrev S10000x1 : Shape := ⟨2, ![10000, 1]⟩
abbrev S10000x32 : Shape := ⟨2, ![10000, 32]⟩
abbrev S50000 : Shape := ⟨1, ![50000]⟩
abbrev S800000x2 : Shape := ⟨2, ![800000, 2]⟩
abbrev S10000x2 : Shape := ⟨2, ![10000, 2]⟩

abbrev nBuf : Space → Nat
  | .hbm => 209
  | .vmem => 60
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S256x32, .f32⟩
  | 7 => ⟨S32, .f32⟩
  | 8 => ⟨S32x1, .f32⟩
  | 9 => ⟨S1, .f32⟩
  | 10 => ⟨S128x128, .f32⟩
  | 11 => ⟨S1x800000, .i32⟩
  | 12 => ⟨S800000, .i32⟩
  | 13 => ⟨S1x800000, .i32⟩
  | 14 => ⟨S800000, .i32⟩
  | 15 => ⟨S1x128, .f32⟩
  | 16 => ⟨S50000x256, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x128, .f32⟩
  | 38 => ⟨S800000x128, .i1⟩
  | 39 => ⟨S_, .f32⟩
  | 40 => ⟨S800000x128, .f32⟩
  | 41 => ⟨S800000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x256, .f32⟩
  | 61 => ⟨S800000x256, .i1⟩
  | 62 => ⟨S_, .f32⟩
  | 63 => ⟨S800000x256, .f32⟩
  | 64 => ⟨S800000x256, .f32⟩
  | 65 => ⟨S800000x128, .f32⟩
  | 66 => ⟨S800000x128, .f32⟩
  | 67 => ⟨S128x32, .f32⟩
  | 68 => ⟨S128x32, .f32⟩
  | 69 => ⟨S1x32, .f32⟩
  | 70 => ⟨S1x1, .f32⟩
  | 71 => ⟨S800000x1, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S1, .i32⟩
  | 86 => ⟨S_, .i32⟩
  | 87 => ⟨S800000x1, .i32⟩
  | 88 => ⟨S800000x1, .i1⟩
  | 89 => ⟨S1x1, .i32⟩
  | 90 => ⟨S800000x1, .i32⟩
  | 91 => ⟨S800000x1, .i1⟩
  | 92 => ⟨S800000x1, .i1⟩
  | 93 => ⟨S_, .i1⟩
  | 94 => ⟨S800000, .i1⟩
  | 95 => ⟨S800000, .f32⟩
  | 96 => ⟨S_, .f32⟩
  | 97 => ⟨S800000, .f32⟩
  | 98 => ⟨S800000, .f32⟩
  | 99 => ⟨S800000x1, .f32⟩
  | 100 => ⟨S800000x2, .f32⟩
  | 101 => ⟨S800000x128, .f32⟩
  | 102 => ⟨S800000, .f32⟩
  | 103 => ⟨S_, .f32⟩
  | 104 => ⟨S800000, .f32⟩
  | 105 => ⟨S800000, .f32⟩
  | 106 => ⟨S800000, .f32⟩
  | 107 => ⟨S_, .f32⟩
  | 108 => ⟨S50000x128, .f32⟩
  | 109 => ⟨S800000x1, .i32⟩
  | 110 => ⟨S50000x128, .f32⟩
  | 111 => ⟨S50000x256, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S1, .i32⟩
  | 123 => ⟨S_, .i32⟩
  | 124 => ⟨S800000x1, .i32⟩
  | 125 => ⟨S800000x1, .i1⟩
  | 126 => ⟨S1x1, .i32⟩
  | 127 => ⟨S800000x1, .i32⟩
  | _ => ⟨S50000x256, .f32⟩

abbrev hbmTy0_1 (i : Nat) : BufTy := match i % 128 with
  | 0 => ⟨S800000x1, .i1⟩
  | 1 => ⟨S800000x1, .i1⟩
  | 2 => ⟨S_, .i1⟩
  | 3 => ⟨S800000, .i1⟩
  | 4 => ⟨S800000x128, .f32⟩
  | 5 => ⟨S800000x128, .i1⟩
  | 6 => ⟨S_, .f32⟩
  | 7 => ⟨S800000x128, .f32⟩
  | 8 => ⟨S800000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S1, .i32⟩
  | 18 => ⟨S_, .i32⟩
  | 19 => ⟨S800000x1, .i32⟩
  | 20 => ⟨S800000x1, .i1⟩
  | 21 => ⟨S1x1, .i32⟩
  | 22 => ⟨S800000x1, .i32⟩
  | 23 => ⟨S800000x1, .i1⟩
  | 24 => ⟨S800000x1, .i1⟩
  | 25 => ⟨S_, .i1⟩
  | 26 => ⟨S800000, .i1⟩
  | 27 => ⟨S800000x256, .f32⟩
  | 28 => ⟨S800000x256, .i1⟩
  | 29 => ⟨S_, .f32⟩
  | 30 => ⟨S800000x256, .f32⟩
  | 31 => ⟨S800000x256, .f32⟩
  | 32 => ⟨S800000x128, .f32⟩
  | 33 => ⟨S800000x128, .f32⟩
  | 34 => ⟨S128x32, .f32⟩
  | 35 => ⟨S128x32, .f32⟩
  | 36 => ⟨S1x32, .f32⟩
  | 37 => ⟨S1x1, .f32⟩
  | 38 => ⟨S800000x1, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000, .f32⟩
  | 63 => ⟨S_, .f32⟩
  | 64 => ⟨S800000, .f32⟩
  | 65 => ⟨S800000, .f32⟩
  | 66 => ⟨S800000x1, .f32⟩
  | 67 => ⟨S800000x2, .f32⟩
  | 68 => ⟨S800000x128, .f32⟩
  | 69 => ⟨S800000, .f32⟩
  | 70 => ⟨S_, .f32⟩
  | 71 => ⟨S800000, .f32⟩
  | 72 => ⟨S800000, .f32⟩
  | 73 => ⟨S800000, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S1x128, .f32⟩
  | 80 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S5000x256, .f32⟩
  | .local _ .vmem, ⟨6, _⟩ => ⟨S5000x256, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S128x32, .f32⟩
  | .local _ .vmem, ⟨12, _⟩ => ⟨S128x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x2, .f32⟩
  | .local _ .vmem, ⟨21, _⟩ => ⟨S10000x2, .f32⟩
  | .local _ .vmem, ⟨22, _⟩ => ⟨S10000x128, .f32⟩
  | .local _ .vmem, ⟨23, _⟩ => ⟨S10000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x256, .f32⟩
  | .local _ .vmem, ⟨30, _⟩ => ⟨S5000x256, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S128x32, .f32⟩
  | .local _ .vmem, ⟨36, _⟩ => ⟨S128x32, .f32⟩
  | .local _ .vmem, ⟨37, _⟩ => ⟨S1x32, .f32⟩
  | .local _ .vmem, ⟨38, _⟩ => ⟨S32x1, .f32⟩
  | .local _ .vmem, ⟨39, _⟩ => ⟨S1x1, .f32⟩
  | .local _ .vmem, ⟨40, _⟩ => ⟨S10000x1, .f32⟩
  | .local _ .vmem, ⟨41, _⟩ => ⟨S10000x1, .f32⟩
  | .local _ .vmem, ⟨42, _⟩ => ⟨S10000x128, .f32⟩
  | .local _ .vmem, ⟨43, _⟩ => ⟨S10000x128, .f32⟩
  | .local _ .vmem, ⟨44, _⟩ => ⟨S10000x2, .f32⟩
  | .local _ .vmem, ⟨45, _⟩ => ⟨S10000x2, .f32⟩
  | .local _ .vmem, ⟨46, _⟩ => ⟨S10000x128, .f32⟩
  | .local _ .vmem, ⟨47, _⟩ => ⟨S10000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_cst_0 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_cst_1 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v35 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_call5_c : Ref sig .tc := ⟨.hbm, 172, rfl⟩
abbrev main_call5_v0 : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_c_1 : Ref sig .tc := ⟨.hbm, 180, rfl⟩
abbrev main_call5_c_2 : Ref sig .tc := ⟨.hbm, 181, rfl⟩
abbrev main_call5_v6 : Ref sig .tc := ⟨.hbm, 182, rfl⟩
abbrev main_call5_v7 : Ref sig .tc := ⟨.hbm, 183, rfl⟩
abbrev main_call5_v8 : Ref sig .tc := ⟨.hbm, 184, rfl⟩
abbrev main_call5_v9 : Ref sig .tc := ⟨.hbm, 185, rfl⟩
abbrev main_call5_v10 : Ref sig .tc := ⟨.hbm, 186, rfl⟩
abbrev main_call5_v11 : Ref sig .tc := ⟨.hbm, 187, rfl⟩
abbrev main_call5_c_3 : Ref sig .tc := ⟨.hbm, 188, rfl⟩
abbrev main_call5_v12 : Ref sig .tc := ⟨.hbm, 189, rfl⟩
abbrev main_call5_v13 : Ref sig .tc := ⟨.hbm, 190, rfl⟩
abbrev main_call5_cst : Ref sig .tc := ⟨.hbm, 191, rfl⟩
abbrev main_call5_v14 : Ref sig .tc := ⟨.hbm, 192, rfl⟩
abbrev main_v48 : Ref sig .tc := ⟨.hbm, 193, rfl⟩
abbrev main_v49 : Ref sig .tc := ⟨.hbm, 194, rfl⟩
abbrev main_v50 : Ref sig .tc := ⟨.hbm, 195, rfl⟩
abbrev main_v51 : Ref sig .tc := ⟨.hbm, 196, rfl⟩
abbrev main_v52 : Ref sig .tc := ⟨.hbm, 197, rfl⟩
abbrev main_cst_3 : Ref sig .tc := ⟨.hbm, 198, rfl⟩
abbrev main_v53 : Ref sig .tc := ⟨.hbm, 199, rfl⟩
abbrev main_v54 : Ref sig .tc := ⟨.hbm, 200, rfl⟩
abbrev main_v55 : Ref sig .tc := ⟨.hbm, 201, rfl⟩
abbrev main_cst_4 : Ref sig .tc := ⟨.hbm, 202, rfl⟩
abbrev main_v56 : Ref sig .tc := ⟨.hbm, 203, rfl⟩
abbrev main_v57 : Ref sig .tc := ⟨.hbm, 204, rfl⟩
abbrev main_v58 : Ref sig .tc := ⟨.hbm, 205, rfl⟩
abbrev main_v59 : Ref sig .tc := ⟨.hbm, 206, rfl⟩
abbrev main_v60 : Ref sig .tc := ⟨.hbm, 207, rfl⟩
abbrev main_v61 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem7_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x256_S5000x128_0_0 : ∀ a, (![0, 0] : Fin 2 → Nat) a + S5000x128.size a ≤ S5000x256.size a
  h_S5000x128 : 0 < S5000x128.numel
  inb_S5000x256_S5000x128_0_128 : ∀ a, (![0, 128] : Fin 2 → Nat) a + S5000x128.size a ≤ S5000x256.size a
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x256_0 : S800000.BroadcastsInDim S800000x256 (![0] : Fin 1 → Fin S800000x256.rank)
  bcast_S_S800000x256 : S_.BroadcastsInDim S800000x256 (![] : Fin 0 → Fin S800000x256.rank)
  slices_S800000x256_S800000x128_0_0 : S800000x256.Slices ![0, 0] S800000x128
  slices_S800000x256_S800000x128_0_128 : S800000x256.Slices ![0, 128] S800000x128
  slices_S256x32_S128x32_0_0 : S256x32.Slices ![0, 0] S128x32
  slices_S256x32_S128x32_128_0 : S256x32.Slices ![128, 0] S128x32
  shapeCasts_S32_S1x32 : S32.ShapeCasts S1x32
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S800000x1_S800000 : S800000x1.ShapeCasts S800000
  bcast_S_S50000 : S_.BroadcastsInDim S50000 (![] : Fin 0 → Fin S50000.rank)
  concatenates_S800000x1_S800000x1_S800000x2_d1 : Shape.Concatenates [S800000x1, S800000x1] S800000x2 1
  inb_S10000x2_S10000x1_0_0 : ∀ a, (![0, 0] : Fin 2 → Nat) a + S10000x1.size a ≤ S10000x2.size a
  shapeCasts_S10000x1_S10000x1 : S10000x1.ShapeCasts S10000x1
  inb_S10000x2_S10000x1_0_1 : ∀ a, (![0, 1] : Fin 2 → Nat) a + S10000x1.size a ≤ S10000x2.size a
  broadcasts_S10000x1_S10000x128 : S10000x1.Broadcasts S10000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  shapeCasts_S5000x128_S5000x128 : S5000x128.ShapeCasts S5000x128
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  gather_S50000x256_S800000x1_S800000x256_1_0_n_n_0_1_1256_wf : GatherDims.WF S50000x256 S800000x1 S800000x256 [1] [0] [] [0] [] 1 ![1, 256]
  dot_S10000x128_S128x32_S10000x32_1_0_0_1_n_n_wf : DotDims.WF S10000x128 S128x32 S10000x32 [1] [0] [0] [1] [] []
  dot_S10000x32_S32x1_S10000x1_1_0_0_1_n_n_wf : DotDims.WF S10000x32 S32x1 S10000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .f32 = 32 ∨ (Rect.block (s := S800000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S800000x1.size a
  hwx1_7 : ∀ i : grid1.Coords, EltTy.bits .f32 = 32 ∨ (Rect.block (s := S800000x1) S10000x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .f32 = 32 ∨ (Rect.block (s := S800000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S800000x2.size a
  hwx2_1 : ∀ i : grid2.Coords, EltTy.bits .f32 = 32 ∨ (Rect.block (s := S800000x2) S10000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S800000x128.size a
  hwx2_2 : ∀ i : grid2.Coords, EltTy.bits .f32 = 32 ∨ (Rect.block (s := S800000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S800000x128.size a
  hwx4_0 : ∀ i : grid4.Coords, EltTy.bits .f32 = 32 ∨ (Rect.block (s := S800000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S800000x128.size a
  hwx4_1 : ∀ i : grid4.Coords, EltTy.bits .f32 = 32 ∨ (Rect.block (s := S800000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x32.size a ≤ S128x32.size a
  hwx4_2 : ∀ i : grid4.Coords, EltTy.bits .f32 = 32 ∨ (Rect.block (s := S128x32) S128x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x32.size a ≤ S128x32.size a
  hwx4_3 : ∀ i : grid4.Coords, EltTy.bits .f32 = 32 ∨ (Rect.block (s := S128x32) S128x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x1.size a ≤ S800000x1.size a
  hwx4_7 : ∀ i : grid4.Coords, EltTy.bits .f32 = 32 ∨ (Rect.block (s := S800000x1) S10000x1.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S800000x128.size a
  hwx5_0 : ∀ i : grid5.Coords, EltTy.bits .f32 = 32 ∨ (Rect.block (s := S800000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x2.size a ≤ S800000x2.size a
  hwx5_1 : ∀ i : grid5.Coords, EltTy.bits .f32 = 32 ∨ (Rect.block (s := S800000x2) S10000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S800000x128.size a
  hwx5_2 : ∀ i : grid5.Coords, EltTy.bits .f32 = 32 ∨ (Rect.block (s := S800000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S10000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S128x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S128x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg8) S32x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v42) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v43) S10000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v38) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S10000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v33) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v59) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v59) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v60) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v61) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S800000x32 : Shape := ⟨2, ![800000, 32]⟩
abbrev S1x32 : Shape := ⟨2, ![1, 32]⟩
abbrev S1x1 : Shape := ⟨2, ![1, 1]⟩
abbrev S50000 : Shape := ⟨1, ![50000]⟩

abbrev nBuf : Space → Nat
  | .hbm => 188
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S256x32, .f32⟩
  | 7 => ⟨S32, .f32⟩
  | 8 => ⟨S32x1, .f32⟩
  | 9 => ⟨S1, .f32⟩
  | 10 => ⟨S128x128, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x256, .f32⟩
  | 41 => ⟨S800000x32, .f32⟩
  | 42 => ⟨S1x32, .f32⟩
  | 43 => ⟨S800000x32, .f32⟩
  | 44 => ⟨S800000x32, .f32⟩
  | 45 => ⟨S_, .f32⟩
  | 46 => ⟨S_, .f32⟩
  | 47 => ⟨S800000x32, .f32⟩
  | 48 => ⟨S800000x32, .i1⟩
  | 49 => ⟨S_, .f32⟩
  | 50 => ⟨S800000x32, .f32⟩
  | 51 => ⟨S800000x32, .f32⟩
  | 52 => ⟨S800000x32, .f32⟩
  | 53 => ⟨S800000x1, .f32⟩
  | 54 => ⟨S1x1, .f32⟩
  | 55 => ⟨S800000x1, .f32⟩
  | 56 => ⟨S800000x1, .f32⟩
  | 57 => ⟨S800000, .f32⟩
  | 58 => ⟨S_, .f32⟩
  | 59 => ⟨S_, .f32⟩
  | 60 => ⟨S_, .f32⟩
  | 61 => ⟨S800000, .f32⟩
  | 62 => ⟨S800000, .f32⟩
  | 63 => ⟨S_, .f32⟩
  | 64 => ⟨S800000, .f32⟩
  | 65 => ⟨S800000, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .f32⟩
  | 81 => ⟨S800000, .f32⟩
  | 82 => ⟨S800000, .f32⟩
  | 83 => ⟨S800000, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S800000x1, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x256, .f32⟩
  | 122 => ⟨S800000x32, .f32⟩
  | 123 => ⟨S1x32, .f32⟩
  | 124 => ⟨S800000x32, .f32⟩
  | 125 => ⟨S800000x32, .f32⟩
  | 126 => ⟨S_, .f32⟩
  | 127 => ⟨S_, .f32⟩
  | _ => ⟨S50000x256, .f32⟩

abbrev hbmTy0_1 (i : Nat) : BufTy := match i % 128 with
  | 0 => ⟨S800000x32, .f32⟩
  | 1 => ⟨S800000x32, .i1⟩
  | 2 => ⟨S_, .f32⟩
  | 3 => ⟨S800000x32, .f32⟩
  | 4 => ⟨S800000x32, .f32⟩
  | 5 => ⟨S800000x32, .f32⟩
  | 6 => ⟨S800000x1, .f32⟩
  | 7 => ⟨S1x1, .f32⟩
  | 8 => ⟨S800000x1, .f32⟩
  | 9 => ⟨S800000x1, .f32⟩
  | 10 => ⟨S800000, .f32⟩
  | 11 => ⟨S_, .f32⟩
  | 12 => ⟨S_, .f32⟩
  | 13 => ⟨S_, .f32⟩
  | 14 => ⟨S800000, .f32⟩
  | 15 => ⟨S800000, .f32⟩
  | 16 => ⟨S_, .f32⟩
  | 17 => ⟨S800000, .f32⟩
  | 18 => ⟨S800000, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .f32⟩
  | 34 => ⟨S800000, .f32⟩
  | 35 => ⟨S800000, .f32⟩
  | 36 => ⟨S800000, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x1, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_6 : Ref sig .tc := ⟨.hbm, 71, rfl⟩
abbrev main_v39 : Ref sig .tc := ⟨.hbm, 72, rfl⟩
abbrev main_v40 : Ref sig .tc := ⟨.hbm, 73, rfl⟩
abbrev main_c_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_9 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_12 : Ref sig .tc := ⟨.hbm, 103, rfl⟩
abbrev main_v65 : Ref sig .tc := ⟨.hbm, 104, rfl⟩
abbrev main_v66 : Ref sig .tc := ⟨.hbm, 105, rfl⟩
abbrev main_c_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_14 : Ref sig .tc := ⟨.hbm, 112, rfl⟩
abbrev main_v72 : Ref sig .tc := ⟨.hbm, 113, rfl⟩
abbrev main_v73 : Ref sig .tc := ⟨.hbm, 114, rfl⟩
abbrev main_c_15 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_call3_cst : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_cst_18 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_v90 : Ref sig .tc := ⟨.hbm, 146, rfl⟩
abbrev main_v91 : Ref sig .tc := ⟨.hbm, 147, rfl⟩
abbrev main_cst_19 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_c_20 : Ref sig .tc := ⟨.hbm, 152, rfl⟩
abbrev main_v95 : Ref sig .tc := ⟨.hbm, 153, rfl⟩
abbrev main_v96 : Ref sig .tc := ⟨.hbm, 154, rfl⟩
abbrev main_c_21 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_22 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_c_23 : Ref sig .tc := ⟨.hbm, 166, rfl⟩
abbrev main_v106 : Ref sig .tc := ⟨.hbm, 167, rfl⟩
abbrev main_v107 : Ref sig .tc := ⟨.hbm, 168, rfl⟩
abbrev main_c_24 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_25 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  bcast_S_S50000 : S_.BroadcastsInDim S50000 (![] : Fin 0 → Fin S50000.rank)
  bcast_S800000x1_S800000x128_0_1 : S800000x1.BroadcastsInDim S800000x128 (![0, 1] : Fin 2 → Fin S800000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x32_S800000x32_1_0_0_1_n_n_wf : DotDims.WF S800000x256 S256x32 S800000x32 [1] [0] [0] [1] [] []
  dot_S800000x32_S32x1_S800000x1_1_0_0_1_n_n_wf : DotDims.WF S800000x32 S32x1 S800000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x32_S800000x32_1_0_0_1_n_n : DotDims S800000x256 S256x32 S800000x32 where
  lhsContracting := [1]
  rhsContracting := [0]
  lhsNonContracting := [0]
  rhsNonContracting := [1]
  lhsBatch := []
  rhsBatch := []
  wf := dot_S800000x256_S256x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, as functions of the argument arrays over the extended reals.

  A graph of 50000 nodes and 800000 edges; `idx` holds the edges' source row (row 0) and destination row (row 1).
  The encoder is S₁ = relu (X · W_lin + b_lin). One diffusion step takes the node states S to
  tanh (S + agg), where for every edge e the attention logit is an MLP of the pair (S[src e], S[dst e]),
  ex e = exp (clip logit), the normaliser of a source node is the sum of ex over the edges leaving it,
  attn e = ex e / (normaliser (src e) + ε), the message of e is (S · W_node)[src e] · attn e, and agg adds every
  edge's message into its destination node. Two steps are run; the results are S₃ · W_out + b_out and the
  second step's attn.

  Everything is stated index by index; the two scatter-adds stay the host's accumulating scatter (both programs
  apply it to the same operands). A row index read from `idx` is clamped into the table as the host's gather
  clamps it; for indices in range (`InRange`) that is the index itself.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Spec

open Idealize.ShloMosaic Idealize.ShloMosaic.ValueIdx

/-- The shapes, spelt out. -/
abbrev Sh1 (a : Nat) : Shape := ⟨1, ![a]⟩
abbrev Sh2 (a b : Nat) : Shape := ⟨2, ![a, b]⟩
/-- Arrays of extended reals of rank 1 and 2. -/
abbrev A1 (a : Nat) := (Sh1 a).Idx → EReal
abbrev A2 (a b : Nat) := (Sh2 a b).Idx → EReal
/-- The edge table: row 0 the sources, row 1 the destinations. -/
abbrev Edges := IVec (Sh2 2 800000) 32

/-! ## Scalars -/

/-- The words both programs carry, read as extended reals. -/
def zeroW : EReal := Ideal.ofBits .f32 0x00000000#32
def slopeW : EReal := Ideal.ofBits .f32 0x3E4CCCCD#32
def loW : EReal := Ideal.ofBits .f32 0xC1A00000#32
def hiW : EReal := Ideal.ofBits .f32 0x41200000#32
def eps : EReal := Ideal.ofBits .f32 0x3089705F#32

def relu (x : EReal) : EReal := max x zeroW
/-- x where x ≥ 0, else slope · x. -/
def leaky (x : EReal) : EReal := Scalar.select (Ideal.cmp .oge x zeroW) x (slopeW * x)
def clip (x : EReal) : EReal := min hiW (max loW x)

/-! ## Indices -/

/-- Every entry of the edge table is a node index. -/
def InRange (idx : Edges) : Prop := ∀ i, 0 ≤ (idx i).toInt ∧ (idx i).toInt < 50000

/-- The node an edge's entry names, clamped into the table. -/
def row (idx : Edges) (r : Fin 2) (e : Fin 800000) : Fin 50000 :=
  ⟨min (idx (ix2 r e)).toInt.toNat 49999, by omega⟩

/-- Row r of the edge table as a vector of 800000 entries. -/
def edgeVec (idx : Edges) (r : Fin 2) : IVec (Sh1 800000) 32 := fun i => idx (ix2 r (i 0))
/-- The source column and the destination column as the scatters take them: [800000, 1]. -/
def srcIx (idx : Edges) : IVec (Sh2 800000 1) 32 := fun j => idx (ix2 (0 : Fin 2) (j 0))
def dstIx (idx : Edges) : IVec (Sh2 800000 1) 32 := fun j => idx (ix2 (1 : Fin 2) (j 0))

/-! ## Layout -/

/-- A vector as a one-row matrix. -/
def bRow {n : Nat} (b : A1 n) : A2 1 n := fun i => b (ix1 (i 1))
/-- A one-column matrix as a vector. -/
def flat {n : Nat} (x : A2 n 1) : A1 n := fun i => x (ix2 (i 0) (0 : Fin 1))
/-- Two 128-column matrices side by side. -/
def pack {n : Nat} (S T : A2 n 128) : A2 n 256 := fun i =>
  if h : (i 1).val < 128 then S (ix2 (i 0) ⟨(i 1).val, h⟩)
  else T (ix2 (i 0) ⟨(i 1).val - 128, by have := idx2_lt1 i; omega⟩)
/-- The left and right 128 columns of a 256-column matrix. -/
def colsL {n : Nat} (P : A2 n 256) : A2 n 128 := fun i => P (ix2 (i 0) ⟨(i 1).val, by have := idx2_lt1 i; omega⟩)
def colsR {n : Nat} (P : A2 n 256) : A2 n 128 := fun i => P (ix2 (i 0) ⟨128 + (i 1).val, by have := idx2_lt1 i; omega⟩)
/-- The top and bottom 128 rows of the attention MLP's first weight. -/
def rowsT (W : A2 256 32) : A2 128 32 := fun i => W (ix2 ⟨(i 0).val, by have := idx2_lt0 i; omega⟩ (i 1))
def rowsB (W : A2 256 32) : A2 128 32 := fun i => W (ix2 ⟨128 + (i 0).val, by have := idx2_lt0 i; omega⟩ (i 1))
/-- The rows of a node table at the edges' sources (r = 0) or destinations (r = 1). -/
def gatherRows {C : Nat} (S : A2 50000 C) (idx : Edges) (r : Fin 2) : A2 800000 C :=
  fun i => S (ix2 (row idx r (i 0)) (i 1))
/-- A per-edge column beside a per-edge vector: [800000, 2]. -/
def beside (x : A2 800000 1) (y : A1 800000) : A2 800000 2 := fun i =>
  if (i 1).val = 0 then x (ix2 (i 0) (0 : Fin 1)) else y (ix1 (i 0))

/-! ## The dense pieces, in the form each kernel region computes them -/

/-- A matrix product with a 128-wide contraction. -/
def mm {n p : Nat} (S : A2 n 128) (W : A2 128 p) : A2 n p :=
  fun i => ∑ k : Fin 128, S (ix2 (i 0) k) * W (ix2 k (i 1))
/-- relu (X · W + b), b a one-row matrix. -/
def encB (X : A2 50000 256) (W : A2 256 128) (b : A2 1 128) : A2 50000 128 :=
  fun i => relu ((∑ k : Fin 256, X (ix2 (i 0) k) * W (ix2 k (i 1))) + b (ix2 (0 : Fin 1) (i 1)))
/-- The encoder region's array: the node states beside their image under W_node. -/
def reg0 (X : A2 50000 256) (W : A2 256 128) (b : A2 1 128) (Wn : A2 128 128) : A2 50000 256 :=
  pack (encB X W b) (mm (encB X W b) Wn)
/-- The attention MLP's hidden layer from the gathered source and destination states. -/
def hidB (Ss Sd : A2 800000 128) (Wt Wb : A2 128 32) (b : A2 1 32) : A2 800000 32 :=
  fun i => leaky ((∑ k : Fin 128, Ss (ix2 (i 0) k) * Wt (ix2 k (i 1)))
    + (∑ k : Fin 128, Sd (ix2 (i 0) k) * Wb (ix2 k (i 1))) + b (ix2 (0 : Fin 1) (i 1)))
/-- The attention region's array: exp (clip (hidden · W₂ + b₂)), one column. -/
def reg1 (Ss Sd : A2 800000 128) (Wt Wb : A2 128 32) (b1 : A2 1 32) (W2 : A2 32 1) (b2 : A2 1 1) : A2 800000 1 :=
  fun i => Ideal.exp (clip ((∑ j : Fin 32, hidB Ss Sd Wt Wb b1 (ix2 (i 0) j) * W2 (ix2 j (i 1)))
    + b2 (ix2 (0 : Fin 1) (i 1))))
/-- The scaling region's array: a row of node_lin times ex / (normaliser + ε), the two read off one [·, 2] array. -/
def reg2 (nl : A2 800000 128) (xs : A2 800000 2) : A2 800000 128 :=
  fun i => nl i * Ideal.div (xs (ix2 (i 0) (0 : Fin 2))) (xs (ix2 (i 0) (1 : Fin 2)) + eps)
/-- The node update. -/
def upd (S agg : A2 50000 128) : A2 50000 128 := fun i => Ideal.tanh (S i + agg i)
/-- The fused update region's array. -/
def reg3 (S agg : A2 50000 128) (Wn : A2 128 128) : A2 50000 256 := pack (upd S agg) (mm (upd S agg) Wn)
/-- S · W + b, b a one-row matrix. -/
def linB (S : A2 50000 128) (W : A2 128 128) (b : A2 1 128) : A2 50000 128 :=
  fun i => (∑ k : Fin 128, S (ix2 (i 0) k) * W (ix2 k (i 1))) + b (ix2 (0 : Fin 1) (i 1))

/-! ## The scatter-adds -/

/-- Per-edge scalars added into their source nodes, and per-edge rows added into their destination nodes. -/
def scat1 : ScatterDims (Sh1 50000) (Sh2 800000 1) (Sh1 800000) where
  updateWindowDims := []
  insertedWindowDims := [0]
  scatterDimsToOperandDims := [0]
  indexVectorDim := 1
def scat2 : ScatterDims (Sh2 50000 128) (Sh2 800000 1) (Sh2 800000 128) where
  updateWindowDims := [1]
  insertedWindowDims := [0]
  scatterDimsToOperandDims := [0]
  indexVectorDim := 1

/-- The softmax normaliser of every node: the sum of ex over the edges leaving it. -/
def sumExp (ex : A1 800000) (idx : Edges) : A1 50000 :=
  Host.scatterAdd (F := Ideal) (φ := .f32) scat1 (fun _ => zeroW) (srcIx idx) ex
/-- The messages added into their destination nodes. -/
def aggOf (msg : A2 800000 128) (idx : Edges) : A2 50000 128 :=
  Host.scatterAdd (F := Ideal) (φ := .f32) scat2 (fun _ => zeroW) (dstIx idx) msg

/-! ## One diffusion step, and the whole computation -/

section Step
variable (idx : Edges) (Wa1 : A2 256 32) (ba1 : A1 32) (Wa2 : A2 32 1) (ba2 : A1 1) (Wn : A2 128 128)

/-- ex as the attention region leaves it, one column. -/
def exCol (S : A2 50000 128) : A2 800000 1 :=
  reg1 (gatherRows S idx 0) (gatherRows S idx 1) (rowsT Wa1) (rowsB Wa1) (bRow ba1) Wa2 (bRow ba2)
/-- The normaliser at every edge's source. -/
def seSrc (ex : A1 800000) : A1 800000 := fun i => sumExp ex idx (ix1 (row idx 0 (i 0)))
/-- The attention weights. -/
def attnV (ex : A1 800000) : A1 800000 := fun i => Ideal.div (ex i) (seSrc idx ex i + eps)
/-- The messages. -/
def msgOf (S : A2 50000 128) : A2 800000 128 :=
  reg2 (gatherRows (mm S Wn) idx 0) (beside (exCol idx Wa1 ba1 Wa2 ba2 S) (seSrc idx (flat (exCol idx Wa1 ba1 Wa2 ba2 S))))
/-- One step. -/
def step (S : A2 50000 128) : A2 50000 128 := upd S (aggOf (msgOf idx Wa1 ba1 Wa2 ba2 Wn S) idx)
/-- The attention weights a step computes from the states it starts from. -/
def attnOf (S : A2 50000 128) : A1 800000 := attnV idx (flat (exCol idx Wa1 ba1 Wa2 ba2 S))

end Step

/-- The first result: two steps from the encoder's states, then the output layer. -/
def result0 (X : A2 50000 256) (idx : Edges) (Wl : A2 256 128) (bl : A1 128) (Wo : A2 128 128) (bo : A1 128)
    (Wa1 : A2 256 32) (ba1 : A1 32) (Wa2 : A2 32 1) (ba2 : A1 1) (Wn : A2 128 128) : A2 50000 128 :=
  linB (step idx Wa1 ba1 Wa2 ba2 Wn (step idx Wa1 ba1 Wa2 ba2 Wn (encB X Wl (bRow bl)))) Wo (bRow bo)
/-- The second result: the second step's attention weights. -/
def result1 (X : A2 50000 256) (idx : Edges) (Wl : A2 256 128) (bl : A1 128)
    (Wa1 : A2 256 32) (ba1 : A1 32) (Wa2 : A2 32 1) (ba2 : A1 1) (Wn : A2 128 128) : A1 800000 :=
  attnOf idx Wa1 ba1 Wa2 ba2 (step idx Wa1 ba1 Wa2 ba2 Wn (encB X Wl (bRow bl)))

end Cert.Spec

end
-- ==== Proof.PreIdx.lean ====
import proofs.«415169_j41790031790248_2_alg».proof.Pre_finite_inputs
import proofs.«415169_j41790031790248_2_alg».proof.Proof.Gen.Pre_finite_inputs
import proofs.«415169_j41790031790248_2_alg».proof.Proof.Spec
import Idealize.ShloMosaic.Lib.ReduceAll

noncomputable section

namespace Cert.PreIdx

open Idealize.ShloMosaic Cert.Pre_finite_inputs Cert.Pre_finite_inputs.Gen

/-- The rank-0 shape has one index. -/
private instance : Subsingleton S_.Idx := ⟨fun a b => funext fun d => d.elim0⟩

/-- A word that tests ≥ 0 and < 50000, both signed, is a node index. -/
private theorem word_inRange (w : BitVec 32) (h0 : IntOp.cmpi .sge w 0#32 = 1#1) (h1 : IntOp.cmpi .slt w 50000#32 = 1#1) :
    0 ≤ w.toInt ∧ w.toInt < 50000 := by
  have a := IntOp.cmpi_sge.1 h0
  have b := IntOp.cmpi_slt.1 h1
  have z : (0#32 : BitVec 32).toInt = 0 := by decide
  have n : (50000#32 : BitVec 32).toInt = 50000 := by decide
  rw [z] at a
  rw [n] at b
  exact ⟨a, b⟩

/-- The precondition's last two conjuncts say that every entry of the edge table is a node index. -/
theorem inRange_of_pre (a0 : FVec Ideal S50000x256 .f32) (a1 : IVec S2x800000 32) (a2 : FVec Ideal S256x128 .f32)
    (a3 : FVec Ideal S128 .f32) (a4 : FVec Ideal S128x128 .f32) (a5 : FVec Ideal S128 .f32) (a6 : FVec Ideal S256x32 .f32)
    (a7 : FVec Ideal S32 .f32) (a8 : FVec Ideal S32x1 .f32) (a9 : FVec Ideal S1 .f32) (a10 : FVec Ideal S128x128 .f32)
    (h : Cert.Pre_finite_inputs.fn (F := Ideal) a0 a1 a2 a3 a4 a5 a6 a7 a8 a9 a10 = fun _ => 1#1) :
    Cert.Spec.InRange a1 := by
  -- the predicate's one word: a conjunction whose last two conjuncts are the two reductions over the edge table
  have e := congrFun h ValueIdx.ix0
  dsimp only [Cert.Pre_finite_inputs.fn, fn_part1, fn_part2, fn_part3] at e
  obtain ⟨e', hlt⟩ := IntOp.andi_eq_one.1 e
  obtain ⟨-, hge⟩ := IntOp.andi_eq_one.1 e'
  intro i
  -- a reduction by "and" over every axis that came out 1 met a 1 at every index
  exact word_inRange (a1 i) (Host.reduce_andi_all _ _ _ _ _ hge i) (Host.reduce_andi_all _ _ _ _ _ hlt i)

end Cert.PreIdx

end
-- ==== Proof.KArgs.lean ====
import proofs.«415169_j41790031790248_2_alg».proof.Proof.Gen.KernelIdeal.Frame
import proofs.«415169_j41790031790248_2_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! The argument arrays of core c, named, and the two things every step is made of. -/
abbrev aX (c : Dev nD) : Cert.Spec.A2 50000 256 := m ((c.tc : Thread nD τ).loc main_arg0)
abbrev aIdx (c : Dev nD) : Cert.Spec.Edges := m ((c.tc : Thread nD τ).loc main_arg1)
abbrev aWl (c : Dev nD) : Cert.Spec.A2 256 128 := m ((c.tc : Thread nD τ).loc main_arg2)
abbrev aBl (c : Dev nD) : Cert.Spec.A1 128 := m ((c.tc : Thread nD τ).loc main_arg3)
abbrev aWo (c : Dev nD) : Cert.Spec.A2 128 128 := m ((c.tc : Thread nD τ).loc main_arg4)
abbrev aBo (c : Dev nD) : Cert.Spec.A1 128 := m ((c.tc : Thread nD τ).loc main_arg5)
abbrev aWa1 (c : Dev nD) : Cert.Spec.A2 256 32 := m ((c.tc : Thread nD τ).loc main_arg6)
abbrev aBa1 (c : Dev nD) : Cert.Spec.A1 32 := m ((c.tc : Thread nD τ).loc main_arg7)
abbrev aWa2 (c : Dev nD) : Cert.Spec.A2 32 1 := m ((c.tc : Thread nD τ).loc main_arg8)
abbrev aBa2 (c : Dev nD) : Cert.Spec.A1 1 := m ((c.tc : Thread nD τ).loc main_arg9)
abbrev aWn (c : Dev nD) : Cert.Spec.A2 128 128 := m ((c.tc : Thread nD τ).loc main_arg10)
/-- The encoder's node states. -/
abbrev S1 (c : Dev nD) : Cert.Spec.A2 50000 128 := Cert.Spec.encB (aX m c) (aWl m c) (Cert.Spec.bRow (aBl m c))
/-- One diffusion step at core c's arguments. -/
abbrev stp (c : Dev nD) (S : Cert.Spec.A2 50000 128) : Cert.Spec.A2 50000 128 :=
  Cert.Spec.step (aIdx m c) (aWa1 m c) (aBa1 m c) (aWa2 m c) (aBa2 m c) (aWn m c) S

end Cert.KernelIdeal.Val

end
-- ==== Proof.KTake.lean ====
import proofs.«415169_j41790031790248_2_alg».proof.KernelIdeal
import proofs.«415169_j41790031790248_2_alg».proof.Proof.Gen.KernelIdeal
import proofs.«415169_j41790031790248_2_alg».proof.Proof.Spec
import Idealize.ShloMosaic.Lib.ValueIdx
import Idealize.ShloMosaic.Lib.Affine
import Idealize.ShloMosaic.Lib.Pipeline.Value
import Idealize.ShloMosaic.PureOps.Reduce

noncomputable section

namespace Cert.KernelIdeal.Take

open Cert.KernelIdeal Cert.KernelIdeal.Gen
open Idealize.ShloMosaic Idealize.ShloMosaic.ValueIdx

/-- An index vector with the negative entries wrapped once (jax's index normalisation), as a column. -/
def wrapCol (d : IVec S800000 32) : IVec S800000x1 32 :=
  broadcastInDim S800000x1 ![0] bcast_S800000_S800000x1_0
    (select (cmpi .slt d (broadcastInDim S800000 ![] bcast_S_S800000 (constantI S_ 32 0#32)))
      (addi d (broadcastInDim S800000 ![] bcast_S_S800000 (constantI S_ 32 50000#32))) d)

/-- Which entries of the wrapped column lie in [0, 49999]. -/
def inBounds (v5 : IVec S800000x1 32) : IVec S800000 1 :=
  Host.reduce IntOp.andi
    (andi (cmpi .sge v5 (broadcastInDim S800000x1 ![] bcast_S_S800000x1 (constantI S_ 32 0#32)))
      (cmpi .sle v5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- jnp.take along axis 0 in fill mode, of a 128-column table: the gathered rows where the index is in bounds, the fill word elsewhere. -/
def take128 (S : FVec Ideal S50000x128 .f32) (d : IVec S800000 32) : FVec Ideal S800000x128 .f32 :=
  select (broadcastInDim S800000x128 ![0] bcast_S800000_S800000x128_0 (inBounds (wrapCol d)))
    (Host.gather gather_S50000x128_S800000x1_S800000x128_1_0_n_n_0_1_1128 S (wrapCol d))
    (broadcastInDim S800000x128 ![] bcast_S_S800000x128 (constant S_ .f32 0x7FC00000#32))

/-- The same of a 256-column table. -/
def take256 (S : FVec Ideal S50000x256 .f32) (d : IVec S800000 32) : FVec Ideal S800000x256 .f32 :=
  select (broadcastInDim S800000x256 ![0] bcast_S800000_S800000x256_0 (inBounds (wrapCol d)))
    (Host.gather gather_S50000x256_S800000x1_S800000x256_1_0_n_n_0_1_1256 S (wrapCol d))
    (broadcastInDim S800000x256 ![] bcast_S_S800000x256 (constant S_ .f32 0x7FC00000#32))

/-- The same of a vector. -/
def take1 (x : FVec Ideal S50000 .f32) (d : IVec S800000 32) : FVec Ideal S800000 .f32 :=
  select (inBounds (wrapCol d))
    (Host.gather gather_S50000_S800000x1_S800000_n_0_n_n_0_1_1 x (wrapCol d))
    (broadcastInDim S800000 ![] bcast_S_S800000 (constant S_ .f32 0x7FC00000#32))

/-! ## Words: the signed compares of a node index -/

private theorem toInt_zero32 : (0#32 : BitVec 32).toInt = 0 := by decide
private theorem toInt_top32 : (49999#32 : BitVec 32).toInt = 49999 := by decide

/-- A nonnegative word does not test below zero: the wrap's select keeps it. -/
private theorem not_slt_zero {w : BitVec 32} (h0 : 0 ≤ w.toInt) : IntOp.cmpi .slt w 0#32 = 0#1 := by
  apply eq_zero_of_ne_one
  intro h1
  have h2 := IntOp.cmpi_slt.1 h1
  rw [toInt_zero32] at h2
  omega

/-- A word in [0, 49999] passes both bounds tests. -/
private theorem in_bounds_word {w : BitVec 32} (h0 : 0 ≤ w.toInt) (h1 : w.toInt ≤ 49999) :
    IntOp.andi (IntOp.cmpi .sge w 0#32) (IntOp.cmpi .sle w 49999#32) = 1#1 := by
  refine IntOp.andi_eq_one.2 ⟨IntOp.cmpi_sge.2 ?_, IntOp.cmpi_sle.2 ?_⟩
  · rw [toInt_zero32]; exact h0
  · rw [toInt_top32]; exact h1

/-! ## A reduction by "and" of ones -/

/-- A reduction by "and", started at 1, of an array that is 1 everywhere is 1 everywhere. -/
private theorem reduce_andi_of_all {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  generalize List.filter _ _ = l
  have e : IntOp.andi (1#1) (1#1) = 1#1 := by decide
  induction l with
  | nil => rfl
  | cons a l ih => rw [List.foldl_cons, hx a, e]; exact ih

/-! ## The broadcasts read at an index -/

/-- A vector of 800000 entries laid down the rows of an [800000, m] array reads, at (e, c), its entry e. -/
private theorem bcast_rows_apply {α : Type} {m : Nat} (hb : S800000.BroadcastsInDim ⟨2, ![800000, m]⟩ ![0]) (v : S800000.Idx → α)
    (j : (⟨2, ![800000, m]⟩ : Shape).Idx) :
    broadcastInDim ⟨2, ![800000, m]⟩ ![0] hb v j = v (ix1 (j 0)) :=
  broadcastInDim_apply ![0] hb v j (ix1 (j 0)) (fun a => by
    obtain rfl : a = 0 := Subsingleton.elim _ _
    rw [if_neg (by decide)]
    rfl)

/-! ## The gathers read at an index -/

section Gather
variable {α : Type}

/-- The dimension numbers of a take of rows: operand [N, C], start indices [n, 1], result [n, C]; the row axis is
    collapsed and start-indexed, the column axis is the result's offset axis. -/
abbrev rowsDims (N n C : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The take of rows read at (e, c): the operand's row at the start index of e, read signed and clamped into [0, N − 1],
    at column c. -/
theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (y : (⟨2, ![n, C]⟩ : Shape).Idx) :
    Host.gather (rowsDims N n C wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    -- the row axis: the clamped start index; no batching, and a collapsed axis has no offset
    show (rowsDims N n C wf).start y idx 0 + (rowsDims N n C wf).batchCoord y 0 + (rowsDims N n C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n C wf).startIndexMap from List.mem_singleton.mpr rfl)]
    have hsi : (rowsDims N n C wf).siIdx y ⟨List.idxOf (0 : Fin 2) (rowsDims N n C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    -- the column axis: not start-indexed, no batching; the result's offset coordinate
    show (rowsDims N n C wf).start y idx 1 + (rowsDims N n C wf).batchCoord y 1 + (rowsDims N n C wf).offCoord y 1 = _
    have h10 : (1 : Fin 2) ∉ ([0] : List (Fin 2)) := fun h => Nat.one_ne_zero (congrArg Fin.val (List.mem_singleton.mp h))
    rw [GatherDims.batchCoord_eq_zero _ _ _ List.not_mem_nil]
    unfold GatherDims.start
    rw [dif_neg (show (1 : Fin 2) ∉ (rowsDims N n C wf).startIndexMap from h10)]
    unfold GatherDims.offCoord
    rw [dif_pos (show (1 : Fin 2) ∈ (rowsDims N n C wf).sKept from (GatherDims.mem_sKept _ _).mpr ⟨h10, List.not_mem_nil⟩)]
    simp only [Nat.zero_add, Nat.add_zero]
    rfl

/-- The dimension numbers of a take of entries: operand [N], start indices [n, 1], result [n]. -/
abbrev entriesDims (N n : Nat) (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- The take of entries read at e: the operand at the start index of e, read signed and clamped into [0, N − 1]. -/
theorem gather_entries_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (y : (⟨1, ![n]⟩ : Shape).Idx) :
    Host.gather (entriesDims N n wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (entriesDims N n wf).start y idx 0 + (entriesDims N n wf).batchCoord y 0 + (entriesDims N n wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N n wf).startIndexMap from List.mem_singleton.mpr rfl)]
  have hsi : (entriesDims N n wf).siIdx y ⟨List.idxOf (0 : Fin 1) (entriesDims N n wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## The index column and its bounds test, for an edge table in range -/

/-- Nothing is wrapped: the column holds the edges' entries. -/
theorem wrapCol_edge (idx : Cert.Spec.Edges) (r : Fin 2) (h : Cert.Spec.InRange idx) (j : S800000x1.Idx) :
    wrapCol (Cert.Spec.edgeVec idx r) j = idx (ix2 r (j 0)) := by
  unfold wrapCol
  rw [bcast_rows_apply, select_apply]
  show Scalar.select (IntOp.cmpi .slt (idx (ix2 r (j 0))) 0#32) _ _ = _
  rw [not_slt_zero (h _).1, select_zero]
  rfl

/-- Every entry passes the bounds test. -/
theorem inBounds_edge (idx : Cert.Spec.Edges) (r : Fin 2) (h : Cert.Spec.InRange idx) (i : S800000.Idx) :
    inBounds (wrapCol (Cert.Spec.edgeVec idx r)) i = 1#1 := by
  unfold inBounds
  refine reduce_andi_of_all _ _ _ _ rfl (fun j => ?_) i
  show IntOp.andi (IntOp.cmpi .sge (wrapCol (Cert.Spec.edgeVec idx r) j) 0#32)
    (IntOp.cmpi .sle (wrapCol (Cert.Spec.edgeVec idx r) j) 49999#32) = 1#1
  rw [wrapCol_edge idx r h j]
  exact in_bounds_word (h _).1 (by have := (h (ix2 r (j 0))).2; omega)

/-- With every index in range nothing is wrapped and nothing filled: the rows at the edges' entries. -/
theorem take128_eq (S : FVec Ideal S50000x128 .f32) (idx : Cert.Spec.Edges) (r : Fin 2) (h : Cert.Spec.InRange idx) :
    take128 S (Cert.Spec.edgeVec idx r) = Cert.Spec.gatherRows S idx r := by
  funext i
  unfold take128
  rw [select_apply, bcast_rows_apply, inBounds_edge idx r h, select_one,
    show gather_S50000x128_S800000x1_S800000x128_1_0_n_n_0_1_1128
      = rowsDims 50000 800000 128 gather_S50000x128_S800000x1_S800000x128_1_0_n_n_0_1_1128_wf from rfl,
    gather_rows_apply (N := 50000) (by decide)]
  show S _ = S (ix2 (Cert.Spec.row idx r (i 0)) (i 1))
  refine congrArg S (congrArg (fun a => ix2 a (i 1)) (Fin.ext ?_))
  show min (wrapCol (Cert.Spec.edgeVec idx r) (ix2 (i 0) (0 : Fin 1))).toInt.toNat (50000 - 1)
    = min (idx (ix2 r (i 0))).toInt.toNat 49999
  rw [wrapCol_edge idx r h]

theorem take256_eq (S : FVec Ideal S50000x256 .f32) (idx : Cert.Spec.Edges) (r : Fin 2) (h : Cert.Spec.InRange idx) :
    take256 S (Cert.Spec.edgeVec idx r) = Cert.Spec.gatherRows S idx r := by
  funext i
  unfold take256
  rw [select_apply, bcast_rows_apply, inBounds_edge idx r h, select_one,
    show gather_S50000x256_S800000x1_S800000x256_1_0_n_n_0_1_1256
      = rowsDims 50000 800000 256 gather_S50000x256_S800000x1_S800000x256_1_0_n_n_0_1_1256_wf from rfl,
    gather_rows_apply (N := 50000) (by decide)]
  show S _ = S (ix2 (Cert.Spec.row idx r (i 0)) (i 1))
  refine congrArg S (congrArg (fun a => ix2 a (i 1)) (Fin.ext ?_))
  show min (wrapCol (Cert.Spec.edgeVec idx r) (ix2 (i 0) (0 : Fin 1))).toInt.toNat (50000 - 1)
    = min (idx (ix2 r (i 0))).toInt.toNat 49999
  rw [wrapCol_edge idx r h]

theorem take1_eq (x : FVec Ideal S50000 .f32) (idx : Cert.Spec.Edges) (r : Fin 2) (h : Cert.Spec.InRange idx) :
    take1 x (Cert.Spec.edgeVec idx r) = fun i => x (ix1 (Cert.Spec.row idx r (i 0))) := by
  funext i
  unfold take1
  rw [select_apply, inBounds_edge idx r h, select_one,
    show gather_S50000_S800000x1_S800000_n_0_n_n_0_1_1
      = entriesDims 50000 800000 gather_S50000_S800000x1_S800000_n_0_n_n_0_1_1_wf from rfl,
    gather_entries_apply (N := 50000) (by decide)]
  show x _ = x (ix1 (Cert.Spec.row idx r (i 0)))
  refine congrArg x (congrArg (fun a => ix1 a) (Fin.ext ?_))
  show min (wrapCol (Cert.Spec.edgeVec idx r) (ix2 (i 0) (0 : Fin 1))).toInt.toNat (50000 - 1)
    = min (idx (ix2 r (i 0))).toInt.toNat 49999
  rw [wrapCol_edge idx r h]

end Cert.KernelIdeal.Take

end
-- ==== Proof.KStretch.lean ====
import proofs.«415169_j41790031790248_2_alg».proof.Proof.Gen.KernelIdeal.Launch
import proofs.«415169_j41790031790248_2_alg».proof.Proof.KTake
import Idealize.ShloMosaic.Lib.StableHlo.Run

set_option maxRecDepth 16384
set_option Elab.async false

noncomputable section

namespace Cert.KernelIdeal.Val

open Cert.KernelIdeal Cert.KernelIdeal.Gen
open Idealize.ShloMosaic Idealize.ShloMosaic.TcCoe Idealize.ShloMosaic.ValueIdx Idealize.ShloMosaic.StableHlo

/-! The six stretches of host operations that are a take (three in each diffusion step): from any contents W, the buffer the
    stretch returns holds the take of the table buffer at the index buffer. -/

/-! ## Contents at a value's type and at its buffer's type

A typed reference moves contents between the value's type and the buffer's own type along the equation of the two; at
a literal buffer that equation holds by computation and the move is the identity. -/

namespace Stretch

/-- Contents moved to a buffer's own type and back are the contents. -/
theorem ofBuf_toBuf {Val : EltTy → Type} {T : BufTy} (r : Ref sig .tc) (h1 h1' : r.ty = T) (h2 h2' : r.space ≠ .host)
    (h3 h3' : r.isScoped = false) (v : T.Contents Val) :
    (TRef.of r h1 h2 h3).ofBuf ((TRef.of r h1' h2' h3').toBuf v) = v := by
  subst h1
  rfl

/-! The results' buffers: contents moved to the buffer's type are the contents. -/

theorem to_v8 (h1 : main_v8.ty = ⟨S800000x128, .f32⟩) (h2 : main_v8.space ≠ .host) (h3 : main_v8.isScoped = false)
    (v : FVec Ideal S800000x128 .f32) : (TRef.of main_v8 h1 h2 h3).toBuf (Val := Elt Ideal) v = v := rfl
theorem to_v9 (h1 : main_v9.ty = ⟨S800000x256, .f32⟩) (h2 : main_v9.space ≠ .host) (h3 : main_v9.isScoped = false)
    (v : FVec Ideal S800000x256 .f32) : (TRef.of main_v9 h1 h2 h3).toBuf (Val := Elt Ideal) v = v := rfl
theorem to_v21 (h1 : main_v21.ty = ⟨S800000, .f32⟩) (h2 : main_v21.space ≠ .host) (h3 : main_v21.isScoped = false)
    (v : FVec Ideal S800000 .f32) : (TRef.of main_v21 h1 h2 h3).toBuf (Val := Elt Ideal) v = v := rfl
theorem to_v35 (h1 : main_v35.ty = ⟨S800000x128, .f32⟩) (h2 : main_v35.space ≠ .host) (h3 : main_v35.isScoped = false)
    (v : FVec Ideal S800000x128 .f32) : (TRef.of main_v35 h1 h2 h3).toBuf (Val := Elt Ideal) v = v := rfl
theorem to_v36 (h1 : main_v36.ty = ⟨S800000x256, .f32⟩) (h2 : main_v36.space ≠ .host) (h3 : main_v36.isScoped = false)
    (v : FVec Ideal S800000x256 .f32) : (TRef.of main_v36 h1 h2 h3).toBuf (Val := Elt Ideal) v = v := rfl
theorem to_v48 (h1 : main_v48.ty = ⟨S800000, .f32⟩) (h2 : main_v48.space ≠ .host) (h3 : main_v48.isScoped = false)
    (v : FVec Ideal S800000 .f32) : (TRef.of main_v48 h1 h2 h3).toBuf (Val := Elt Ideal) v = v := rfl

/-! The tables' and the index vectors' buffers: contents read at the value's type are the contents. -/

theorem of_v6 (h1 : main_v6.ty = ⟨S50000x128, .f32⟩) (h2 : main_v6.space ≠ .host) (h3 : main_v6.isScoped = false)
    (v : main_v6.ty.Contents (Elt Ideal)) : (TRef.of main_v6 h1 h2 h3).ofBuf (Val := Elt Ideal) v = v := rfl
theorem of_v5 (h1 : main_v5.ty = ⟨S50000x256, .f32⟩) (h2 : main_v5.space ≠ .host) (h3 : main_v5.isScoped = false)
    (v : main_v5.ty.Contents (Elt Ideal)) : (TRef.of main_v5 h1 h2 h3).ofBuf (Val := Elt Ideal) v = v := rfl
theorem of_v20 (h1 : main_v20.ty = ⟨S50000, .f32⟩) (h2 : main_v20.space ≠ .host) (h3 : main_v20.isScoped = false)
    (v : main_v20.ty.Contents (Elt Ideal)) : (TRef.of main_v20 h1 h2 h3).ofBuf (Val := Elt Ideal) v = v := rfl
theorem of_v33 (h1 : main_v33.ty = ⟨S50000x128, .f32⟩) (h2 : main_v33.space ≠ .host) (h3 : main_v33.isScoped = false)
    (v : main_v33.ty.Contents (Elt Ideal)) : (TRef.of main_v33 h1 h2 h3).ofBuf (Val := Elt Ideal) v = v := rfl
theorem of_v32 (h1 : main_v32.ty = ⟨S50000x256, .f32⟩) (h2 : main_v32.space ≠ .host) (h3 : main_v32.isScoped = false)
    (v : main_v32.ty.Contents (Elt Ideal)) : (TRef.of main_v32 h1 h2 h3).ofBuf (Val := Elt Ideal) v = v := rfl
theorem of_v47 (h1 : main_v47.ty = ⟨S50000, .f32⟩) (h2 : main_v47.space ≠ .host) (h3 : main_v47.isScoped = false)
    (v : main_v47.ty.Contents (Elt Ideal)) : (TRef.of main_v47 h1 h2 h3).ofBuf (Val := Elt Ideal) v = v := rfl
theorem of_v3 (h1 : main_v3.ty = ⟨S800000, .i32⟩) (h2 : main_v3.space ≠ .host) (h3 : main_v3.isScoped = false)
    (v : main_v3.ty.Contents (Elt Ideal)) : (TRef.of main_v3 h1 h2 h3).ofBuf (Val := Elt Ideal) v = v := rfl
theorem of_v1 (h1 : main_v1.ty = ⟨S800000, .i32⟩) (h2 : main_v1.space ≠ .host) (h3 : main_v1.isScoped = false)
    (v : main_v1.ty.Contents (Elt Ideal)) : (TRef.of main_v1 h1 h2 h3).ofBuf (Val := Elt Ideal) v = v := rfl

end Stretch

open Stretch

theorem hostOps1_1_main_v8 (W : Valuation τ sig (Elt Ideal)) :
    StableHlo.after (hostOps1_1 (F := Ideal)) W (Proc.devRef .tc main_v8)
      = Cert.KernelIdeal.Take.take128 (W (Proc.devRef .tc main_v6)) (W (Proc.devRef .tc main_v3)) := by
  -- each operation's result at its own buffer; the moves between a value's type and its buffer's type are identities;
  -- what is left is the take's own term
  after_results_simp
  simp only [ofBuf_toBuf]
  rw [to_v8]
  simp only [of_v6, of_v3]
  rfl

theorem hostOps1_2_main_v9 (W : Valuation τ sig (Elt Ideal)) :
    StableHlo.after (hostOps1_2 (F := Ideal)) W (Proc.devRef .tc main_v9)
      = Cert.KernelIdeal.Take.take256 (W (Proc.devRef .tc main_v5)) (W (Proc.devRef .tc main_v1)) := by
  -- each operation's result at its own buffer; the moves between a value's type and its buffer's type are identities;
  -- what is left is the take's own term
  after_results_simp
  simp only [ofBuf_toBuf]
  rw [to_v9]
  simp only [of_v5, of_v1]
  rfl

theorem hostOps2_1_main_v21 (W : Valuation τ sig (Elt Ideal)) :
    StableHlo.after (hostOps2_1 (F := Ideal)) W (Proc.devRef .tc main_v21)
      = Cert.KernelIdeal.Take.take1 (W (Proc.devRef .tc main_v20)) (W (Proc.devRef .tc main_v1)) := by
  -- each operation's result at its own buffer; the moves between a value's type and its buffer's type are identities;
  -- what is left is the take's own term
  after_results_simp
  simp only [ofBuf_toBuf]
  rw [to_v21]
  simp only [of_v20, of_v1]
  rfl

theorem hostOps4_1_main_v35 (W : Valuation τ sig (Elt Ideal)) :
    StableHlo.after (hostOps4_1 (F := Ideal)) W (Proc.devRef .tc main_v35)
      = Cert.KernelIdeal.Take.take128 (W (Proc.devRef .tc main_v33)) (W (Proc.devRef .tc main_v3)) := by
  -- each operation's result at its own buffer; the moves between a value's type and its buffer's type are identities;
  -- what is left is the take's own term
  after_results_simp
  simp only [ofBuf_toBuf]
  rw [to_v35]
  simp only [of_v33, of_v3]
  rfl

theorem hostOps4_2_main_v36 (W : Valuation τ sig (Elt Ideal)) :
    StableHlo.after (hostOps4_2 (F := Ideal)) W (Proc.devRef .tc main_v36)
      = Cert.KernelIdeal.Take.take256 (W (Proc.devRef .tc main_v32)) (W (Proc.devRef .tc main_v1)) := by
  -- each operation's result at its own buffer; the moves between a value's type and its buffer's type are identities;
  -- what is left is the take's own term
  after_results_simp
  simp only [ofBuf_toBuf]
  rw [to_v36]
  simp only [of_v32, of_v1]
  rfl

theorem hostOps5_1_main_v48 (W : Valuation τ sig (Elt Ideal)) :
    StableHlo.after (hostOps5_1 (F := Ideal)) W (Proc.devRef .tc main_v48)
      = Cert.KernelIdeal.Take.take1 (W (Proc.devRef .tc main_v47)) (W (Proc.devRef .tc main_v1)) := by
  -- each operation's result at its own buffer; the moves between a value's type and its buffer's type are identities;
  -- what is left is the take's own term
  after_results_simp
  simp only [ofBuf_toBuf]
  rw [to_v48]
  simp only [of_v47, of_v1]
  rfl

end Cert.KernelIdeal.Val

end
-- ==== Proof.Reg0.lean ====
/-
  The encoder region. At every one of its ten grid points the body holds a block of 5000 rows of X, the whole of
  W_lin, the bias as one row, and the whole of W_node. It stores S = relu (X · W_lin + b) into the left 128 columns
  of its 5000 × 256 output block and S · W_node into the right 128 columns. Both products contract a single axis
  into a zero accumulator, so at an index each is the plain sum over that axis. The two stores tile the block, so
  the block ends as one function of the four inputs; a row of that function depends only on the same row of X, so
  block t of the output is rows 5000 t … 5000 t + 4999 of the whole array's function, and the ten blocks cover the array.
-/
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## The two products of the body, read at an index -/

/-- The first product contracts the 256 columns of the block of X with the 256 rows of W_lin: at output index (p, q)
    and contraction position k the left operand is read at (p, k) and the right one at (k, q). The four coordinate
    facts, one per operand axis. -/
private theorem lhsX_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
private theorem lhsX_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhsX_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhsX_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The first product into the zero accumulator, at (p, q): the sum over k of X[p, k] · W[k, q]. -/
private theorem mmX_apply (x0 : FVec Ideal S5000x256 .f32) (x1 : FVec Ideal S256x128 .f32) (p : Fin 5000) (q : Fin 128) :
    matmul dot_S5000x256_S256x128_S5000x128_1_0_0_1_n_n none x0 x1 (constant (F := Ideal) S5000x128 .f32 0x00000000#32) (ix2 p q)
      = ∑ k : Fin 256, x0 (ix2 p k) * x1 (ix2 k q) := by
  simp only [matmul]
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact lhsX_0 _ _
      | ⟨1, _⟩ => exact (lhsX_1 _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (rhsX_0 _ _).trans hk
      | ⟨1, _⟩ => exact rhsX_1 _ _)
  rw [el, er]

/-- The first store's payload at (p, q): relu of the row of X times the column of W_lin plus the bias entry. -/
private theorem pay1_apply (x0 : Vec Ideal S5000x256 .f32) (x1 : Vec Ideal S256x128 .f32) (x2 : Vec Ideal S1x128 .f32)
    (p : Fin 5000) (q : Fin 128) :
    k0_pay1 (F := Ideal) x0 x1 x2 (ix2 p q)
      = Cert.Spec.relu ((∑ k : Fin 256, x0 (ix2 p k) * x1 (ix2 k q)) + x2 (ix2 (0 : Fin 1) q)) := by
  unfold k0_pay1 Cert.Spec.relu Cert.Spec.zeroW
  refine (maximumf_apply _ _ _).trans (congrArg₂ max ?_ rfl)
  refine (addf_apply _ _ _).trans (congrArg₂ (· + ·) (mmX_apply x0 x1 p q) ?_)
  refine (broadcastTo_apply _ _ _ (ix2 (0 : Fin 1) q) (fun a => ?_)).trans ?_
  · match a with
    | ⟨0, _⟩ => rfl
    | ⟨1, _⟩ => rfl
  · exact congrFun (shapeCast_self x2 _) _

/-- The second product contracts the 128 columns of the first payload with the 128 rows of W_node. -/
private theorem lhsN_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
private theorem lhsN_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhsN_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhsN_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The second product into the zero accumulator, at (p, q): the sum over k of S[p, k] · W_node[k, q]. -/
private theorem mmN_apply (s : FVec Ideal S5000x128 .f32) (x3 : FVec Ideal S128x128 .f32) (p : Fin 5000) (q : Fin 128) :
    matmul dot_S5000x128_S128x128_S5000x128_1_0_0_1_n_n none s x3 (constant (F := Ideal) S5000x128 .f32 0x00000000#32) (ix2 p q)
      = ∑ k : Fin 128, s (ix2 p k) * x3 (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhsN_0 _ _
      | ⟨1, _⟩ => exact (lhsN_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhsN_0 _ _).trans hk
      | ⟨1, _⟩ => exact rhsN_1 _ _)
  rw [el, er]

/-- The second store's payload at (p, q): the row of the first payload times the column of W_node. -/
private theorem pay2_apply (x0 : Vec Ideal S5000x256 .f32) (x1 : Vec Ideal S256x128 .f32) (x2 : Vec Ideal S1x128 .f32)
    (x3 : Vec Ideal S128x128 .f32) (p : Fin 5000) (q : Fin 128) :
    k0_pay2 (F := Ideal) x0 x1 x2 x3 (ix2 p q) = ∑ k : Fin 128, k0_pay1 (F := Ideal) x0 x1 x2 (ix2 p k) * x3 (ix2 k q) := by
  unfold k0_pay2
  exact mmN_apply (k0_pay1 (F := Ideal) x0 x1 x2) x3 p q

/-! ## What the body leaves in the output block -/

/-- relu (X · W + b) of a block of 5000 rows. -/
private def encBlk (x0 : Vec Ideal S5000x256 .f32) (x1 : Vec Ideal S256x128 .f32) (x2 : Vec Ideal S1x128 .f32) :
    Cert.Spec.A2 5000 128 :=
  fun i => Cert.Spec.relu ((∑ k : Fin 256, x0 (ix2 (i 0) k) * x1 (ix2 k (i 1))) + x2 (ix2 (0 : Fin 1) (i 1)))

/-- The block the body leaves: the encoded rows beside their image under W_node. -/
private def blk0 (x0 : Vec Ideal S5000x256 .f32) (x1 : Vec Ideal S256x128 .f32) (x2 : Vec Ideal S1x128 .f32)
    (x3 : Vec Ideal S128x128 .f32) : Cert.Spec.A2 5000 256 :=
  Cert.Spec.pack (encBlk x0 x1 x2) (Cert.Spec.mm (encBlk x0 x1 x2) x3)

/-- A column below 128 of two matrices side by side is a column of the left one; -/
private theorem pack_left {n : Nat} (S T : Cert.Spec.A2 n 128) (p : Fin n) (q : Fin 128) (h : q.val < 256) :
    Cert.Spec.pack S T (ix2 p ⟨q.val, h⟩) = S (ix2 p q) := by
  unfold Cert.Spec.pack
  split
  · rfl
  · rename_i hn; exact absurd q.isLt hn
/-- a column from 128 on is a column of the right one. -/
private theorem pack_right {n : Nat} (S T : Cert.Spec.A2 n 128) (p : Fin n) (q : Fin 128) (h : 128 + q.val < 256) :
    Cert.Spec.pack S T (ix2 p ⟨128 + q.val, h⟩) = T (ix2 p q) := by
  unfold Cert.Spec.pack
  split
  · rename_i hn
    have hn' : 128 + q.val < 128 := hn
    omega
  · exact congrArg T (congrArg (ix2 p) (Fin.ext (show 128 + q.val - 128 = q.val by omega)))

private theorem hz0 : (![0, 0] : Fin 2 → Nat) = fun _ => 0 := funext fun a => by fin_cases a <;> rfl

/-- The left store's rectangle is columns 0 to 127 of the block, and its payload is the block's function there; -/
private theorem left_piece (x0 : Vec Ideal S5000x256 .f32) (x1 : Vec Ideal S256x128 .f32) (x2 : Vec Ideal S1x128 .f32)
    (x3 : Vec Ideal S128x128 .f32) (j : S5000x128.Idx) :
    k0_pay1 (F := Ideal) x0 x1 x2 j = blk0 x0 x1 x2 x3 (r0_4.emb j) := by
  obtain ⟨p, q, rfl⟩ : ∃ (p : Fin 5000) (q : Fin 128), j = ix2 p q := ⟨j 0, j 1, eq_ix2 j⟩
  have e : r0_4.emb (ix2 p q) = ix2 p ⟨q.val, by omega⟩ := funext fun a => Fin.ext (by
    match a with
    | ⟨0, _⟩ => show 0 + 1 * p.val = p.val; omega
    | ⟨1, _⟩ => show 0 + 1 * q.val = q.val; omega)
  rw [e]
  unfold blk0
  rw [pack_left, pay1_apply]
  rfl
/-- the right store's rectangle is columns 128 to 255, and its payload is the block's function there. -/
private theorem right_piece (x0 : Vec Ideal S5000x256 .f32) (x1 : Vec Ideal S256x128 .f32) (x2 : Vec Ideal S1x128 .f32)
    (x3 : Vec Ideal S128x128 .f32) (j : S5000x128.Idx) :
    k0_pay2 (F := Ideal) x0 x1 x2 x3 j = blk0 x0 x1 x2 x3 (r0_5.emb j) := by
  obtain ⟨p, q, rfl⟩ : ∃ (p : Fin 5000) (q : Fin 128), j = ix2 p q := ⟨j 0, j 1, eq_ix2 j⟩
  have e : r0_5.emb (ix2 p q) = ix2 p ⟨128 + q.val, by omega⟩ := funext fun a => Fin.ext (by
    match a with
    | ⟨0, _⟩ => show 0 + 1 * p.val = p.val; omega
    | ⟨1, _⟩ => show 128 + 1 * q.val = 128 + q.val; omega)
  rw [e]
  unfold blk0
  rw [pack_right, pay2_apply]
  unfold Cert.Spec.mm
  refine Finset.sum_congr rfl fun k _ => ?_
  rw [pay1_apply]
  rfl

/-- The two stores tile the block, each with the block's function on its own columns: the body leaves the block's
    function. -/
private theorem out0_4_eq (x0 : Vec Ideal S5000x256 .f32) (x1 : Vec Ideal S256x128 .f32) (x2 : Vec Ideal S1x128 .f32)
    (x3 : Vec Ideal S128x128 .f32) : out0_4 (F := Ideal) x0 x1 x2 x3 = blk0 x0 x1 x2 x3 := by
  funext y
  unfold out0_4
  rw [View.ld_unit_zero (S := S5000x256) hz0, View.ld_unit_zero (S := S256x128) hz0, View.ld_unit_zero (S := S1x128) hz0,
    View.ld_unit_zero (S := S128x128) hz0]
  refine View.canon_apply_of_pieces (Val := Elt Ideal) (S := S5000x256) (e := .f32) (blk0 x0 x1 x2 x3) _ (fun pc hp j => ?_) y (cover0_4 _ _ y)
  simp only [List.mem_cons, List.mem_nil_iff, or_false] at hp
  rcases hp with rfl | rfl
  · exact right_piece x0 x1 x2 x3 j
  · exact left_piece x0 x1 x2 x3 j

/-! ## From blocks to the array -/

private theorem colL_lt (q : Fin 128) : q.val < 256 := by have := q.isLt; omega
private theorem colR_lt (q : Fin 128) : 128 + q.val < 256 := by have := q.isLt; omega

/-- Row p of block t is a row of the array. -/
private theorem row_lt {t : Nat} (ht : t < 10) (p : Fin 5000) : t * 5000 + p.val < 50000 := by
  have := p.isLt; omega

/-- The block function of a block of X that is rows 5000 t … 5000 t + 4999 of the array, with the weights and the bias
    whole, is the array's function on those rows. -/
private theorem blk0_eq_reg0 (X : Cert.Spec.A2 50000 256) (W : Cert.Spec.A2 256 128) (b : Cert.Spec.A2 1 128)
    (Wn : Cert.Spec.A2 128 128)
    (x0 : Vec Ideal S5000x256 .f32) (x1 : Vec Ideal S256x128 .f32) (x2 : Vec Ideal S1x128 .f32) (x3 : Vec Ideal S128x128 .f32)
    (t : Nat) (ht : t < 10)
    (h0 : ∀ (p : Fin 5000) (k : Fin 256), x0 (ix2 p k) = X (ix2 ⟨t * 5000 + p.val, row_lt ht p⟩ k))
    (h1 : ∀ y, x1 y = W y) (h2 : ∀ y, x2 y = b y) (h3 : ∀ y, x3 y = Wn y)
    (j : S5000x256.Idx) (i : S50000x256.Idx) (hi0 : (i 0).val = t * 5000 + (j 0).val) (hi1 : (i 1).val = (j 1).val) :
    blk0 x0 x1 x2 x3 j = Cert.Spec.reg0 X W b Wn i := by
  obtain rfl : x1 = W := funext h1
  obtain rfl : x2 = b := funext h2
  obtain rfl : x3 = Wn := funext h3
  obtain ⟨p, q, rfl⟩ : ∃ (p : Fin 5000) (q : Fin 256), j = ix2 p q := ⟨j 0, j 1, eq_ix2 j⟩
  have hi : i = ix2 ⟨t * 5000 + p.val, row_lt ht p⟩ q := by
    rw [eq_ix2 i]
    exact congrArg₂ ix2 (Fin.ext hi0) (Fin.ext hi1)
  rw [hi]
  have henc : ∀ q' : Fin 128, encBlk x0 x1 x2 (ix2 p q') = Cert.Spec.encB X x1 x2 (ix2 ⟨t * 5000 + p.val, row_lt ht p⟩ q') := by
    intro q'
    unfold encBlk Cert.Spec.encB
    simp only [h0]
  have hmm : ∀ q' : Fin 128, Cert.Spec.mm (encBlk x0 x1 x2) x3 (ix2 p q')
      = Cert.Spec.mm (Cert.Spec.encB X x1 x2) x3 (ix2 ⟨t * 5000 + p.val, row_lt ht p⟩ q') := by
    intro q'
    unfold Cert.Spec.mm
    refine Finset.sum_congr rfl fun k _ => ?_
    exact congrArg (· * x3 (ix2 k q')) (henc k)
  unfold blk0 Cert.Spec.reg0
  by_cases hq : q.val < 128
  · obtain ⟨q', rfl⟩ : ∃ q' : Fin 128, q = ⟨q'.val, colL_lt q'⟩ := ⟨⟨q.val, hq⟩, rfl⟩
    rw [pack_left, pack_left]
    exact henc q'
  · obtain ⟨q', rfl⟩ : ∃ q' : Fin 128, q = ⟨128 + q'.val, colR_lt q'⟩ :=
      ⟨⟨q.val - 128, by omega⟩, Fin.ext (show q.val = 128 + (q.val - 128) by omega)⟩
    rw [pack_right, pack_right]
    exact hmm q'

/-- The index maps over the grid: the blocks of X and of the output at point t are block t of the rows, whole
    in the columns; the weights' and the bias's block is the whole array at every point. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the array's function of the arrays the region found. -/
private theorem flushed0_eq (c : Dev nD) (t : Fin cfg0.N) :
    (dat0 (F := Ideal) V c).flushed 4 t = ((cfg0.win 4).blk t).view.read (Elt Ideal)
      (Cert.Spec.reg0 (V c (Pipeline.arrRef spec0 0)) (V c (Pipeline.arrRef spec0 1)) (V c (Pipeline.arrRef spec0 2)) (V c (Pipeline.arrRef spec0 3))) := by
  show (cfg0.win 4).cut (grid0.coords t) ((dat0 (F := Ideal) V c).after 4 t) = _
  rw [after0_4 V c t, out0_4_eq]
  obtain ⟨e00, e01, e10, e11, e20, e21, e30, e31, e40, e41⟩ := idx_facts0 t
  have ht : t.val < 10 := lt_of_lt_of_eq t.isLt (show cfg0.N = 10 from N_0)
  funext j
  show blk0 (iblk0 V c 0 t) (iblk0 V c 1 t) (iblk0 V c 2 t) (iblk0 V c 3 t) j
    = Cert.Spec.reg0 (V c (Pipeline.arrRef spec0 0)) (V c (Pipeline.arrRef spec0 1)) (V c (Pipeline.arrRef spec0 2))
        (V c (Pipeline.arrRef spec0 3)) (((cfg0.win 4).blk t).view.emb j)
  refine blk0_eq_reg0 (V c (Pipeline.arrRef spec0 0)) (V c (Pipeline.arrRef spec0 1)) (V c (Pipeline.arrRef spec0 2))
    (V c (Pipeline.arrRef spec0 3)) (iblk0 V c 0 t) (iblk0 V c 1 t) (iblk0 V c 2 t) (iblk0 V c 3 t) t.val ht ?_ ?_ ?_ ?_
    j (((cfg0.win 4).blk t).view.emb j) ?_ ?_
  · intro p k
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · intro y
    show V c (Pipeline.arrRef spec0 1) (((cfg0.win 1).blk t).view.emb y) = _
    refine congrArg (V c (Pipeline.arrRef spec0 1)) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · intro y
    show V c (Pipeline.arrRef spec0 2) (((cfg0.win 2).blk t).view.emb y) = _
    refine congrArg (V c (Pipeline.arrRef spec0 2)) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · intro y
    show V c (Pipeline.arrRef spec0 3) (((cfg0.win 3).blk t).view.emb y) = _
    refine congrArg (V c (Pipeline.arrRef spec0 3)) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · show win0_4.index t (0 : Fin 2) * 5000 + 1 * (j 0).val = t.val * 5000 + (j 0).val; omega
  · show win0_4.index t (1 : Fin 2) * 256 + 1 * (j 1).val = (j 1).val; omega

/-- An index of the output array is in point t's block iff each coordinate is in the block's range on its axis. -/
private theorem mem_blk0 (t : Fin cfg0.N) (i : S50000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v5).slice (win0_4.rect t)).set ↔ _
  rw [View.set_slice_whole, Rect.mem_set_unit]
  exact Iff.rfl

/-- The ten blocks of 5000 rows cover the array: row r is in the block of point r / 5000. -/
private theorem covered0 (i : S50000x256.Idx) :
    ∃ t : Fin cfg0.N, (cfg0.win 4).flush t = true ∧ i ∈ ((cfg0.win 4).blk t).view.set := by
  have hi0 : (i 0).val < 50000 := idx2_lt0 i
  have hi1 : (i 1).val < 256 := idx2_lt1 i
  have hN : (i 0).val / 5000 < cfg0.N := by rw [show cfg0.N = 10 from N_0]; omega
  obtain ⟨-, -, -, -, -, -, -, -, e40, e41⟩ := idx_facts0 ⟨(i 0).val / 5000, hN⟩
  have e40' : win0_4.index ⟨(i 0).val / 5000, hN⟩ (0 : Fin 2) = (i 0).val / 5000 := e40
  refine ⟨⟨(i 0).val / 5000, hN⟩, flush0_4 _, ?_⟩
  rw [mem_blk0]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    omega
  | ⟨1, _⟩ =>
    show win0_4.index ⟨(i 0).val / 5000, hN⟩ (1 : Fin 2) * 256 ≤ (i 1).val
      ∧ (i 1).val < win0_4.index ⟨(i 0).val / 5000, hN⟩ (1 : Fin 2) * 256 + 256
    omega

/-- The encoder region: the node states beside their image under W_node, every block of 5000 rows written whole. After the region's last grid point its output array is this function of the arrays the region found. -/
theorem final0 (c : Dev nD) :
    (dat0 (F := Ideal) V c).arrAt 4 cfg0.N = Cert.Spec.reg0 (V c (Pipeline.arrRef spec0 0)) (V c (Pipeline.arrRef spec0 1)) (V c (Pipeline.arrRef spec0 2)) (V c (Pipeline.arrRef spec0 3)) :=
  (dat0 (F := Ideal) V c).arrAt_eq_of_cover 4
    (Cert.Spec.reg0 (V c (Pipeline.arrRef spec0 0)) (V c (Pipeline.arrRef spec0 1)) (V c (Pipeline.arrRef spec0 2)) (V c (Pipeline.arrRef spec0 3)))
    (fun t _ => flushed0_eq V c t) covered0

end Cert.KernelIdeal.Val

end
-- ==== Proof.Reg1.lean ====
import proofs.«415169_j41790031790248_2_alg».proof.Proof.Gen.KernelIdeal.Frame
import proofs.«415169_j41790031790248_2_alg».proof.Proof.Spec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The two contractions' operand indices, axis by axis

The first layer's products contract the 128 columns of a block of states with the 128 rows of a weight; the second
layer's product contracts the 32 hidden units with the 32 rows of W₂. At output index (r, c) and contraction position k
the left operand is read at (r, k) and the right at (k, c). -/

private theorem lhs_first_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl

private theorem lhs_first_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q

private theorem rhs_first_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q

private theorem rhs_first_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

private theorem lhs_second_0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide),
    dif_pos (show (0 : Fin S10000x32.rank) ∈ dot_S10000x32_S32x1_S10000x1_1_0_0_1_n_n.lhsNonContracting by decide)]
  rfl

private theorem lhs_second_1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q

private theorem rhs_second_0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q

private theorem rhs_second_1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide),
    dif_pos (show (1 : Fin S32x1.rank) ∈ dot_S10000x32_S32x1_S10000x1_1_0_0_1_n_n.rhsNonContracting by decide)]
  rfl

/-- A first-layer product into the zero accumulator, at row r and hidden unit j: the sum over the 128 columns. -/
private theorem mm_first_apply (x : FVec Ideal S10000x128 .f32) (w : FVec Ideal S128x32 .f32) (r : Fin 10000) (j : Fin 32) :
    matmul dot_S10000x128_S128x32_S10000x32_1_0_0_1_n_n none x w (constant S10000x32 .f32 0x00000000#32) (ix2 r j)
      = ∑ k : Fin 128, x (ix2 r k) * w (ix2 k j) := by
  simp only [matmul]
  rw [Ideal.matmul_constant_zero_apply,
    ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r j)
      ((contrEquiv1 dot_S10000x128_S128x32_S10000x32_1_0_0_1_n_n 128 rfl rfl).symm k) = ix2 r k :=
    funext fun a => Fin.ext (by
      match a with
      | ⟨0, _⟩ => exact lhs_first_0 _ _
      | ⟨1, _⟩ => exact (lhs_first_1 _ _).trans hk)
  have er : dot_S10000x128_S128x32_S10000x32_1_0_0_1_n_n.rhsIdx (ix2 r j)
      ((contrEquiv1 dot_S10000x128_S128x32_S10000x32_1_0_0_1_n_n 128 rfl rfl).symm k) = ix2 k j :=
    funext fun a => Fin.ext (by
      match a with
      | ⟨0, _⟩ => exact (rhs_first_0 _ _).trans hk
      | ⟨1, _⟩ => exact rhs_first_1 _ _)
  rw [el, er]

/-- The second-layer product into the zero accumulator, at row r and column c: the sum over the 32 hidden units. -/
private theorem mm_second_apply (h : FVec Ideal S10000x32 .f32) (w : FVec Ideal S32x1 .f32) (r : Fin 10000) (c : Fin 1) :
    matmul dot_S10000x32_S32x1_S10000x1_1_0_0_1_n_n none h w (constant S10000x1 .f32 0x00000000#32) (ix2 r c)
      = ∑ j : Fin 32, h (ix2 r j) * w (ix2 j c) := by
  simp only [matmul]
  rw [Ideal.matmul_constant_zero_apply,
    ← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 r c)
      ((contrEquiv1 dot_S10000x32_S32x1_S10000x1_1_0_0_1_n_n 32 rfl rfl).symm k) = ix2 r k :=
    funext fun a => Fin.ext (by
      match a with
      | ⟨0, _⟩ => exact lhs_second_0 _ _
      | ⟨1, _⟩ => exact (lhs_second_1 _ _).trans hk)
  have er : dot_S10000x32_S32x1_S10000x1_1_0_0_1_n_n.rhsIdx (ix2 r c)
      ((contrEquiv1 dot_S10000x32_S32x1_S10000x1_1_0_0_1_n_n 32 rfl rfl).symm k) = ix2 k c :=
    funext fun a => Fin.ext (by
      match a with
      | ⟨0, _⟩ => exact (rhs_second_0 _ _).trans hk
      | ⟨1, _⟩ => exact rhs_second_1 _ _)
  rw [el, er]

/-- The exponential of a vector, read at an index. -/
private theorem exp_at {s : Shape} (a : FVec Ideal s .f32) (i : s.Idx) : exp a i = Ideal.exp (a i) := rfl

/-- The body's arithmetic at row r of a block: the hidden layer is the leaky rectifier of the two first-layer products
    plus the bias row, and the result the exponential of the clipped second-layer logit. -/
private theorem pay_apply (x0 x1 : Vec Ideal S10000x128 .f32) (x2 x3 : Vec Ideal S128x32 .f32) (x4 : Vec Ideal S1x32 .f32)
    (x5 : Vec Ideal S32x1 .f32) (x6 : Vec Ideal S1x1 .f32) (r : Fin 10000) (c : Fin 1) :
    k1_pay1 x0 x2 x1 x3 x4 x5 x6 (ix2 r c)
      = Ideal.exp (Cert.Spec.clip ((∑ j : Fin 32, Cert.Spec.leaky ((∑ k : Fin 128, x0 (ix2 r k) * x2 (ix2 k j))
          + (∑ k : Fin 128, x1 (ix2 r k) * x3 (ix2 k j)) + x4 (ix2 (0 : Fin 1) j)) * x5 (ix2 j c)) + x6 (ix2 (0 : Fin 1) c))) := by
  obtain rfl : c = 0 := Subsingleton.elim _ _
  unfold k1_pay1
  simp only [shapeCast_self]
  rw [exp_at, minimumf_apply, maximumf_apply, addf_apply, broadcast_apply, broadcast_apply, mm_second_apply,
    broadcastTo_apply x6 broadcasts_S1x1_S10000x1 (ix2 r (0 : Fin 1)) (ix2 (0 : Fin 1) (0 : Fin 1))
      (fun a => by match a with | ⟨0, _⟩ => rfl | ⟨1, _⟩ => rfl)]
  unfold Cert.Spec.clip Cert.Spec.hiW Cert.Spec.loW
  refine congrArg Ideal.exp (congrArg (min _) (congrArg (max _) (congrArg (· + _) (Finset.sum_congr rfl fun j _ => ?_))))
  refine congrArg (· * x5 (ix2 j (0 : Fin 1))) ?_
  rw [select_apply, cmpf_apply, mulf_apply, broadcast_apply, broadcast_apply, addf_apply, addf_apply, mm_first_apply,
    mm_first_apply,
    broadcastTo_apply x4 broadcasts_S1x32_S10000x32 (ix2 r j) (ix2 (0 : Fin 1) j)
      (fun a => by match a with | ⟨0, _⟩ => rfl | ⟨1, _⟩ => rfl)]
  rfl
/-! ## From the blocks to the array

Point t of the 80 works on edges 10000 t … 10000 t + 9999: the two state windows and the output window hold those rows,
the weight and bias windows their whole arrays. -/

variable (V : (c : Dev nD) → (b : Ref sig .tc) → Buf (Elt Ideal) ((c : Thread nD τ).loc b))

private theorem hz : (![0, 0] : Fin 2 → Nat) = fun _ => 0 := funext fun a => by fin_cases a <;> rfl

/-- The block indices at point t, decided over the 80 points: the row-blocked windows are at block (t, 0), the others
    at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of point t's block is row 10000 t + p of the array. -/
private def rowOf (t : Fin cfg1.N) (p : Fin 10000) : Fin 800000 :=
  ⟨10000 * t.val + p.val, by have := t.isLt; have : cfg1.N = 80 := N_1; have := p.isLt; omega⟩

/-- The source states' block at point t: rows 10000 t … of the array. -/
private theorem blk0_eq (c : Dev nD) (t : Fin cfg1.N) :
    (iblk1 V c 0 t : Vec Ideal S10000x128 .f32)
      = fun y => (V c (Pipeline.arrRef spec1 0) : Cert.Spec.A2 800000 128) (ix2 (rowOf t (y 0)) (y 1)) := by
  obtain ⟨e0, e1, -⟩ := idx_facts t
  funext y
  unfold iblk1
  rw [View.read_apply]
  show V c (Pipeline.arrRef spec1 0) (((cfg1.win 0).blk t).view.emb y) = V c (Pipeline.arrRef spec1 0) (ix2 (rowOf t (y 0)) (y 1))
  refine congrArg _ (funext fun a => Fin.ext ?_)
  match a with
  | ⟨0, _⟩ => show win1_0.index t (0 : Fin 2) * 10000 + 1 * (y 0).val = 10000 * t.val + (y 0).val; rw [e0]; omega
  | ⟨1, _⟩ => show win1_0.index t (1 : Fin 2) * 128 + 1 * (y 1).val = (y 1).val; rw [e1]; omega

/-- The destination states' block at point t: the same rows of their array. -/
private theorem blk1_eq (c : Dev nD) (t : Fin cfg1.N) :
    (iblk1 V c 1 t : Vec Ideal S10000x128 .f32)
      = fun y => (V c (Pipeline.arrRef spec1 1) : Cert.Spec.A2 800000 128) (ix2 (rowOf t (y 0)) (y 1)) := by
  obtain ⟨-, -, e0, e1, -⟩ := idx_facts t
  funext y
  unfold iblk1
  rw [View.read_apply]
  show V c (Pipeline.arrRef spec1 1) (((cfg1.win 1).blk t).view.emb y) = V c (Pipeline.arrRef spec1 1) (ix2 (rowOf t (y 0)) (y 1))
  refine congrArg _ (funext fun a => Fin.ext ?_)
  match a with
  | ⟨0, _⟩ => show win1_1.index t (0 : Fin 2) * 10000 + 1 * (y 0).val = 10000 * t.val + (y 0).val; rw [e0]; omega
  | ⟨1, _⟩ => show win1_1.index t (1 : Fin 2) * 128 + 1 * (y 1).val = (y 1).val; rw [e1]; omega

/-- The top weight's block at every point is the whole weight. -/
private theorem blk2_eq (c : Dev nD) (t : Fin cfg1.N) :
    (iblk1 V c 2 t : Vec Ideal S128x32 .f32) = (V c (Pipeline.arrRef spec1 2) : Cert.Spec.A2 128 32) := by
  have e := idx_facts t
  funext y
  unfold iblk1
  rw [View.read_apply]
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; rw [e.2.2.2.2.1]; omega
  | ⟨1, _⟩ => show win1_2.index t (1 : Fin 2) * 32 + 1 * (y 1).val = (y 1).val; rw [e.2.2.2.2.2.1]; omega

/-- The bottom weight's block at every point is the whole weight. -/
private theorem blk3_eq (c : Dev nD) (t : Fin cfg1.N) :
    (iblk1 V c 3 t : Vec Ideal S128x32 .f32) = (V c (Pipeline.arrRef spec1 3) : Cert.Spec.A2 128 32) := by
  have e := idx_facts t
  funext y
  unfold iblk1
  rw [View.read_apply]
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; rw [e.2.2.2.2.2.2.1]; omega
  | ⟨1, _⟩ => show win1_3.index t (1 : Fin 2) * 32 + 1 * (y 1).val = (y 1).val; rw [e.2.2.2.2.2.2.2.1]; omega

/-- The first bias row's block at every point is the whole row. -/
private theorem blk4_eq (c : Dev nD) (t : Fin cfg1.N) :
    (iblk1 V c 4 t : Vec Ideal S1x32 .f32) = (V c (Pipeline.arrRef spec1 4) : Cert.Spec.A2 1 32) := by
  have e := idx_facts t
  funext y
  unfold iblk1
  rw [View.read_apply]
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e.2.2.2.2.2.2.2.2.1]; omega
  | ⟨1, _⟩ => show win1_4.index t (1 : Fin 2) * 32 + 1 * (y 1).val = (y 1).val; rw [e.2.2.2.2.2.2.2.2.2.1]; omega

/-- The second weight's block at every point is the whole weight. -/
private theorem blk5_eq (c : Dev nD) (t : Fin cfg1.N) :
    (iblk1 V c 5 t : Vec Ideal S32x1 .f32) = (V c (Pipeline.arrRef spec1 5) : Cert.Spec.A2 32 1) := by
  have e := idx_facts t
  funext y
  unfold iblk1
  rw [View.read_apply]
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 32 + 1 * (y 0).val = (y 0).val; rw [e.2.2.2.2.2.2.2.2.2.2.1]; omega
  | ⟨1, _⟩ => show win1_5.index t (1 : Fin 2) * 1 + 1 * (y 1).val = (y 1).val; rw [e.2.2.2.2.2.2.2.2.2.2.2.1]; omega

/-- The second bias's block at every point is the whole array. -/
private theorem blk6_eq (c : Dev nD) (t : Fin cfg1.N) :
    (iblk1 V c 6 t : Vec Ideal S1x1 .f32) = (V c (Pipeline.arrRef spec1 6) : Cert.Spec.A2 1 1) := by
  have e := idx_facts t
  funext y
  unfold iblk1
  rw [View.read_apply]
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; rw [e.2.2.2.2.2.2.2.2.2.2.2.2.1]; omega
  | ⟨1, _⟩ => show win1_6.index t (1 : Fin 2) * 1 + 1 * (y 1).val = (y 1).val; rw [e.2.2.2.2.2.2.2.2.2.2.2.2.2.1]; omega

/-- The attention region's function at an index whose row is r: the same expression the body computes at that row. -/
private theorem reg1_at (Ss Sd : Cert.Spec.A2 800000 128) (Wt Wb : Cert.Spec.A2 128 32) (b1 : Cert.Spec.A2 1 32)
    (W2 : Cert.Spec.A2 32 1) (b2 : Cert.Spec.A2 1 1) (r : Fin 800000) (q : Fin 1) :
    Cert.Spec.reg1 Ss Sd Wt Wb b1 W2 b2 (ix2 r q)
      = Ideal.exp (Cert.Spec.clip ((∑ j : Fin 32, Cert.Spec.leaky ((∑ k : Fin 128, Ss (ix2 r k) * Wt (ix2 k j))
          + (∑ k : Fin 128, Sd (ix2 r k) * Wb (ix2 k j)) + b1 (ix2 (0 : Fin 1) j)) * W2 (ix2 j q)) + b2 (ix2 (0 : Fin 1) q))) :=
  rfl

/-- The body's result at row p of a block whose two state blocks hold rows r of their arrays (the weights and biases
    whole) is the attention region's function at row r. -/
private theorem val_of_blocks (x0 x1 : Vec Ideal S10000x128 .f32) (x2 x3 : Vec Ideal S128x32 .f32) (x4 : Vec Ideal S1x32 .f32)
    (x5 : Vec Ideal S32x1 .f32) (x6 : Vec Ideal S1x1 .f32)
    (Ss Sd : Cert.Spec.A2 800000 128) (Wt Wb : Cert.Spec.A2 128 32) (b1 : Cert.Spec.A2 1 32)
    (W2 : Cert.Spec.A2 32 1) (b2 : Cert.Spec.A2 1 1) (p : Fin 10000) (q : Fin 1) (r : Fin 800000)
    (h0 : ∀ k : Fin 128, x0 (ix2 p k) = Ss (ix2 r k)) (h1 : ∀ k : Fin 128, x1 (ix2 p k) = Sd (ix2 r k))
    (h2 : x2 = Wt) (h3 : x3 = Wb) (h4 : x4 = b1) (h5 : x5 = W2) (h6 : x6 = b2) :
    k1_pay1 x0 x2 x1 x3 x4 x5 x6 (ix2 p q) = Cert.Spec.reg1 Ss Sd Wt Wb b1 W2 b2 (ix2 r q) := by
  subst h2 h3 h4 h5 h6
  rw [pay_apply, reg1_at]
  simp only [h0, h1]

/-- A block of the output window written back whole: if the staging buffer holds, at row p, the array function's value
    at row 10000 t + p, what point t writes back is block t of that function. -/
private theorem flushed_of (t : Fin cfg1.N) (G : Cert.Spec.A2 800000 1) (X : Vec Ideal S10000x1 .f32)
    (h : ∀ (p : Fin 10000) (q : Fin 1), X (ix2 p q) = G (ix2 (rowOf t p) q)) :
    (cfg1.win 7).cut (grid1.coords t) X = ((cfg1.win 7).blk t).view.read (Elt Ideal) G := by
  obtain ⟨-, -, -, -, -, -, -, -, -, -, -, -, -, -, e0, e1⟩ := idx_facts t
  funext y
  obtain ⟨p, q, rfl⟩ : ∃ (p : Fin 10000) (q : Fin 1), y = ix2 p q := ⟨y 0, y 1, eq_ix2 y⟩
  rw [View.read_apply]
  show X (ix2 p q) = G (((cfg1.win 7).blk t).view.emb (ix2 p q))
  rw [h p q]
  refine congrArg G (funext fun a => Fin.ext ?_)
  match a with
  | ⟨0, _⟩ => show 10000 * t.val + p.val = win1_7.index t (0 : Fin 2) * 10000 + 1 * p.val; rw [e0]; omega
  | ⟨1, _⟩ => show q.val = win1_7.index t (1 : Fin 2) * 1 + 1 * q.val; rw [e1]; omega

/-- What point t writes back is block t of the attention region's function of the arrays the region found. -/
private theorem flushed_eq (c : Dev nD) (t : Fin cfg1.N) :
    (dat1 V c).flushed 7 t = ((cfg1.win 7).blk t).view.read (Elt Ideal)
      (Cert.Spec.reg1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7 V c t]
  unfold out1_7
  rw [View.canon_unit_zero hz]
  simp only [View.ld_unit_zero (S := S10000x128) hz, View.ld_unit_zero (S := S128x32) hz, View.ld_unit_zero (S := S1x32) hz,
    View.ld_unit_zero (S := S32x1) hz, View.ld_unit_zero (S := S1x1) hz]
  exact flushed_of t (Cert.Spec.reg1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)))
    (k1_pay1 (iblk1 V c 0 t) (iblk1 V c 2 t) (iblk1 V c 1 t) (iblk1 V c 3 t) (iblk1 V c 4 t) (iblk1 V c 5 t) (iblk1 V c 6 t))
    (fun p q => val_of_blocks (iblk1 V c 0 t) (iblk1 V c 1 t) (iblk1 V c 2 t) (iblk1 V c 3 t) (iblk1 V c 4 t) (iblk1 V c 5 t)
      (iblk1 V c 6 t) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) p q (rowOf t p)
      (fun k => congrFun (blk0_eq V c t) (ix2 p k)) (fun k => congrFun (blk1_eq V c t) (ix2 p k))
      (blk2_eq V c t) (blk3_eq V c t) (blk4_eq V c t) (blk5_eq V c t) (blk6_eq V c t))

/-- An index of the array is in point t's block iff each coordinate is in the block's range on its axis. -/
private theorem mem_blk (t : Fin cfg1.N) (i : S800000x1.Idx) :
    i ∈ ((cfg1.win 7).blk t).view.set ↔ ∀ a : Fin 2, win1_7.index t a * S10000x1.size a ≤ (i a).val
      ∧ (i a).val < win1_7.index t a * S10000x1.size a + S10000x1.size a := by
  show i ∈ ((View.whole main_v16).slice (win1_7.rect t)).set ↔ _
  rw [View.set_slice_whole, Rect.mem_set_unit]
  exact Iff.rfl

/-- Every edge is in some point's block: edge e in that of point e / 10000. -/
private theorem cover (i : S800000x1.Idx) :
    ∃ t : Fin cfg1.N, (cfg1.win 7).flush t = true ∧ i ∈ ((cfg1.win 7).blk t).view.set := by
  have hi0 : (i 0).val < 800000 := (i 0).isLt
  have hi1 : (i 1).val < 1 := (i 1).isLt
  have hN : cfg1.N = 80 := N_1
  obtain ⟨t, ht⟩ : ∃ t : Fin cfg1.N, t.val = (i 0).val / 10000 := ⟨⟨(i 0).val / 10000, by rw [hN]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 10000 ≤ (i 0).val ∧ (i 0).val < win1_7.index t (0 : Fin 2) * 10000 + 10000
    rw [e0, ht]; omega
  | ⟨1, _⟩ =>
    show win1_7.index t (1 : Fin 2) * 1 ≤ (i 1).val ∧ (i 1).val < win1_7.index t (1 : Fin 2) * 1 + 1
    rw [e1]; omega

/-- The first attention region: ex, one column, every block of 10000 edges written whole. After the region's last grid point its output array is this function of the arrays the region found. -/
theorem final1 (c : Dev nD) :
    (dat1 (F := Ideal) V c).arrAt 7 cfg1.N = Cert.Spec.reg1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 V c).arrAt_eq_of_cover 7 _ (fun t _ => flushed_eq V c t) cover

end Cert.KernelIdeal.Val

end
-- ==== Proof.Reg2.lean ====
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueIdx

/-
  The first scaling region. Its grid has 80 points; at point t every window's block is rows
  [10000 t, 10000 t + 10000) of its array, all of its columns: 128 columns of the gathered rows and of the output,
  the 2 columns of the per-edge pair (column 0 the exponential, column 1 the normaliser). The body reads the two
  columns of the pair's block as two one-column vectors, divides the first by the second plus ε, spreads the
  quotient along the 128 columns and multiplies the block of gathered rows by it, entry by entry. So what point t
  writes back is rows [10000 t, 10000 t + 10000) of the array whose entry (r, q) is
  rows (r, q) · pair (r, 0) / (pair (r, 1) + ε). Row r lies in the block of point r / 10000, so the eighty
  blocks fill the array.
-/

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The gathered rows and the per-edge pair as the region finds them, as arrays of extended reals. -/
private abbrev rows2 (c : Dev nD) : Cert.Spec.A2 800000 128 := V c (Pipeline.arrRef spec2 0)
private abbrev pair2 (c : Dev nD) : Cert.Spec.A2 800000 2 := V c (Pipeline.arrRef spec2 1)

/-- The load of the rows' block and the store start at row 0, column 0 of the staging block. -/
private theorem origin2 : (![0, 0] : Fin 2 → Nat) = fun _ => 0 :=
  funext fun a => match a with | ⟨0, _⟩ => rfl | ⟨1, _⟩ => rfl

/-- The body's arithmetic at entry (p, q) of the block, from its three loaded vectors: the rows' entry times the
    quotient of the two one-column vectors' entries in row p, the second with ε added. -/
private theorem scaled_apply (v0 v2 : Vec Ideal S10000x1 .f32) (v7 : Vec Ideal S10000x128 .f32) (p : Fin 10000) (q : Fin 128) :
    k2_pay1 (F := Ideal) v0 v2 v7 (ix2 p q)
      = v7 (ix2 p q) * Ideal.div (v0 (ix2 p (0 : Fin 1))) (v2 (ix2 p (0 : Fin 1)) + Cert.Spec.eps) := by
  unfold k2_pay1
  show shapeCast S10000x128 v7 shapeCasts_S10000x128_S10000x128 (ix2 p q)
      * broadcastTo S10000x128 (divf (shapeCast S10000x1 v0 shapeCasts_S10000x1_S10000x1)
          (addf (shapeCast S10000x1 v2 shapeCasts_S10000x1_S10000x1)
            (broadcast S10000x1 (Scalar.ofBits (F := Ideal) .f32 0x3089705F#32))))
        broadcasts_S10000x1_S10000x128 (ix2 p q) = _
  rw [broadcastTo_apply _ broadcasts_S10000x1_S10000x128 (ix2 p q) (ix2 p (0 : Fin 1)) (fun a => by
    match a with
    | ⟨0, _⟩ => rfl
    | ⟨1, _⟩ => rfl)]
  simp only [shapeCast_self]
  rfl

/-- The same over the two staged blocks: the one-column vectors are columns 0 and 1 of the pair's block. -/
private theorem scaledBlock_apply (x0 : Vec Ideal S10000x128 .f32) (x1 : Vec Ideal S10000x2 .f32) (p : Fin 10000) (q : Fin 128) :
    k2_pay1 (F := Ideal) (View.ld x1 r2_0) (View.ld x1 r2_1) x0 (ix2 p q)
      = x0 (ix2 p q) * Ideal.div (x1 (ix2 p (0 : Fin 2))) (x1 (ix2 p (1 : Fin 2)) + Cert.Spec.eps) := by
  rw [scaled_apply]
  have c0 : r2_0.idx (ix2 p (0 : Fin 1)) = ix2 p (0 : Fin 2) := by
    funext a; apply Fin.ext
    match a with
    | ⟨0, _⟩ => show 0 + 1 * p.val = p.val; omega
    | ⟨1, _⟩ => rfl
  have c1 : r2_1.idx (ix2 p (0 : Fin 1)) = ix2 p (1 : Fin 2) := by
    funext a; apply Fin.ext
    match a with
    | ⟨0, _⟩ => show 0 + 1 * p.val = p.val; omega
    | ⟨1, _⟩ => rfl
  show x0 (ix2 p q) * Ideal.div (x1 (r2_0.idx (ix2 p (0 : Fin 1)))) (x1 (r2_1.idx (ix2 p (0 : Fin 1))) + Cert.Spec.eps) = _
  rw [c0, c1]

/-- At point t the three windows sit at the same block: block row t, block column 0; and t is below 80. -/
private theorem blockAt2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 ∧ t.val < 80 :=
  (by decide +kernel : ∀ t : Fin grid2.N, _)

/-- What point t writes back is rows [10000 t, 10000 t + 10000) of the scaled rows. -/
private theorem writeBack2 (c : Dev nD) (t : Fin cfg2.N) :
    (dat2 (F := Ideal) V c).flushed 2 t = ((cfg2.win 2).blk t).view.read (Elt Ideal)
      (Cert.Spec.reg2 (V c (Pipeline.arrRef spec2 0)) (V c (Pipeline.arrRef spec2 1))) := by
  show (cfg2.win 2).cut (grid2.coords t) ((dat2 (F := Ideal) V c).after 2 t) = _
  rw [after2_2 V c t]
  unfold out2_2
  rw [View.canon_unit_zero origin2]
  simp only [View.ld_unit_zero (S := S10000x128) origin2]
  obtain ⟨a0, a1, b0, b1, o0, o1, ht⟩ := blockAt2 t
  refine funext fun (j : S10000x128.Idx) => ?_
  obtain ⟨p, q, rfl⟩ : ∃ (p : Fin 10000) (q : Fin 128), j = ix2 p q := ⟨j 0, j 1, eq_ix2 j⟩
  refine (scaledBlock_apply (iblk2 V c 0 t) (iblk2 V c 1 t) p q).trans ?_
  have hp : p.val < 10000 := p.isLt
  -- the row of the array that row p of point t's block is
  obtain ⟨r, hr⟩ : ∃ r : Fin 800000, r.val = t.val * 10000 + p.val := ⟨⟨t.val * 10000 + p.val, by omega⟩, rfl⟩
  have e0 : ((cfg2.win 0).blk t).view.emb (ix2 p q) = (ix2 r q : (Cert.Spec.Sh2 800000 128).Idx) := by
    funext a; apply Fin.ext
    match a with
    | ⟨0, _⟩ => show win2_0.index t (0 : Fin 2) * 10000 + 1 * p.val = r.val; omega
    | ⟨1, _⟩ => show win2_0.index t (1 : Fin 2) * 128 + 1 * q.val = q.val; omega
  have e2 : ((cfg2.win 2).blk t).view.emb (ix2 p q) = (ix2 r q : (Cert.Spec.Sh2 800000 128).Idx) := by
    funext a; apply Fin.ext
    match a with
    | ⟨0, _⟩ => show win2_2.index t (0 : Fin 2) * 10000 + 1 * p.val = r.val; omega
    | ⟨1, _⟩ => show win2_2.index t (1 : Fin 2) * 128 + 1 * q.val = q.val; omega
  have e1 : ∀ k : Fin 2, ((cfg2.win 1).blk t).view.emb (ix2 p k) = (ix2 r k : (Cert.Spec.Sh2 800000 2).Idx) := by
    intro k
    funext a; apply Fin.ext
    match a with
    | ⟨0, _⟩ => show win2_1.index t (0 : Fin 2) * 10000 + 1 * p.val = r.val; omega
    | ⟨1, _⟩ => show win2_1.index t (1 : Fin 2) * 2 + 1 * k.val = k.val; omega
  show rows2 V c (((cfg2.win 0).blk t).view.emb (ix2 p q))
      * Ideal.div (pair2 V c (((cfg2.win 1).blk t).view.emb (ix2 p (0 : Fin 2))))
          (pair2 V c (((cfg2.win 1).blk t).view.emb (ix2 p (1 : Fin 2))) + Cert.Spec.eps)
    = Cert.Spec.reg2 (rows2 V c) (pair2 V c) (((cfg2.win 2).blk t).view.emb (ix2 p q))
  rw [e0, e1 0, e1 1, e2]
  rfl

/-- An entry of the array lies in point t's block iff each coordinate lies in the block's range on its axis. -/
private theorem inBlock2 (t : Fin cfg2.N) (i : S800000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v24).slice (win2_2.rect t)).set ↔ _
  rw [View.set_slice_whole, Rect.mem_set_unit]
  exact Iff.rfl

/-- Row r lies in the block of point r / 10000: the eighty blocks fill the array. -/
private theorem filled2 (i : S800000x128.Idx) :
    ∃ t : Fin cfg2.N, (cfg2.win 2).flush t = true ∧ i ∈ ((cfg2.win 2).blk t).view.set := by
  have hr : (i 0).val < 800000 := (i 0).isLt
  have hc : (i 1).val < 128 := (i 1).isLt
  have hN : cfg2.N = 80 := N_2
  let t : Fin cfg2.N := ⟨(i 0).val / 10000, by rw [hN]; omega⟩
  obtain ⟨-, -, -, -, o0, o1, -⟩ := blockAt2 t
  have ht : t.val = (i 0).val / 10000 := rfl
  refine ⟨t, flush2_2 t, ?_⟩
  rw [inBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The first scaling region: the messages. After the region's last grid point its output array is this function of the arrays the region found. -/
theorem final2 (c : Dev nD) :
    (dat2 (F := Ideal) V c).arrAt 2 cfg2.N = Cert.Spec.reg2 (V c (Pipeline.arrRef spec2 0)) (V c (Pipeline.arrRef spec2 1)) :=
  (dat2 (F := Ideal) V c).arrAt_eq_of_cover 2 _ (fun t _ => writeBack2 V c t) filled2

end Cert.KernelIdeal.Val

end
-- ==== Proof.Reg3.lean ====
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The contraction of the 128-deep product, coordinate by coordinate -/

/-- Row of the left operand: the output's row. -/
private theorem mm3_lhs_0 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
/-- Column of the left operand: the contraction position. -/
private theorem mm3_lhs_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
/-- Row of the right operand: the contraction position. -/
private theorem mm3_rhs_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
/-- Column of the right operand: the output's column. -/
private theorem mm3_rhs_1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The contraction positions are `Fin 128`. -/
private abbrev ce3 : dot_S5000x128_S128x128_S5000x128_1_0_0_1_n_n.contr.Idx ≃ Fin 128 :=
  contrEquiv1 dot_S5000x128_S128x128_S5000x128_1_0_0_1_n_n 128 rfl rfl

/-- The left operand's index at output (p, q) and contraction position i is (p, i). -/
private theorem mm3_lhs (p : Fin 5000) (q : Fin 128) (i : Fin 128) :
    dot_S5000x128_S128x128_S5000x128_1_0_0_1_n_n.lhsIdx (ix2 p q) (ce3.symm i) = ix2 p i := by
  funext a; apply Fin.ext
  match a with
  | ⟨0, _⟩ => exact mm3_lhs_0 _ _
  | ⟨1, _⟩ => exact (mm3_lhs_1 _ _).trans (contrEquiv1_symm_val _ 128 rfl rfl i)
/-- The right operand's index there is (i, q). -/
private theorem mm3_rhs (p : Fin 5000) (q : Fin 128) (i : Fin 128) :
    dot_S5000x128_S128x128_S5000x128_1_0_0_1_n_n.rhsIdx (ix2 p q) (ce3.symm i) = ix2 i q := by
  funext a; apply Fin.ext
  match a with
  | ⟨0, _⟩ => exact (mm3_rhs_0 _ _).trans (contrEquiv1_symm_val _ 128 rfl rfl i)
  | ⟨1, _⟩ => exact mm3_rhs_1 _ _

/-! ## The two payloads at an index -/

/-- The first payload at row p and column q: tanh of the sum of the two blocks there. -/
private theorem pay3a_apply (x0 x1 : FVec Ideal S5000x128 .f32) (p : Fin 5000) (q : Fin 128) :
    k3_pay1 (F := Ideal) x0 x1 (ix2 p q) = Ideal.tanh (x0 (ix2 p q) + x1 (ix2 p q)) := by
  unfold k3_pay1
  rw [shapeCast_self, shapeCast_self]
  rfl

/-- The second payload there: the row of the first payload against the column of the weights. -/
private theorem pay3b_apply (x0 x1 : FVec Ideal S5000x128 .f32) (x2 : FVec Ideal S128x128 .f32) (p : Fin 5000) (q : Fin 128) :
    k3_pay2 (F := Ideal) x0 x1 x2 (ix2 p q) = ∑ k : Fin 128, k3_pay1 (F := Ideal) x0 x1 (ix2 p k) * x2 (ix2 k q) := by
  unfold k3_pay2
  refine (Ideal.matmul_constant_zero_apply dot_S5000x128_S128x128_S5000x128_1_0_0_1_n_n none _ x2 (ix2 p q)).trans ?_
  refine (Equiv.sum_comp ce3.symm _).symm.trans ?_
  exact Finset.sum_congr rfl fun i _ => by rw [mm3_lhs, mm3_rhs]

/-- Where the blocks are rows of S and agg, the first payload is the node update at that row. -/
private theorem left3 (x0 x1 : FVec Ideal S5000x128 .f32) (A0 A1 : Cert.Spec.A2 50000 128)
    (p : Fin 5000) (r : Fin 50000) (q : Fin 128)
    (h0 : ∀ k : Fin 128, x0 (ix2 p k) = A0 (ix2 r k)) (h1 : ∀ k : Fin 128, x1 (ix2 p k) = A1 (ix2 r k)) :
    k3_pay1 (F := Ideal) x0 x1 (ix2 p q) = Cert.Spec.upd A0 A1 (ix2 r q) := by
  refine (pay3a_apply x0 x1 p q).trans ?_
  unfold Cert.Spec.upd
  rw [h0 q, h1 q]

/-- And the second payload is the updated row against the column of W_node. -/
private theorem right3 (x0 x1 : FVec Ideal S5000x128 .f32) (x2 : FVec Ideal S128x128 .f32)
    (A0 A1 : Cert.Spec.A2 50000 128) (A2 : Cert.Spec.A2 128 128)
    (p : Fin 5000) (r : Fin 50000) (q : Fin 128)
    (h0 : ∀ k : Fin 128, x0 (ix2 p k) = A0 (ix2 r k)) (h1 : ∀ k : Fin 128, x1 (ix2 p k) = A1 (ix2 r k))
    (h2 : ∀ y, x2 y = A2 y) :
    k3_pay2 (F := Ideal) x0 x1 x2 (ix2 p q) = Cert.Spec.mm (Cert.Spec.upd A0 A1) A2 (ix2 r q) := by
  refine (pay3b_apply x0 x1 x2 p q).trans ?_
  unfold Cert.Spec.mm
  exact Finset.sum_congr rfl fun k _ => congrArg₂ (· * ·) (left3 x0 x1 A0 A1 p r k h0 h1) (h2 _)

/-! ## The two stores: the left and the right 128 columns of the block -/

private theorem hz3 : (![0, 0] : Fin 2 → Nat) = fun _ => 0 := funext fun a => by fin_cases a <;> rfl

/-- Under the second store (the right 128 columns) the block holds that store's payload; -/
private theorem canon3_right (w2 w1 : r3_3.shape.Idx → Elt Ideal .f32) (x : r3_3.shape.Idx) :
    View.canon [(⟨r3_3, w2⟩ : View.Piece (Elt Ideal) S5000x256 .f32), ⟨r3_2, w1⟩] (r3_3.emb x) = w2 x :=
  View.canon_cons_emb r3_3 w2 [⟨r3_2, w1⟩] x

/-- under the first (the left 128 columns), which the second does not reach, the first's. -/
private theorem canon3_left (w2 w1 : r3_2.shape.Idx → Elt Ideal .f32) (x : r3_2.shape.Idx) :
    View.canon [(⟨r3_3, w2⟩ : View.Piece (Elt Ideal) S5000x256 .f32), ⟨r3_2, w1⟩] (r3_2.emb x) = w1 x := by
  have hn : r3_2.emb x ∉ (r3_3 : Rect S5000x256).set := fun hm => by
    have h1 : 128 ≤ (r3_2.emb x 1).val := (Rect.mem_set_unit.mp hm 1).1
    have h2 : (r3_2.emb x 1).val = 0 + 1 * (x 1).val := rfl
    have h3 : (x 1).val < 128 := (x 1).isLt
    omega
  have e1 := View.canon_cons_of_not_mem (Val := Elt Ideal) (e := .f32) (⟨r3_3, w2⟩ : View.Piece (Elt Ideal) S5000x256 .f32) [⟨r3_2, w1⟩] hn
  have e2 := View.canon_cons_emb (Val := Elt Ideal) (e := .f32) r3_2 w1 [] x
  exact e1.trans e2

/-- The block the body leaves is its two payloads side by side. -/
private theorem out3_apply (x0 x1 : FVec Ideal S5000x128 .f32) (x2 : FVec Ideal S128x128 .f32) (y : S5000x256.Idx) :
    out3_3 (F := Ideal) x0 x1 x2 y
      = Cert.Spec.pack (n := 5000) (k3_pay1 (F := Ideal) x0 x1) (k3_pay2 (F := Ideal) x0 x1 x2) y := by
  have hout : out3_3 (F := Ideal) x0 x1 x2
      = View.canon [(⟨r3_3, k3_pay2 (F := Ideal) x0 x1 x2⟩ : View.Piece (Elt Ideal) S5000x256 .f32), ⟨r3_2, k3_pay1 (F := Ideal) x0 x1⟩] := by
    unfold out3_3
    simp only [View.ld_unit_zero (S := S5000x128) hz3, View.ld_unit_zero (S := S128x128) hz3]
  refine (congrFun hout y).trans ?_
  unfold Cert.Spec.pack
  by_cases h : (y 1).val < 128
  · rw [dif_pos h]
    have hy : y = r3_2.emb (ix2 (y 0) ⟨(y 1).val, h⟩) := funext fun a => Fin.ext (by
      match a with
      | ⟨0, _⟩ => show (y 0).val = 0 + 1 * (y 0).val; omega
      | ⟨1, _⟩ => show (y 1).val = 0 + 1 * (y 1).val; omega)
    have e := canon3_left (k3_pay2 (F := Ideal) x0 x1 x2) (k3_pay1 (F := Ideal) x0 x1) (ix2 (y 0) ⟨(y 1).val, h⟩)
    exact (congrArg (View.canon [(⟨r3_3, k3_pay2 (F := Ideal) x0 x1 x2⟩ : View.Piece (Elt Ideal) S5000x256 .f32), ⟨r3_2, k3_pay1 (F := Ideal) x0 x1⟩]) hy).trans e
  · rw [dif_neg h]
    have hy : y = r3_3.emb (ix2 (y 0) ⟨(y 1).val - 128, by have := idx2_lt1 y; omega⟩) := funext fun a => Fin.ext (by
      match a with
      | ⟨0, _⟩ => show (y 0).val = 0 + 1 * (y 0).val; omega
      | ⟨1, _⟩ => show (y 1).val = 128 + 1 * ((y 1).val - 128); omega)
    have e := canon3_right (k3_pay2 (F := Ideal) x0 x1 x2) (k3_pay1 (F := Ideal) x0 x1) (ix2 (y 0) ⟨(y 1).val - 128, by have := idx2_lt1 y; omega⟩)
    exact (congrArg (View.canon [(⟨r3_3, k3_pay2 (F := Ideal) x0 x1 x2⟩ : View.Piece (Elt Ideal) S5000x256 .f32), ⟨r3_2, k3_pay1 (F := Ideal) x0 x1⟩]) hy).trans e

/-- The block of blocks that are rows of S and agg and the whole of W_node is the fused update at those rows. -/
private theorem out3_blk (x0 x1 : FVec Ideal S5000x128 .f32) (x2 : FVec Ideal S128x128 .f32)
    (A0 A1 : Cert.Spec.A2 50000 128) (A2 : Cert.Spec.A2 128 128)
    (i : S50000x256.Idx) (j : S5000x256.Idx) (hc : (i 1).val = (j 1).val)
    (h0 : ∀ k : Fin 128, x0 (ix2 (j 0) k) = A0 (ix2 (i 0) k))
    (h1 : ∀ k : Fin 128, x1 (ix2 (j 0) k) = A1 (ix2 (i 0) k))
    (h2 : ∀ y, x2 y = A2 y) :
    out3_3 (F := Ideal) x0 x1 x2 j = Cert.Spec.reg3 A0 A1 A2 i := by
  refine (out3_apply x0 x1 x2 j).trans ?_
  unfold Cert.Spec.reg3 Cert.Spec.pack
  by_cases h : (j 1).val < 128
  · have h' : (i 1).val < 128 := by omega
    rw [dif_pos h, dif_pos h']
    have e : (⟨(i 1).val, h'⟩ : Fin 128) = ⟨(j 1).val, h⟩ := Fin.ext hc
    rw [e]
    exact left3 x0 x1 A0 A1 (j 0) (i 0) ⟨(j 1).val, h⟩ h0 h1
  · have h' : ¬ (i 1).val < 128 := by omega
    rw [dif_neg h, dif_neg h']
    have e : (⟨(i 1).val - 128, by have := idx2_lt1 i; omega⟩ : Fin 128) = ⟨(j 1).val - 128, by have := idx2_lt1 j; omega⟩ :=
      Fin.ext (by show (i 1).val - 128 = (j 1).val - 128; omega)
    rw [e]
    exact right3 x0 x1 x2 A0 A1 A2 (j 0) (i 0) ⟨(j 1).val - 128, by have := idx2_lt1 j; omega⟩ h0 h1 h2

/-! ## From the blocks to the array -/

variable (V : (c : Dev nD) → (b : Ref sig .tc) → Buf (Elt Ideal) ((c : Thread nD τ).loc b))

/-- The printed index maps, decided over the grid: the row-blocked windows sit at block t, the weights at block 0. -/
private theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the fused update of the arrays the region found. -/
private theorem flushed3 (c : Dev nD) (t : Fin cfg3.N) :
    (dat3 (F := Ideal) V c).flushed 3 t = ((cfg3.win 3).blk t).view.read (Elt Ideal)
      (Cert.Spec.reg3 (V c (Pipeline.arrRef spec3 0)) (V c (Pipeline.arrRef spec3 1)) (V c (Pipeline.arrRef spec3 2))) := by
  show (cfg3.win 3).cut (grid3.coords t) ((dat3 V c).after 3 t) = _
  rw [after3_3]
  funext j
  obtain ⟨e0, e1, e2, e3, e4, e5, e6, e7⟩ := idx_facts3 t
  show out3_3 (F := Ideal) (iblk3 V c 0 t) (iblk3 V c 1 t) (iblk3 V c 2 t) j
    = Cert.Spec.reg3 (V c (Pipeline.arrRef spec3 0)) (V c (Pipeline.arrRef spec3 1)) (V c (Pipeline.arrRef spec3 2)) (((cfg3.win 3).blk t).view.emb j)
  refine out3_blk (iblk3 V c 0 t) (iblk3 V c 1 t) (iblk3 V c 2 t) (V c (Pipeline.arrRef spec3 0)) (V c (Pipeline.arrRef spec3 1)) (V c (Pipeline.arrRef spec3 2)) (((cfg3.win 3).blk t).view.emb j) j ?_ ?_ ?_ ?_
  · show win3_3.index t (1 : Fin 2) * 256 + 1 * (j 1).val = (j 1).val
    omega
  · intro k
    show V c (Pipeline.arrRef spec3 0) (((cfg3.win 0).blk t).view.emb (ix2 (j 0) k)) = _
    refine congrArg (V c (Pipeline.arrRef spec3 0)) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · intro k
    show V c (Pipeline.arrRef spec3 1) (((cfg3.win 1).blk t).view.emb (ix2 (j 0) k)) = _
    refine congrArg (V c (Pipeline.arrRef spec3 1)) ?_
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * k.val = k.val; omega
  · intro y
    show V c (Pipeline.arrRef spec3 2) (((cfg3.win 2).blk t).view.emb y) = V c (Pipeline.arrRef spec3 2) y
    refine congrArg (V c (Pipeline.arrRef spec3 2)) ?_
    funext a; apply Fin.ext
    match a with
    | ⟨0, _⟩ => show win3_2.index t (0 : Fin 2) * 128 + 1 * (y 0).val = (y 0).val; omega
    | ⟨1, _⟩ => show win3_2.index t (1 : Fin 2) * 128 + 1 * (y 1).val = (y 1).val; omega

/-- An index of the array is in point t's block iff each coordinate is in the block's range on its axis. -/
private theorem mem_blk3 (t : Fin cfg3.N) (i : S50000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v32).slice (win3_3.rect t)).set ↔ _
  rw [View.set_slice_whole, Rect.mem_set_unit]
  exact Iff.rfl

/-- Row r lies in the block of point r / 5000: the ten blocks of 5000 rows fill the 50000 rows. -/
private theorem cover3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e6, e7⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 256 ≤ (i 1).val ∧ (i 1).val < win3_3.index t (1 : Fin 2) * 256 + 256; omega

/-- The fused update region: the new node states beside their image under W_node. After the region's last grid point its output array is this function of the arrays the region found. -/
theorem final3 (c : Dev nD) :
    (dat3 (F := Ideal) V c).arrAt 3 cfg3.N = Cert.Spec.reg3 (V c (Pipeline.arrRef spec3 0)) (V c (Pipeline.arrRef spec3 1)) (V c (Pipeline.arrRef spec3 2)) :=
  (dat3 (F := Ideal) V c).arrAt_eq_of_cover 3 _ (fun t _ => flushed3 V c t) cover3

end Cert.KernelIdeal.Val

end
-- ==== Proof.KGlueA.lean ====
import proofs.«415169_j41790031790248_2_alg».proof.Proof.Gen.KernelIdeal.Frame
import proofs.«415169_j41790031790248_2_alg».proof.Proof.Spec
import proofs.«415169_j41790031790248_2_alg».proof.Proof.KArgs
import proofs.«415169_j41790031790248_2_alg».proof.Proof.KTake
import proofs.«415169_j41790031790248_2_alg».proof.Proof.KStretch
import proofs.«415169_j41790031790248_2_alg».proof.Proof.Reg0
import proofs.«415169_j41790031790248_2_alg».proof.Proof.Reg1
import proofs.«415169_j41790031790248_2_alg».proof.Proof.Reg2
import proofs.«415169_j41790031790248_2_alg».proof.Proof.Reg3
import Idealize.ShloMosaic.Lib.ValueLayout
import Idealize.ShloMosaic.Lib.Pipeline.Value
import Idealize.ShloMosaic.Lib.IdealHost
set_option maxRecDepth 16384

noncomputable section

namespace Cert.KernelIdeal.Val

open Cert.KernelIdeal Cert.KernelIdeal.Gen
open Idealize.ShloMosaic Idealize.ShloMosaic.TcCoe Idealize.ShloMosaic.ValueIdx

/-!
  From the launch to the exit of the fourth region (the first diffusion step): what every buffer holds, read off
  the fold of the program's segments.

  Three kinds of step. A buffer that a stretch of host operations does not write, or that is none of a region's
  arrays, keeps its contents. A reshaping host operation (a slice, a reshape, a broadcast to a column, a
  concatenation, a zero splat) is read index by index and is one of the specification's layout functions. A region
  leaves in its output array the closed form of its inputs. Composed in program order these give: the encoder's
  states S₁ beside S₁ · W_node; their rows at the edges' sources and destinations; ex; its sum over the edges
  leaving each node, read back at every edge's source; the messages; their sum into the destination nodes; and
  tanh (S₁ + that sum) beside its image under W_node.
-/

/-! ## The references each stretch of host operations writes -/

abbrev wr0 : List (Ref sig .tc) := [main_v0, main_v1, main_v2, main_v3, main_v4]
abbrev wr1 : List (Ref sig .tc) := [main_v6, main_v7]
abbrev wr1_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v8]
abbrev wr1_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v9]
abbrev wr1_3 : List (Ref sig .tc) := [main_v10, main_v11, main_v12, main_v13, main_v14, main_v15]
abbrev wr2 : List (Ref sig .tc) := [main_v17, main_cst, main_v18, main_v19, main_v20]
abbrev wr2_1 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_cst, main_call2_v14,
   main_v21]
abbrev wr2_2 : List (Ref sig .tc) := [main_v22, main_v23]
abbrev wr3 : List (Ref sig .tc) :=
  [main_v25, main_cst_0, main_v26, main_v27, main_v28, main_cst_1, main_v29, main_v30, main_v31]

/-- Every operation of the list writes one of the listed references. -/
local macro "writes_within " ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes]
             repeat' apply And.intro
             all_goals exact Finset.singleton_subset_iff.mpr (List.mem_toFinset.mpr (List.mem_map_of_mem (by decide)))))

/-! ## A reference a stretch does not write keeps its contents, whatever the contents before -/

section Keep
variable (V : Valuation τ sig (Elt Ideal)) {r : Ref sig .tc}

theorem keep0 (hr : r ∉ wr0) : StableHlo.after hostOps0 V (Proc.devRef .tc r) = V (Proc.devRef .tc r) :=
  StableHlo.after_of_writes_sub _ _ (by writes_within hostOps0) hr
theorem keep1 (hr : r ∉ wr1) : StableHlo.after hostOps1 V (Proc.devRef .tc r) = V (Proc.devRef .tc r) :=
  StableHlo.after_of_writes_sub _ _ (by writes_within hostOps1) hr
theorem keep1_1 (hr : r ∉ wr1_1) : StableHlo.after hostOps1_1 V (Proc.devRef .tc r) = V (Proc.devRef .tc r) :=
  StableHlo.after_of_writes_sub _ _ (by writes_within hostOps1_1) hr
theorem keep1_2 (hr : r ∉ wr1_2) : StableHlo.after hostOps1_2 V (Proc.devRef .tc r) = V (Proc.devRef .tc r) :=
  StableHlo.after_of_writes_sub _ _ (by writes_within hostOps1_2) hr
theorem keep1_3 (hr : r ∉ wr1_3) : StableHlo.after hostOps1_3 V (Proc.devRef .tc r) = V (Proc.devRef .tc r) :=
  StableHlo.after_of_writes_sub _ _ (by writes_within hostOps1_3) hr
theorem keep2 (hr : r ∉ wr2) : StableHlo.after hostOps2 V (Proc.devRef .tc r) = V (Proc.devRef .tc r) :=
  StableHlo.after_of_writes_sub _ _ (by writes_within hostOps2) hr
theorem keep2_1 (hr : r ∉ wr2_1) : StableHlo.after hostOps2_1 V (Proc.devRef .tc r) = V (Proc.devRef .tc r) :=
  StableHlo.after_of_writes_sub _ _ (by writes_within hostOps2_1) hr
theorem keep2_2 (hr : r ∉ wr2_2) : StableHlo.after hostOps2_2 V (Proc.devRef .tc r) = V (Proc.devRef .tc r) :=
  StableHlo.after_of_writes_sub _ _ (by writes_within hostOps2_2) hr
theorem keep3 (hr : r ∉ wr3) : StableHlo.after hostOps3 V (Proc.devRef .tc r) = V (Proc.devRef .tc r) :=
  StableHlo.after_of_writes_sub _ _ (by writes_within hostOps3) hr

end Keep

/-! ## Layout: each reshaping host operation, index by index -/

section Layout

/-- Row `r` of the edge table, cut out and flattened, is that row as a vector. -/
theorem edgeRow_eq (X : Cert.Spec.Edges) (o : Nat) (r : Fin 2) (ho : r.val = o)
    (hs : S2x800000.Slices ![o, 0] S1x800000) (hc : S1x800000.ShapeCasts S800000) :
    shapeCast S800000 (extractStridedSlice S1x800000 ![o, 0] X hs) hc = Cert.Spec.edgeVec X r := by
  funext i
  obtain ⟨e, rfl⟩ : ∃ e : Fin 800000, i = ix1 e := ⟨i 0, eq_ix1 i⟩
  rw [shapeCast_1a_a_apply, slice2_axis0_apply o X hs (0 : Fin 1) e r (by show r.val = o + 0; omega)]
  rfl

/-- A vector reshaped to one row. -/
theorem bRow_eq {n : Nat} (b : Cert.Spec.A1 n) (h : (⟨1, ![n]⟩ : Shape).ShapeCasts ⟨2, ![1, n]⟩) :
    shapeCast ⟨2, ![1, n]⟩ b h = Cert.Spec.bRow b := by
  funext i
  obtain ⟨u, j, rfl⟩ : ∃ (u : Fin 1) (j : Fin n), i = ix2 u j := ⟨i 0, i 1, eq_ix2 i⟩
  exact shapeCast_a_1a_apply b h u j

/-- A one-column matrix reshaped to a vector. -/
theorem flat_eq {n : Nat} (x : Cert.Spec.A2 n 1) (h : (⟨2, ![n, 1]⟩ : Shape).ShapeCasts ⟨1, ![n]⟩) :
    shapeCast ⟨1, ![n]⟩ x h = Cert.Spec.flat x := by
  funext i
  obtain ⟨e, rfl⟩ : ∃ e : Fin n, i = ix1 e := ⟨i 0, eq_ix1 i⟩
  exact shapeCast_apply x h _ (ix2 e (0 : Fin 1)) (by
    rw [Shape.rowMajor_val_two, Shape.rowMajor_val_one]; show e.val * 1 + 0 = e.val; omega)

/-- The column slices of a 256-column matrix. -/
theorem colsL_eq {n : Nat} (P : Cert.Spec.A2 n 256) (h : (⟨2, ![n, 256]⟩ : Shape).Slices ![0, 0] ⟨2, ![n, 128]⟩) :
    extractStridedSlice ⟨2, ![n, 128]⟩ ![0, 0] P h = Cert.Spec.colsL P := by
  funext i
  obtain ⟨a, j, rfl⟩ : ∃ (a : Fin n) (j : Fin 128), i = ix2 a j := ⟨i 0, i 1, eq_ix2 i⟩
  exact slice2_axis1_apply 0 P h a j ⟨j.val, by omega⟩ (Nat.zero_add _).symm
theorem colsR_eq {n : Nat} (P : Cert.Spec.A2 n 256) (h : (⟨2, ![n, 256]⟩ : Shape).Slices ![0, 128] ⟨2, ![n, 128]⟩) :
    extractStridedSlice ⟨2, ![n, 128]⟩ ![0, 128] P h = Cert.Spec.colsR P := by
  funext i
  obtain ⟨a, j, rfl⟩ : ∃ (a : Fin n) (j : Fin 128), i = ix2 a j := ⟨i 0, i 1, eq_ix2 i⟩
  exact slice2_axis1_apply 128 P h a j ⟨128 + j.val, by omega⟩ rfl

/-- The row slices of the attention MLP's first weight. -/
theorem rowsT_eq (W : Cert.Spec.A2 256 32) (h : S256x32.Slices ![0, 0] S128x32) :
    extractStridedSlice S128x32 ![0, 0] W h = Cert.Spec.rowsT W := by
  funext i
  obtain ⟨j, e, rfl⟩ : ∃ (j : Fin 128) (e : Fin 32), i = ix2 j e := ⟨i 0, i 1, eq_ix2 i⟩
  exact slice2_axis0_apply 0 W h j e ⟨j.val, by omega⟩ (Nat.zero_add _).symm
theorem rowsB_eq (W : Cert.Spec.A2 256 32) (h : S256x32.Slices ![128, 0] S128x32) :
    extractStridedSlice S128x32 ![128, 0] W h = Cert.Spec.rowsB W := by
  funext i
  obtain ⟨j, e, rfl⟩ : ∃ (j : Fin 128) (e : Fin 32), i = ix2 j e := ⟨i 0, i 1, eq_ix2 i⟩
  exact slice2_axis0_apply 128 W h j e ⟨128 + j.val, by omega⟩ rfl

/-- The two halves of a packed array. -/
theorem colsL_pack {n : Nat} (S T : Cert.Spec.A2 n 128) : Cert.Spec.colsL (Cert.Spec.pack S T) = S := by
  funext i
  obtain ⟨a, j, rfl⟩ : ∃ (a : Fin n) (j : Fin 128), i = ix2 a j := ⟨i 0, i 1, eq_ix2 i⟩
  exact dif_pos j.isLt
theorem colsR_pack {n : Nat} (S T : Cert.Spec.A2 n 128) : Cert.Spec.colsR (Cert.Spec.pack S T) = T := by
  funext i
  obtain ⟨a, j, rfl⟩ : ∃ (a : Fin n) (j : Fin 128), i = ix2 a j := ⟨i 0, i 1, eq_ix2 i⟩
  refine (dif_neg (by show ¬ (128 + j.val < 128); omega)).trans ?_
  exact congrArg T (congrArg (ix2 a) (Fin.ext (by show 128 + j.val - 128 = j.val; omega)))

/-- A column slice of gathered rows is the gathered rows of the column slice. -/
theorem colsL_gatherRows (P : Cert.Spec.A2 50000 256) (idx : Cert.Spec.Edges) (r : Fin 2) :
    Cert.Spec.colsL (Cert.Spec.gatherRows P idx r) = Cert.Spec.gatherRows (Cert.Spec.colsL P) idx r := by
  funext i; rfl
theorem colsR_gatherRows (P : Cert.Spec.A2 50000 256) (idx : Cert.Spec.Edges) (r : Fin 2) :
    Cert.Spec.colsR (Cert.Spec.gatherRows P idx r) = Cert.Spec.gatherRows (Cert.Spec.colsR P) idx r := by
  funext i; rfl

/-- A vector of 800000 entries broadcast to one column, at an index. -/
theorem col_apply {α : Type} (v : S800000.Idx → α) (h : S800000.BroadcastsInDim S800000x1 ![0]) (j : S800000x1.Idx) :
    broadcastInDim S800000x1 ![0] h v j = v (ix1 (j 0)) :=
  broadcastInDim_apply _ h v j (ix1 (j 0)) (fun a => by
    match a with
    | ⟨0, _⟩ => exact (if_neg (show ¬ (800000 : ℕ) = 1 by decide)).symm)

/-- The index columns the scatters take. -/
theorem srcIx_eq (idx : Cert.Spec.Edges) (h : S800000.BroadcastsInDim S800000x1 ![0]) :
    broadcastInDim S800000x1 ![0] h (Cert.Spec.edgeVec idx 0) = Cert.Spec.srcIx idx := by
  funext j; rw [col_apply]; rfl
theorem dstIx_eq (idx : Cert.Spec.Edges) (h : S800000.BroadcastsInDim S800000x1 ![0]) :
    broadcastInDim S800000x1 ![0] h (Cert.Spec.edgeVec idx 1) = Cert.Spec.dstIx idx := by
  funext j; rw [col_apply]; rfl

/-- The zero word splat over any shape. -/
theorem zeros_eq {T : Shape} (h : S_.BroadcastsInDim T ![]) :
    broadcastInDim T ![] h (constant (F := Ideal) S_ .f32 0x00000000#32) = fun _ => Cert.Spec.zeroW := by
  funext j; rw [broadcastInDim_scalar_apply]; rfl

/-- A per-edge column with a per-edge vector, made a column, concatenated to its right. -/
theorem beside_eq (x : Cert.Spec.A2 800000 1) (y : Cert.Spec.A1 800000) (hb : S800000.BroadcastsInDim S800000x1 ![0])
    (hc : Shape.Concatenates [S800000x1, S800000x1] S800000x2 1) :
    concatenate S800000x2 1 [⟨S800000x1, x⟩, ⟨S800000x1, broadcastInDim S800000x1 ![0] hb y⟩] hc = Cert.Spec.beside x y := by
  funext i
  obtain ⟨e, k, rfl⟩ : ∃ (e : Fin 800000) (k : Fin 2), i = ix2 e k := ⟨i 0, i 1, eq_ix2 i⟩
  by_cases hk : k.val = 0
  · rw [concatenate_pair_apply_left 1 x _ hc (ix2 e k) rfl (ix2 e (0 : Fin 1)) (fun b => by
        match b with
        | ⟨0, _⟩ => rfl
        | ⟨1, _⟩ => exact hk.symm)]
    exact (if_pos hk).symm
  · have hk1 : k.val = 1 := by omega
    rw [concatenate_pair_apply_right 1 x _ hc (ix2 e k) rfl rfl (ix2 e (0 : Fin 1)) (fun b hb' => by
        match b, hb' with
        | ⟨0, _⟩, _ => rfl
        | ⟨1, _⟩, hb' => exact absurd rfl hb') (by show 0 + 1 = k.val; omega), col_apply]
    exact (if_neg hk).symm

end Layout

/-! ## The two scatter-adds, as the host spells them -/

theorem sumExp_eq (ex : Cert.Spec.A2 800000 1) (idx : Cert.Spec.Edges) (hz : S_.BroadcastsInDim S50000 ![])
    (hb : S800000.BroadcastsInDim S800000x1 ![0]) (hc : S800000x1.ShapeCasts S800000) :
    Host.scatterAdd (F := Ideal) scatter_S50000_S800000x1_S800000_n_0_0_1
        (broadcastInDim S50000 ![] hz (constant (F := Ideal) S_ .f32 0x00000000#32))
        (broadcastInDim S800000x1 ![0] hb (Cert.Spec.edgeVec idx 0)) (shapeCast S800000 ex hc)
      = Cert.Spec.sumExp (Cert.Spec.flat ex) idx := by
  rw [zeros_eq, srcIx_eq, flat_eq]; rfl

theorem aggOf_eq (msg : Cert.Spec.A2 800000 128) (idx : Cert.Spec.Edges) (hz : S_.BroadcastsInDim S50000x128 ![])
    (hb : S800000.BroadcastsInDim S800000x1 ![0]) :
    Host.scatterAdd (F := Ideal) scatter_S50000x128_S800000x1_S800000x128_1_0_0_1
        (broadcastInDim S50000x128 ![] hz (constant (F := Ideal) S_ .f32 0x00000000#32))
        (broadcastInDim S800000x1 ![0] hb (Cert.Spec.edgeVec idx 1)) msg
      = Cert.Spec.aggOf msg idx := by
  rw [zeros_eq, dstIx_eq]; rfl

/-! ## Each stretch of host operations, from any contents `V` -/

section Stages
variable (V : Valuation τ sig (Elt Ideal))

theorem h0_v1 : StableHlo.after hostOps0 V (Proc.devRef .tc main_v1) = Cert.Spec.edgeVec (V (Proc.devRef .tc main_arg1)) 0 := by
  after_results; exact edgeRow_eq _ 0 0 rfl _ _
theorem h0_v3 : StableHlo.after hostOps0 V (Proc.devRef .tc main_v3) = Cert.Spec.edgeVec (V (Proc.devRef .tc main_arg1)) 1 := by
  after_results; exact edgeRow_eq _ 1 1 rfl _ _
theorem h0_v4 : StableHlo.after hostOps0 V (Proc.devRef .tc main_v4) = Cert.Spec.bRow (V (Proc.devRef .tc main_arg3)) := by
  after_results; exact bRow_eq _ _

theorem h1_v6 : StableHlo.after hostOps1 V (Proc.devRef .tc main_v6) = Cert.Spec.colsL (V (Proc.devRef .tc main_v5)) := by
  after_results; exact colsL_eq _ _

theorem h1_3_v10 : StableHlo.after hostOps1_3 V (Proc.devRef .tc main_v10) = Cert.Spec.colsL (V (Proc.devRef .tc main_v9)) := by
  after_results; exact colsL_eq _ _
theorem h1_3_v11 : StableHlo.after hostOps1_3 V (Proc.devRef .tc main_v11) = Cert.Spec.colsR (V (Proc.devRef .tc main_v9)) := by
  after_results; exact colsR_eq _ _
theorem h1_3_v12 : StableHlo.after hostOps1_3 V (Proc.devRef .tc main_v12) = Cert.Spec.rowsT (V (Proc.devRef .tc main_arg6)) := by
  after_results; exact rowsT_eq _ _
theorem h1_3_v13 : StableHlo.after hostOps1_3 V (Proc.devRef .tc main_v13) = Cert.Spec.rowsB (V (Proc.devRef .tc main_arg6)) := by
  after_results; exact rowsB_eq _ _
theorem h1_3_v14 : StableHlo.after hostOps1_3 V (Proc.devRef .tc main_v14) = Cert.Spec.bRow (V (Proc.devRef .tc main_arg7)) := by
  after_results; exact bRow_eq _ _
theorem h1_3_v15 : StableHlo.after hostOps1_3 V (Proc.devRef .tc main_v15) = Cert.Spec.bRow (V (Proc.devRef .tc main_arg9)) := by
  after_results; exact bRow_eq _ _

/-- The normaliser: ex flattened and added into the zero vector at the edges' sources. -/
theorem h2_v20 (idx : Cert.Spec.Edges) (h1 : V (Proc.devRef .tc main_v1) = Cert.Spec.edgeVec idx 0) :
    StableHlo.after hostOps2 V (Proc.devRef .tc main_v20)
      = Cert.Spec.sumExp (Cert.Spec.flat (V (Proc.devRef .tc main_v16))) idx := by
  after_results; rw [h1]; exact sumExp_eq _ _ _ _ _

theorem h2_2_v23 : StableHlo.after hostOps2_2 V (Proc.devRef .tc main_v23)
    = Cert.Spec.beside (V (Proc.devRef .tc main_v16)) (V (Proc.devRef .tc main_v21)) := by
  after_results; exact beside_eq _ _ _ _

/-- The aggregate: the messages added into the zero array at the edges' destinations. -/
theorem h3_v31 (idx : Cert.Spec.Edges) (h3 : V (Proc.devRef .tc main_v3) = Cert.Spec.edgeVec idx 1) :
    StableHlo.after hostOps3 V (Proc.devRef .tc main_v31) = Cert.Spec.aggOf (V (Proc.devRef .tc main_v24)) idx := by
  after_results; rw [h3]; exact aggOf_eq _ _ _ _

end Stages

/-! ## The fold, in program order -/

section Fold
variable (m : (ℓ : Loc nD τ sig) → Buf (Elt Ideal) ℓ) (ρ : Dev nD → PrngReg) (c : Dev nD)

/-! ### Carrying a reference across the segments that leave it alone -/

/-- Through the host operations between the first region and the second. -/
theorem through1 (r : Ref sig .tc) (h : r ∉ wr1 ∧ r ∉ wr1_1 ∧ r ∉ wr1_2 ∧ r ∉ wr1_3) :
    W6 (F := Ideal) m ρ c (Proc.devRef .tc r) = W2 (F := Ideal) m ρ c (Proc.devRef .tc r) :=
  (keep1_3 _ h.2.2.2).trans ((keep1_2 _ h.2.2.1).trans ((keep1_1 _ h.2.1).trans (keep1 _ h.1)))
/-- Through the host operations between the second region and the third. -/
theorem through2 (r : Ref sig .tc) (h : r ∉ wr2 ∧ r ∉ wr2_1 ∧ r ∉ wr2_2) :
    W10 (F := Ideal) m ρ c (Proc.devRef .tc r) = W7 (F := Ideal) m ρ c (Proc.devRef .tc r) :=
  (keep2_2 _ h.2.2).trans ((keep2_1 _ h.2.1).trans (keep2 _ h.1))

/-- What it takes for a reference to come from the first region's entry to a later boundary untouched:
    no host operation on the way writes it and it is none of the arrays of a region on the way. -/
abbrev Q6 (r : Ref sig .tc) : Prop := (r ∉ wr1 ∧ r ∉ wr1_1 ∧ r ∉ wr1_2 ∧ r ∉ wr1_3) ∧ ∀ w, Pipeline.arrRef spec0 w ≠ r
abbrev Q7 (r : Ref sig .tc) : Prop := (∀ w, Pipeline.arrRef spec1 w ≠ r) ∧ Q6 r
abbrev Q10 (r : Ref sig .tc) : Prop := (r ∉ wr2 ∧ r ∉ wr2_1 ∧ r ∉ wr2_2) ∧ Q7 r
abbrev Q11 (r : Ref sig .tc) : Prop := (∀ w, Pipeline.arrRef spec2 w ≠ r) ∧ Q10 r
abbrev Q12 (r : Ref sig .tc) : Prop := r ∉ wr3 ∧ Q11 r
abbrev Q13 (r : Ref sig .tc) : Prop := (∀ w, Pipeline.arrRef spec3 w ≠ r) ∧ Q12 r

theorem W6_from1 (r : Ref sig .tc) (h : Q6 r) :
    W6 (F := Ideal) m ρ c (Proc.devRef .tc r) = W1 (F := Ideal) m ρ c (Proc.devRef .tc r) :=
  (through1 m ρ c r h.1).trans (W2_of_ne m ρ c r h.2)
theorem W7_from1 (r : Ref sig .tc) (h : Q7 r) :
    W7 (F := Ideal) m ρ c (Proc.devRef .tc r) = W1 (F := Ideal) m ρ c (Proc.devRef .tc r) :=
  (W7_of_ne m ρ c r h.1).trans (W6_from1 m ρ c r h.2)
theorem W10_from1 (r : Ref sig .tc) (h : Q10 r) :
    W10 (F := Ideal) m ρ c (Proc.devRef .tc r) = W1 (F := Ideal) m ρ c (Proc.devRef .tc r) :=
  (through2 m ρ c r h.1).trans (W7_from1 m ρ c r h.2)
theorem W11_from1 (r : Ref sig .tc) (h : Q11 r) :
    W11 (F := Ideal) m ρ c (Proc.devRef .tc r) = W1 (F := Ideal) m ρ c (Proc.devRef .tc r) :=
  (W11_of_ne m ρ c r h.1).trans (W10_from1 m ρ c r h.2)
theorem W12_from1 (r : Ref sig .tc) (h : Q12 r) :
    W12 (F := Ideal) m ρ c (Proc.devRef .tc r) = W1 (F := Ideal) m ρ c (Proc.devRef .tc r) :=
  (keep3 _ h.1).trans (W11_from1 m ρ c r h.2)
theorem W13_from1 (r : Ref sig .tc) (h : Q13 r) :
    W13 (F := Ideal) m ρ c (Proc.devRef .tc r) = W1 (F := Ideal) m ρ c (Proc.devRef .tc r) :=
  (W13_of_ne m ρ c r h.1).trans (W12_from1 m ρ c r h.2)

/-- A reference the first host operations do not write holds, at the first region's entry, what it held at the launch. -/
theorem W1_launch (r : Ref sig .tc) (h : r ∉ wr0) :
    W1 (F := Ideal) m ρ c (Proc.devRef .tc r) = m ((c.tc : Thread nD τ).loc r) :=
  keep0 _ h
/-- The same when the gathers of the first step start. -/
theorem W5_launch (r : Ref sig .tc)
    (h : r ∉ wr1_2 ∧ r ∉ wr1_1 ∧ r ∉ wr1 ∧ (∀ w, Pipeline.arrRef spec0 w ≠ r) ∧ r ∉ wr0) :
    W5 (F := Ideal) m ρ c (Proc.devRef .tc r) = m ((c.tc : Thread nD τ).loc r) :=
  (keep1_2 _ h.1).trans ((keep1_1 _ h.2.1).trans ((keep1 _ h.2.2.1).trans
    ((W2_of_ne m ρ c r h.2.2.2.1).trans (W1_launch m ρ c r h.2.2.2.2))))

/-! ### Before the encoder: the two index vectors and the bias as a row -/

theorem W1_v1 : W1 (F := Ideal) m ρ c (Proc.devRef .tc main_v1) = Cert.Spec.edgeVec (aIdx m c) 0 := h0_v1 _
theorem W1_v3 : W1 (F := Ideal) m ρ c (Proc.devRef .tc main_v3) = Cert.Spec.edgeVec (aIdx m c) 1 := h0_v3 _
theorem W1_v4 : W1 (F := Ideal) m ρ c (Proc.devRef .tc main_v4) = Cert.Spec.bRow (aBl m c) := h0_v4 _

/-! ### The encoder region: S₁ beside S₁ · W_node -/

theorem W2_v5 : W2 (F := Ideal) m ρ c (Proc.devRef .tc main_v5)
    = Cert.Spec.pack (S1 m c) (Cert.Spec.mm (S1 m c) (aWn m c)) := by
  refine (W2_arr m ρ c 4).trans ((final0 (V1 m ρ) c).trans ?_)
  show Cert.Spec.reg0 (W1 m ρ c (Proc.devRef .tc main_arg0)) (W1 m ρ c (Proc.devRef .tc main_arg2))
    (W1 m ρ c (Proc.devRef .tc main_v4)) (W1 m ρ c (Proc.devRef .tc main_arg10)) = _
  rw [W1_launch m ρ c main_arg0 (by decide), W1_launch m ρ c main_arg2 (by decide), W1_v4,
    W1_launch m ρ c main_arg10 (by decide)]
  rfl

/-! ### The gathers of the first step -/

theorem W3_v6 : W3 (F := Ideal) m ρ c (Proc.devRef .tc main_v6) = S1 m c :=
  (h1_v6 _).trans (by rw [W2_v5, colsL_pack])
theorem W3_v3 : W3 (F := Ideal) m ρ c (Proc.devRef .tc main_v3) = Cert.Spec.edgeVec (aIdx m c) 1 :=
  (keep1 _ (by decide)).trans ((W2_of_ne m ρ c main_v3 (by decide)).trans (W1_v3 m ρ c))
theorem W4_v8 (hidx : Cert.Spec.InRange (aIdx m c)) :
    W4 (F := Ideal) m ρ c (Proc.devRef .tc main_v8) = Cert.Spec.gatherRows (S1 m c) (aIdx m c) 1 :=
  (hostOps1_1_main_v8 _).trans (by rw [W3_v6, W3_v3, Take.take128_eq _ _ _ hidx])
theorem W4_v5 : W4 (F := Ideal) m ρ c (Proc.devRef .tc main_v5)
    = Cert.Spec.pack (S1 m c) (Cert.Spec.mm (S1 m c) (aWn m c)) :=
  (keep1_1 _ (by decide)).trans ((keep1 _ (by decide)).trans (W2_v5 m ρ c))
theorem W4_v1 : W4 (F := Ideal) m ρ c (Proc.devRef .tc main_v1) = Cert.Spec.edgeVec (aIdx m c) 0 :=
  (keep1_1 _ (by decide)).trans ((keep1 _ (by decide)).trans
    ((W2_of_ne m ρ c main_v1 (by decide)).trans (W1_v1 m ρ c)))
theorem W5_v9 (hidx : Cert.Spec.InRange (aIdx m c)) :
    W5 (F := Ideal) m ρ c (Proc.devRef .tc main_v9)
      = Cert.Spec.gatherRows (Cert.Spec.pack (S1 m c) (Cert.Spec.mm (S1 m c) (aWn m c))) (aIdx m c) 0 :=
  (hostOps1_2_main_v9 _).trans (by rw [W4_v5, W4_v1, Take.take256_eq _ _ _ hidx])

/-! ### The attention region's inputs, and ex -/

theorem W6_v10 (hidx : Cert.Spec.InRange (aIdx m c)) :
    W6 (F := Ideal) m ρ c (Proc.devRef .tc main_v10) = Cert.Spec.gatherRows (S1 m c) (aIdx m c) 0 :=
  (h1_3_v10 _).trans (by rw [W5_v9 m ρ c hidx, colsL_gatherRows, colsL_pack])
theorem W6_v11 (hidx : Cert.Spec.InRange (aIdx m c)) :
    W6 (F := Ideal) m ρ c (Proc.devRef .tc main_v11)
      = Cert.Spec.gatherRows (Cert.Spec.mm (S1 m c) (aWn m c)) (aIdx m c) 0 :=
  (h1_3_v11 _).trans (by rw [W5_v9 m ρ c hidx, colsR_gatherRows, colsR_pack])
theorem W6_v12 : W6 (F := Ideal) m ρ c (Proc.devRef .tc main_v12) = Cert.Spec.rowsT (aWa1 m c) :=
  (h1_3_v12 _).trans (congrArg Cert.Spec.rowsT (W5_launch m ρ c main_arg6 (by decide)))
theorem W6_v13 : W6 (F := Ideal) m ρ c (Proc.devRef .tc main_v13) = Cert.Spec.rowsB (aWa1 m c) :=
  (h1_3_v13 _).trans (congrArg Cert.Spec.rowsB (W5_launch m ρ c main_arg6 (by decide)))
theorem W6_v14 : W6 (F := Ideal) m ρ c (Proc.devRef .tc main_v14) = Cert.Spec.bRow (aBa1 m c) :=
  (h1_3_v14 _).trans (congrArg Cert.Spec.bRow (W5_launch m ρ c main_arg7 (by decide)))
theorem W6_v15 : W6 (F := Ideal) m ρ c (Proc.devRef .tc main_v15) = Cert.Spec.bRow (aBa2 m c) :=
  (h1_3_v15 _).trans (congrArg Cert.Spec.bRow (W5_launch m ρ c main_arg9 (by decide)))
theorem W6_v8 (hidx : Cert.Spec.InRange (aIdx m c)) :
    W6 (F := Ideal) m ρ c (Proc.devRef .tc main_v8) = Cert.Spec.gatherRows (S1 m c) (aIdx m c) 1 :=
  (keep1_3 _ (by decide)).trans ((keep1_2 _ (by decide)).trans (W4_v8 m ρ c hidx))
theorem W6_arg8 : W6 (F := Ideal) m ρ c (Proc.devRef .tc main_arg8) = aWa2 m c :=
  (W6_from1 m ρ c main_arg8 (by decide)).trans (W1_launch m ρ c main_arg8 (by decide))

/-- ex of the first step. -/
abbrev ex1 : Cert.Spec.A2 800000 1 := Cert.Spec.exCol (aIdx m c) (aWa1 m c) (aBa1 m c) (aWa2 m c) (aBa2 m c) (S1 m c)

theorem W7_v16 (hidx : Cert.Spec.InRange (aIdx m c)) :
    W7 (F := Ideal) m ρ c (Proc.devRef .tc main_v16) = ex1 m c := by
  refine (W7_arr m ρ c 7).trans ((final1 (V6 m ρ) c).trans ?_)
  show Cert.Spec.reg1 (W6 m ρ c (Proc.devRef .tc main_v10)) (W6 m ρ c (Proc.devRef .tc main_v8))
    (W6 m ρ c (Proc.devRef .tc main_v12)) (W6 m ρ c (Proc.devRef .tc main_v13)) (W6 m ρ c (Proc.devRef .tc main_v14))
    (W6 m ρ c (Proc.devRef .tc main_arg8)) (W6 m ρ c (Proc.devRef .tc main_v15)) = _
  rw [W6_v10 m ρ c hidx, W6_v8 m ρ c hidx, W6_v12, W6_v13, W6_v14, W6_arg8, W6_v15]
  rfl

/-! ### The normaliser, read back at the edges' sources, beside ex -/

theorem W7_v1 : W7 (F := Ideal) m ρ c (Proc.devRef .tc main_v1) = Cert.Spec.edgeVec (aIdx m c) 0 :=
  (W7_from1 m ρ c main_v1 (by decide)).trans (W1_v1 m ρ c)
theorem W8_v20 (hidx : Cert.Spec.InRange (aIdx m c)) :
    W8 (F := Ideal) m ρ c (Proc.devRef .tc main_v20) = Cert.Spec.sumExp (Cert.Spec.flat (ex1 m c)) (aIdx m c) :=
  (h2_v20 _ _ (W7_v1 m ρ c)).trans (by rw [W7_v16 m ρ c hidx])
theorem W8_v1 : W8 (F := Ideal) m ρ c (Proc.devRef .tc main_v1) = Cert.Spec.edgeVec (aIdx m c) 0 :=
  (keep2 _ (by decide)).trans (W7_v1 m ρ c)
theorem W9_v21 (hidx : Cert.Spec.InRange (aIdx m c)) :
    W9 (F := Ideal) m ρ c (Proc.devRef .tc main_v21) = Cert.Spec.seSrc (aIdx m c) (Cert.Spec.flat (ex1 m c)) :=
  (hostOps2_1_main_v21 _).trans (by rw [W8_v20 m ρ c hidx, W8_v1, Take.take1_eq _ _ _ hidx]; rfl)
theorem W9_v16 (hidx : Cert.Spec.InRange (aIdx m c)) :
    W9 (F := Ideal) m ρ c (Proc.devRef .tc main_v16) = ex1 m c :=
  (keep2_1 _ (by decide)).trans ((keep2 _ (by decide)).trans (W7_v16 m ρ c hidx))
theorem W10_v23 (hidx : Cert.Spec.InRange (aIdx m c)) :
    W10 (F := Ideal) m ρ c (Proc.devRef .tc main_v23)
      = Cert.Spec.beside (ex1 m c) (Cert.Spec.seSrc (aIdx m c) (Cert.Spec.flat (ex1 m c))) :=
  (h2_2_v23 _).trans (by rw [W9_v16 m ρ c hidx, W9_v21 m ρ c hidx])
theorem W10_v11 (hidx : Cert.Spec.InRange (aIdx m c)) :
    W10 (F := Ideal) m ρ c (Proc.devRef .tc main_v11)
      = Cert.Spec.gatherRows (Cert.Spec.mm (S1 m c) (aWn m c)) (aIdx m c) 0 :=
  (through2 m ρ c main_v11 (by decide)).trans ((W7_of_ne m ρ c main_v11 (by decide)).trans (W6_v11 m ρ c hidx))

/-! ### The messages and their sum into the destination nodes -/

/-- The messages of the first step. -/
abbrev msg1 : Cert.Spec.A2 800000 128 :=
  Cert.Spec.msgOf (aIdx m c) (aWa1 m c) (aBa1 m c) (aWa2 m c) (aBa2 m c) (aWn m c) (S1 m c)

theorem W11_v24 (hidx : Cert.Spec.InRange (aIdx m c)) :
    W11 (F := Ideal) m ρ c (Proc.devRef .tc main_v24) = msg1 m c := by
  refine (W11_arr m ρ c 2).trans ((final2 (V10 m ρ) c).trans ?_)
  show Cert.Spec.reg2 (W10 m ρ c (Proc.devRef .tc main_v11)) (W10 m ρ c (Proc.devRef .tc main_v23)) = _
  rw [W10_v11 m ρ c hidx, W10_v23 m ρ c hidx]
  rfl
theorem W11_v3 : W11 (F := Ideal) m ρ c (Proc.devRef .tc main_v3) = Cert.Spec.edgeVec (aIdx m c) 1 :=
  (W11_from1 m ρ c main_v3 (by decide)).trans (W1_v3 m ρ c)
theorem W12_v31 (hidx : Cert.Spec.InRange (aIdx m c)) :
    W12 (F := Ideal) m ρ c (Proc.devRef .tc main_v31) = Cert.Spec.aggOf (msg1 m c) (aIdx m c) :=
  (h3_v31 _ _ (W11_v3 m ρ c)).trans (by rw [W11_v24 m ρ c hidx])

/-! ### The update region's other inputs: S₁ and W_node, untouched since they were made -/

theorem W12_v6 : W12 (F := Ideal) m ρ c (Proc.devRef .tc main_v6) = S1 m c :=
  (keep3 _ (by decide)).trans ((W11_of_ne m ρ c main_v6 (by decide)).trans
    ((through2 m ρ c main_v6 (by decide)).trans ((W7_of_ne m ρ c main_v6 (by decide)).trans
      ((keep1_3 _ (by decide)).trans ((keep1_2 _ (by decide)).trans ((keep1_1 _ (by decide)).trans (W3_v6 m ρ c)))))))
/-- W_node is an input of the encoder region: the region hands an input array back as it found it. -/
theorem W2_arg10 : W2 (F := Ideal) m ρ c (Proc.devRef .tc main_arg10) = aWn m c :=
  (W2_arr m ρ c 3).trans (((dat0 (V1 m ρ) c).arrAt_in 3 rfl _).trans
    ((A_eq0 (V1 m ρ) c 3).trans (W1_launch m ρ c main_arg10 (by decide))))
theorem W12_arg10 : W12 (F := Ideal) m ρ c (Proc.devRef .tc main_arg10) = aWn m c :=
  (keep3 _ (by decide)).trans ((W11_of_ne m ρ c main_arg10 (by decide)).trans
    ((through2 m ρ c main_arg10 (by decide)).trans ((W7_of_ne m ρ c main_arg10 (by decide)).trans
      ((through1 m ρ c main_arg10 (by decide)).trans (W2_arg10 m ρ c)))))
/-- W₂ of the attention MLP is an input of the attention region. -/
theorem W7_arg8 : W7 (F := Ideal) m ρ c (Proc.devRef .tc main_arg8) = aWa2 m c :=
  (W7_arr m ρ c 5).trans (((dat1 (V6 m ρ) c).arrAt_in 5 rfl _).trans
    ((A_eq1 (V6 m ρ) c 5).trans (W6_arg8 m ρ c)))

end Fold

variable (m : (ℓ : Loc nD τ sig) → Buf (Elt Ideal) ℓ) (ρ : Dev nD → PrngReg)

/-! From the launch to the exit of the fourth region (the first diffusion step): the buffers' contents, read off the fold. -/

/-- After the first step the packed array holds the new node states beside their image under W_node. -/
theorem W13_v32 (c : Dev nD) (hidx : Cert.Spec.InRange (aIdx m c)) :
    W13 (F := Ideal) m ρ c (Proc.devRef .tc main_v32)
      = Cert.Spec.pack (stp m c (S1 m c)) (Cert.Spec.mm (stp m c (S1 m c)) (aWn m c)) := by
  refine (W13_arr m ρ c 3).trans ((final3 (V12 m ρ) c).trans ?_)
  show Cert.Spec.reg3 (W12 m ρ c (Proc.devRef .tc main_v6)) (W12 m ρ c (Proc.devRef .tc main_v31))
    (W12 m ρ c (Proc.devRef .tc main_arg10)) = _
  rw [W12_v6, W12_v31 m ρ c hidx, W12_arg10]
  rfl
theorem W13_v1 (c : Dev nD) : W13 (F := Ideal) m ρ c (Proc.devRef .tc main_v1) = Cert.Spec.edgeVec (aIdx m c) 0 :=
  (W13_from1 m ρ c main_v1 (by decide)).trans (W1_v1 m ρ c)
theorem W13_v3 (c : Dev nD) : W13 (F := Ideal) m ρ c (Proc.devRef .tc main_v3) = Cert.Spec.edgeVec (aIdx m c) 1 :=
  (W13_from1 m ρ c main_v3 (by decide)).trans (W1_v3 m ρ c)
theorem W13_arg4 (c : Dev nD) : W13 (F := Ideal) m ρ c (Proc.devRef .tc main_arg4) = m ((c.tc : Thread nD τ).loc main_arg4) :=
  (W13_from1 m ρ c main_arg4 (by decide)).trans (W1_launch m ρ c main_arg4 (by decide))
theorem W13_arg5 (c : Dev nD) : W13 (F := Ideal) m ρ c (Proc.devRef .tc main_arg5) = m ((c.tc : Thread nD τ).loc main_arg5) :=
  (W13_from1 m ρ c main_arg5 (by decide)).trans (W1_launch m ρ c main_arg5 (by decide))
theorem W13_arg6 (c : Dev nD) : W13 (F := Ideal) m ρ c (Proc.devRef .tc main_arg6) = m ((c.tc : Thread nD τ).loc main_arg6) :=
  (W13_from1 m ρ c main_arg6 (by decide)).trans (W1_launch m ρ c main_arg6 (by decide))
theorem W13_arg7 (c : Dev nD) : W13 (F := Ideal) m ρ c (Proc.devRef .tc main_arg7) = m ((c.tc : Thread nD τ).loc main_arg7) :=
  (W13_from1 m ρ c main_arg7 (by decide)).trans (W1_launch m ρ c main_arg7 (by decide))
theorem W13_arg8 (c : Dev nD) : W13 (F := Ideal) m ρ c (Proc.devRef .tc main_arg8) = m ((c.tc : Thread nD τ).loc main_arg8) :=
  (W13_of_ne m ρ c main_arg8 (by decide)).trans ((keep3 _ (by decide)).trans
    ((W11_of_ne m ρ c main_arg8 (by decide)).trans ((through2 m ρ c main_arg8 (by decide)).trans (W7_arg8 m ρ c))))
theorem W13_arg9 (c : Dev nD) : W13 (F := Ideal) m ρ c (Proc.devRef .tc main_arg9) = m ((c.tc : Thread nD τ).loc main_arg9) :=
  (W13_from1 m ρ c main_arg9 (by decide)).trans (W1_launch m ρ c main_arg9 (by decide))
theorem W13_arg10 (c : Dev nD) : W13 (F := Ideal) m ρ c (Proc.devRef .tc main_arg10) = m ((c.tc : Thread nD τ).loc main_arg10) :=
  (W13_arr m ρ c 2).trans (((dat3 (V12 m ρ) c).arrAt_in 2 rfl _).trans
    ((A_eq3 (V12 m ρ) c 2).trans (W12_arg10 m ρ c)))

end Cert.KernelIdeal.Val

end
-- ==== Proof.Reg4.lean ====
import proofs.«415169_j41790031790248_2_alg».proof.Proof.Gen.KernelIdeal.Frame
import proofs.«415169_j41790031790248_2_alg».proof.Proof.Spec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The two contractions' operand indices, axis by axis

The first layer's products contract the 128 columns of a block of states with the 128 rows of a weight; the second
layer's product contracts the 32 hidden units with the 32 rows of W₂. At output index (r, c) and contraction position k
the left operand is read at (r, k) and the right at (k, c). -/

private theorem lhs_first_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl

private theorem lhs_first_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q

private theorem rhs_first_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q

private theorem rhs_first_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

private theorem lhs_second_0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide),
    dif_pos (show (0 : Fin S10000x32.rank) ∈ dot_S10000x32_S32x1_S10000x1_1_0_0_1_n_n.lhsNonContracting by decide)]
  rfl

private theorem lhs_second_1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q

private theorem rhs_second_0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q

private theorem rhs_second_1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide),
    dif_pos (show (1 : Fin S32x1.rank) ∈ dot_S10000x32_S32x1_S10000x1_1_0_0_1_n_n.rhsNonContracting by decide)]
  rfl

/-- A first-layer product into the zero accumulator, at row r and hidden unit j: the sum over the 128 columns. -/
private theorem mm_first_apply (x : FVec Ideal S10000x128 .f32) (w : FVec Ideal S128x32 .f32) (r : Fin 10000) (j : Fin 32) :
    matmul dot_S10000x128_S128x32_S10000x32_1_0_0_1_n_n none x w (constant S10000x32 .f32 0x00000000#32) (ix2 r j)
      = ∑ k : Fin 128, x (ix2 r k) * w (ix2 k j) := by
  simp only [matmul]
  rw [Ideal.matmul_constant_zero_apply,
    ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r j)
      ((contrEquiv1 dot_S10000x128_S128x32_S10000x32_1_0_0_1_n_n 128 rfl rfl).symm k) = ix2 r k :=
    funext fun a => Fin.ext (by
      match a with
      | ⟨0, _⟩ => exact lhs_first_0 _ _
      | ⟨1, _⟩ => exact (lhs_first_1 _ _).trans hk)
  have er : dot_S10000x128_S128x32_S10000x32_1_0_0_1_n_n.rhsIdx (ix2 r j)
      ((contrEquiv1 dot_S10000x128_S128x32_S10000x32_1_0_0_1_n_n 128 rfl rfl).symm k) = ix2 k j :=
    funext fun a => Fin.ext (by
      match a with
      | ⟨0, _⟩ => exact (rhs_first_0 _ _).trans hk
      | ⟨1, _⟩ => exact rhs_first_1 _ _)
  rw [el, er]

/-- The second-layer product into the zero accumulator, at row r and column c: the sum over the 32 hidden units. -/
private theorem mm_second_apply (h : FVec Ideal S10000x32 .f32) (w : FVec Ideal S32x1 .f32) (r : Fin 10000) (c : Fin 1) :
    matmul dot_S10000x32_S32x1_S10000x1_1_0_0_1_n_n none h w (constant S10000x1 .f32 0x00000000#32) (ix2 r c)
      = ∑ j : Fin 32, h (ix2 r j) * w (ix2 j c) := by
  simp only [matmul]
  rw [Ideal.matmul_constant_zero_apply,
    ← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 r c)
      ((contrEquiv1 dot_S10000x32_S32x1_S10000x1_1_0_0_1_n_n 32 rfl rfl).symm k) = ix2 r k :=
    funext fun a => Fin.ext (by
      match a with
      | ⟨0, _⟩ => exact lhs_second_0 _ _
      | ⟨1, _⟩ => exact (lhs_second_1 _ _).trans hk)
  have er : dot_S10000x32_S32x1_S10000x1_1_0_0_1_n_n.rhsIdx (ix2 r c)
      ((contrEquiv1 dot_S10000x32_S32x1_S10000x1_1_0_0_1_n_n 32 rfl rfl).symm k) = ix2 k c :=
    funext fun a => Fin.ext (by
      match a with
      | ⟨0, _⟩ => exact (rhs_second_0 _ _).trans hk
      | ⟨1, _⟩ => exact rhs_second_1 _ _)
  rw [el, er]

/-- The exponential of a vector, read at an index. -/
private theorem exp_at {s : Shape} (a : FVec Ideal s .f32) (i : s.Idx) : exp a i = Ideal.exp (a i) := rfl

/-- The body's arithmetic at row r of a block: the hidden layer is the leaky rectifier of the two first-layer products
    plus the bias row, and the result the exponential of the clipped second-layer logit. -/
private theorem pay_apply (x0 x1 : Vec Ideal S10000x128 .f32) (x2 x3 : Vec Ideal S128x32 .f32) (x4 : Vec Ideal S1x32 .f32)
    (x5 : Vec Ideal S32x1 .f32) (x6 : Vec Ideal S1x1 .f32) (r : Fin 10000) (c : Fin 1) :
    k4_pay1 x0 x2 x1 x3 x4 x5 x6 (ix2 r c)
      = Ideal.exp (Cert.Spec.clip ((∑ j : Fin 32, Cert.Spec.leaky ((∑ k : Fin 128, x0 (ix2 r k) * x2 (ix2 k j))
          + (∑ k : Fin 128, x1 (ix2 r k) * x3 (ix2 k j)) + x4 (ix2 (0 : Fin 1) j)) * x5 (ix2 j c)) + x6 (ix2 (0 : Fin 1) c))) := by
  obtain rfl : c = 0 := Subsingleton.elim _ _
  unfold k4_pay1
  simp only [shapeCast_self]
  rw [exp_at, minimumf_apply, maximumf_apply, addf_apply, broadcast_apply, broadcast_apply, mm_second_apply,
    broadcastTo_apply x6 broadcasts_S1x1_S10000x1 (ix2 r (0 : Fin 1)) (ix2 (0 : Fin 1) (0 : Fin 1))
      (fun a => by match a with | ⟨0, _⟩ => rfl | ⟨1, _⟩ => rfl)]
  unfold Cert.Spec.clip Cert.Spec.hiW Cert.Spec.loW
  refine congrArg Ideal.exp (congrArg (min _) (congrArg (max _) (congrArg (· + _) (Finset.sum_congr rfl fun j _ => ?_))))
  refine congrArg (· * x5 (ix2 j (0 : Fin 1))) ?_
  rw [select_apply, cmpf_apply, mulf_apply, broadcast_apply, broadcast_apply, addf_apply, addf_apply, mm_first_apply,
    mm_first_apply,
    broadcastTo_apply x4 broadcasts_S1x32_S10000x32 (ix2 r j) (ix2 (0 : Fin 1) j)
      (fun a => by match a with | ⟨0, _⟩ => rfl | ⟨1, _⟩ => rfl)]
  rfl
/-! ## From the blocks to the array

Point t of the 80 works on edges 10000 t … 10000 t + 9999: the two state windows and the output window hold those rows,
the weight and bias windows their whole arrays. -/

variable (V : (c : Dev nD) → (b : Ref sig .tc) → Buf (Elt Ideal) ((c : Thread nD τ).loc b))

private theorem hz : (![0, 0] : Fin 2 → Nat) = fun _ => 0 := funext fun a => by fin_cases a <;> rfl

/-- The block indices at point t, decided over the 80 points: the row-blocked windows are at block (t, 0), the others
    at block (0, 0). -/
private theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of point t's block is row 10000 t + p of the array. -/
private def rowOf (t : Fin cfg4.N) (p : Fin 10000) : Fin 800000 :=
  ⟨10000 * t.val + p.val, by have := t.isLt; have : cfg4.N = 80 := N_4; have := p.isLt; omega⟩

/-- The source states' block at point t: rows 10000 t … of the array. -/
private theorem blk0_eq (c : Dev nD) (t : Fin cfg4.N) :
    (iblk4 V c 0 t : Vec Ideal S10000x128 .f32)
      = fun y => (V c (Pipeline.arrRef spec4 0) : Cert.Spec.A2 800000 128) (ix2 (rowOf t (y 0)) (y 1)) := by
  obtain ⟨e0, e1, -⟩ := idx_facts t
  funext y
  unfold iblk4
  rw [View.read_apply]
  show V c (Pipeline.arrRef spec4 0) (((cfg4.win 0).blk t).view.emb y) = V c (Pipeline.arrRef spec4 0) (ix2 (rowOf t (y 0)) (y 1))
  refine congrArg _ (funext fun a => Fin.ext ?_)
  match a with
  | ⟨0, _⟩ => show win4_0.index t (0 : Fin 2) * 10000 + 1 * (y 0).val = 10000 * t.val + (y 0).val; rw [e0]; omega
  | ⟨1, _⟩ => show win4_0.index t (1 : Fin 2) * 128 + 1 * (y 1).val = (y 1).val; rw [e1]; omega

/-- The destination states' block at point t: the same rows of their array. -/
private theorem blk1_eq (c : Dev nD) (t : Fin cfg4.N) :
    (iblk4 V c 1 t : Vec Ideal S10000x128 .f32)
      = fun y => (V c (Pipeline.arrRef spec4 1) : Cert.Spec.A2 800000 128) (ix2 (rowOf t (y 0)) (y 1)) := by
  obtain ⟨-, -, e0, e1, -⟩ := idx_facts t
  funext y
  unfold iblk4
  rw [View.read_apply]
  show V c (Pipeline.arrRef spec4 1) (((cfg4.win 1).blk t).view.emb y) = V c (Pipeline.arrRef spec4 1) (ix2 (rowOf t (y 0)) (y 1))
  refine congrArg _ (funext fun a => Fin.ext ?_)
  match a with
  | ⟨0, _⟩ => show win4_1.index t (0 : Fin 2) * 10000 + 1 * (y 0).val = 10000 * t.val + (y 0).val; rw [e0]; omega
  | ⟨1, _⟩ => show win4_1.index t (1 : Fin 2) * 128 + 1 * (y 1).val = (y 1).val; rw [e1]; omega

/-- The top weight's block at every point is the whole weight. -/
private theorem blk2_eq (c : Dev nD) (t : Fin cfg4.N) :
    (iblk4 V c 2 t : Vec Ideal S128x32 .f32) = (V c (Pipeline.arrRef spec4 2) : Cert.Spec.A2 128 32) := by
  have e := idx_facts t
  funext y
  unfold iblk4
  rw [View.read_apply]
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 128 + 1 * (y 0).val = (y 0).val; rw [e.2.2.2.2.1]; omega
  | ⟨1, _⟩ => show win4_2.index t (1 : Fin 2) * 32 + 1 * (y 1).val = (y 1).val; rw [e.2.2.2.2.2.1]; omega

/-- The bottom weight's block at every point is the whole weight. -/
private theorem blk3_eq (c : Dev nD) (t : Fin cfg4.N) :
    (iblk4 V c 3 t : Vec Ideal S128x32 .f32) = (V c (Pipeline.arrRef spec4 3) : Cert.Spec.A2 128 32) := by
  have e := idx_facts t
  funext y
  unfold iblk4
  rw [View.read_apply]
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 128 + 1 * (y 0).val = (y 0).val; rw [e.2.2.2.2.2.2.1]; omega
  | ⟨1, _⟩ => show win4_3.index t (1 : Fin 2) * 32 + 1 * (y 1).val = (y 1).val; rw [e.2.2.2.2.2.2.2.1]; omega

/-- The first bias row's block at every point is the whole row. -/
private theorem blk4_eq (c : Dev nD) (t : Fin cfg4.N) :
    (iblk4 V c 4 t : Vec Ideal S1x32 .f32) = (V c (Pipeline.arrRef spec4 4) : Cert.Spec.A2 1 32) := by
  have e := idx_facts t
  funext y
  unfold iblk4
  rw [View.read_apply]
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; rw [e.2.2.2.2.2.2.2.2.1]; omega
  | ⟨1, _⟩ => show win4_4.index t (1 : Fin 2) * 32 + 1 * (y 1).val = (y 1).val; rw [e.2.2.2.2.2.2.2.2.2.1]; omega

/-- The second weight's block at every point is the whole weight. -/
private theorem blk5_eq (c : Dev nD) (t : Fin cfg4.N) :
    (iblk4 V c 5 t : Vec Ideal S32x1 .f32) = (V c (Pipeline.arrRef spec4 5) : Cert.Spec.A2 32 1) := by
  have e := idx_facts t
  funext y
  unfold iblk4
  rw [View.read_apply]
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 32 + 1 * (y 0).val = (y 0).val; rw [e.2.2.2.2.2.2.2.2.2.2.1]; omega
  | ⟨1, _⟩ => show win4_5.index t (1 : Fin 2) * 1 + 1 * (y 1).val = (y 1).val; rw [e.2.2.2.2.2.2.2.2.2.2.2.1]; omega

/-- The second bias's block at every point is the whole array. -/
private theorem blk6_eq (c : Dev nD) (t : Fin cfg4.N) :
    (iblk4 V c 6 t : Vec Ideal S1x1 .f32) = (V c (Pipeline.arrRef spec4 6) : Cert.Spec.A2 1 1) := by
  have e := idx_facts t
  funext y
  unfold iblk4
  rw [View.read_apply]
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 2) * 1 + 1 * (y 0).val = (y 0).val; rw [e.2.2.2.2.2.2.2.2.2.2.2.2.1]; omega
  | ⟨1, _⟩ => show win4_6.index t (1 : Fin 2) * 1 + 1 * (y 1).val = (y 1).val; rw [e.2.2.2.2.2.2.2.2.2.2.2.2.2.1]; omega

/-- The attention region's function at an index whose row is r: the same expression the body computes at that row. -/
private theorem reg1_at (Ss Sd : Cert.Spec.A2 800000 128) (Wt Wb : Cert.Spec.A2 128 32) (b1 : Cert.Spec.A2 1 32)
    (W2 : Cert.Spec.A2 32 1) (b2 : Cert.Spec.A2 1 1) (r : Fin 800000) (q : Fin 1) :
    Cert.Spec.reg1 Ss Sd Wt Wb b1 W2 b2 (ix2 r q)
      = Ideal.exp (Cert.Spec.clip ((∑ j : Fin 32, Cert.Spec.leaky ((∑ k : Fin 128, Ss (ix2 r k) * Wt (ix2 k j))
          + (∑ k : Fin 128, Sd (ix2 r k) * Wb (ix2 k j)) + b1 (ix2 (0 : Fin 1) j)) * W2 (ix2 j q)) + b2 (ix2 (0 : Fin 1) q))) :=
  rfl

/-- The body's result at row p of a block whose two state blocks hold rows r of their arrays (the weights and biases
    whole) is the attention region's function at row r. -/
private theorem val_of_blocks (x0 x1 : Vec Ideal S10000x128 .f32) (x2 x3 : Vec Ideal S128x32 .f32) (x4 : Vec Ideal S1x32 .f32)
    (x5 : Vec Ideal S32x1 .f32) (x6 : Vec Ideal S1x1 .f32)
    (Ss Sd : Cert.Spec.A2 800000 128) (Wt Wb : Cert.Spec.A2 128 32) (b1 : Cert.Spec.A2 1 32)
    (W2 : Cert.Spec.A2 32 1) (b2 : Cert.Spec.A2 1 1) (p : Fin 10000) (q : Fin 1) (r : Fin 800000)
    (h0 : ∀ k : Fin 128, x0 (ix2 p k) = Ss (ix2 r k)) (h1 : ∀ k : Fin 128, x1 (ix2 p k) = Sd (ix2 r k))
    (h2 : x2 = Wt) (h3 : x3 = Wb) (h4 : x4 = b1) (h5 : x5 = W2) (h6 : x6 = b2) :
    k4_pay1 x0 x2 x1 x3 x4 x5 x6 (ix2 p q) = Cert.Spec.reg1 Ss Sd Wt Wb b1 W2 b2 (ix2 r q) := by
  subst h2 h3 h4 h5 h6
  rw [pay_apply, reg1_at]
  simp only [h0, h1]

/-- A block of the output window written back whole: if the staging buffer holds, at row p, the array function's value
    at row 10000 t + p, what point t writes back is block t of that function. -/
private theorem flushed_of (t : Fin cfg4.N) (G : Cert.Spec.A2 800000 1) (X : Vec Ideal S10000x1 .f32)
    (h : ∀ (p : Fin 10000) (q : Fin 1), X (ix2 p q) = G (ix2 (rowOf t p) q)) :
    (cfg4.win 7).cut (grid4.coords t) X = ((cfg4.win 7).blk t).view.read (Elt Ideal) G := by
  obtain ⟨-, -, -, -, -, -, -, -, -, -, -, -, -, -, e0, e1⟩ := idx_facts t
  funext y
  obtain ⟨p, q, rfl⟩ : ∃ (p : Fin 10000) (q : Fin 1), y = ix2 p q := ⟨y 0, y 1, eq_ix2 y⟩
  rw [View.read_apply]
  show X (ix2 p q) = G (((cfg4.win 7).blk t).view.emb (ix2 p q))
  rw [h p q]
  refine congrArg G (funext fun a => Fin.ext ?_)
  match a with
  | ⟨0, _⟩ => show 10000 * t.val + p.val = win4_7.index t (0 : Fin 2) * 10000 + 1 * p.val; rw [e0]; omega
  | ⟨1, _⟩ => show q.val = win4_7.index t (1 : Fin 2) * 1 + 1 * q.val; rw [e1]; omega

/-- What point t writes back is block t of the attention region's function of the arrays the region found. -/
private theorem flushed_eq (c : Dev nD) (t : Fin cfg4.N) :
    (dat4 V c).flushed 7 t = ((cfg4.win 7).blk t).view.read (Elt Ideal)
      (Cert.Spec.reg1 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7 V c t]
  unfold out4_7
  rw [View.canon_unit_zero hz]
  simp only [View.ld_unit_zero (S := S10000x128) hz, View.ld_unit_zero (S := S128x32) hz, View.ld_unit_zero (S := S1x32) hz,
    View.ld_unit_zero (S := S32x1) hz, View.ld_unit_zero (S := S1x1) hz]
  exact flushed_of t (Cert.Spec.reg1 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)))
    (k4_pay1 (iblk4 V c 0 t) (iblk4 V c 2 t) (iblk4 V c 1 t) (iblk4 V c 3 t) (iblk4 V c 4 t) (iblk4 V c 5 t) (iblk4 V c 6 t))
    (fun p q => val_of_blocks (iblk4 V c 0 t) (iblk4 V c 1 t) (iblk4 V c 2 t) (iblk4 V c 3 t) (iblk4 V c 4 t) (iblk4 V c 5 t)
      (iblk4 V c 6 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) p q (rowOf t p)
      (fun k => congrFun (blk0_eq V c t) (ix2 p k)) (fun k => congrFun (blk1_eq V c t) (ix2 p k))
      (blk2_eq V c t) (blk3_eq V c t) (blk4_eq V c t) (blk5_eq V c t) (blk6_eq V c t))

/-- An index of the array is in point t's block iff each coordinate is in the block's range on its axis. -/
private theorem mem_blk (t : Fin cfg4.N) (i : S800000x1.Idx) :
    i ∈ ((cfg4.win 7).blk t).view.set ↔ ∀ a : Fin 2, win4_7.index t a * S10000x1.size a ≤ (i a).val
      ∧ (i a).val < win4_7.index t a * S10000x1.size a + S10000x1.size a := by
  show i ∈ ((View.whole main_v43).slice (win4_7.rect t)).set ↔ _
  rw [View.set_slice_whole, Rect.mem_set_unit]
  exact Iff.rfl

/-- Every edge is in some point's block: edge e in that of point e / 10000. -/
private theorem cover (i : S800000x1.Idx) :
    ∃ t : Fin cfg4.N, (cfg4.win 7).flush t = true ∧ i ∈ ((cfg4.win 7).blk t).view.set := by
  have hi0 : (i 0).val < 800000 := (i 0).isLt
  have hi1 : (i 1).val < 1 := (i 1).isLt
  have hN : cfg4.N = 80 := N_4
  obtain ⟨t, ht⟩ : ∃ t : Fin cfg4.N, t.val = (i 0).val / 10000 := ⟨⟨(i 0).val / 10000, by rw [hN]; omega⟩, rfl⟩
  obtain ⟨-, -, -, -, -, -, -, -, -, -, -, -, -, -, e0, e1⟩ := idx_facts t
  refine ⟨t, flush4_7 t, ?_⟩
  rw [mem_blk]
  intro a
  match a with
  | ⟨0, _⟩ =>
    show win4_7.index t (0 : Fin 2) * 10000 ≤ (i 0).val ∧ (i 0).val < win4_7.index t (0 : Fin 2) * 10000 + 10000
    rw [e0, ht]; omega
  | ⟨1, _⟩ =>
    show win4_7.index t (1 : Fin 2) * 1 ≤ (i 1).val ∧ (i 1).val < win4_7.index t (1 : Fin 2) * 1 + 1
    rw [e1]; omega

/-- The second attention region. After the region's last grid point its output array is this function of the arrays the region found. -/
theorem final4 (c : Dev nD) :
    (dat4 (F := Ideal) V c).arrAt 7 cfg4.N = Cert.Spec.reg1 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 V c).arrAt_eq_of_cover 7 _ (fun t _ => flushed_eq V c t) cover

end Cert.KernelIdeal.Val

end
-- ==== Proof.Reg5.lean ====
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueIdx

/-
  The second scaling region. Its grid has 80 points; at point t every window's block is rows
  [10000 t, 10000 t + 10000) of its array, all of its columns: 128 columns of the gathered rows and of the output,
  the 2 columns of the per-edge pair (column 0 the exponential, column 1 the normaliser). The body reads the two
  columns of the pair's block as two one-column vectors, divides the first by the second plus ε, spreads the
  quotient along the 128 columns and multiplies the block of gathered rows by it, entry by entry. So what point t
  writes back is rows [10000 t, 10000 t + 10000) of the array whose entry (r, q) is
  rows (r, q) · pair (r, 0) / (pair (r, 1) + ε). Row r lies in the block of point r / 10000, so the eighty
  blocks fill the array.
-/

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The gathered rows and the per-edge pair as the region finds them, as arrays of extended reals. -/
private abbrev rows5 (c : Dev nD) : Cert.Spec.A2 800000 128 := V c (Pipeline.arrRef spec5 0)
private abbrev pair5 (c : Dev nD) : Cert.Spec.A2 800000 2 := V c (Pipeline.arrRef spec5 1)

/-- The load of the rows' block and the store start at row 0, column 0 of the staging block. -/
private theorem origin5 : (![0, 0] : Fin 2 → Nat) = fun _ => 0 :=
  funext fun a => match a with | ⟨0, _⟩ => rfl | ⟨1, _⟩ => rfl

/-- The body's arithmetic at entry (p, q) of the block, from its three loaded vectors: the rows' entry times the
    quotient of the two one-column vectors' entries in row p, the second with ε added. -/
private theorem scaled_apply (v0 v2 : Vec Ideal S10000x1 .f32) (v7 : Vec Ideal S10000x128 .f32) (p : Fin 10000) (q : Fin 128) :
    k5_pay1 (F := Ideal) v0 v2 v7 (ix2 p q)
      = v7 (ix2 p q) * Ideal.div (v0 (ix2 p (0 : Fin 1))) (v2 (ix2 p (0 : Fin 1)) + Cert.Spec.eps) := by
  unfold k5_pay1
  show shapeCast S10000x128 v7 shapeCasts_S10000x128_S10000x128 (ix2 p q)
      * broadcastTo S10000x128 (divf (shapeCast S10000x1 v0 shapeCasts_S10000x1_S10000x1)
          (addf (shapeCast S10000x1 v2 shapeCasts_S10000x1_S10000x1)
            (broadcast S10000x1 (Scalar.ofBits (F := Ideal) .f32 0x3089705F#32))))
        broadcasts_S10000x1_S10000x128 (ix2 p q) = _
  rw [broadcastTo_apply _ broadcasts_S10000x1_S10000x128 (ix2 p q) (ix2 p (0 : Fin 1)) (fun a => by
    match a with
    | ⟨0, _⟩ => rfl
    | ⟨1, _⟩ => rfl)]
  simp only [shapeCast_self]
  rfl

/-- The same over the two staged blocks: the one-column vectors are columns 0 and 1 of the pair's block. -/
private theorem scaledBlock_apply (x0 : Vec Ideal S10000x128 .f32) (x1 : Vec Ideal S10000x2 .f32) (p : Fin 10000) (q : Fin 128) :
    k5_pay1 (F := Ideal) (View.ld x1 r5_0) (View.ld x1 r5_1) x0 (ix2 p q)
      = x0 (ix2 p q) * Ideal.div (x1 (ix2 p (0 : Fin 2))) (x1 (ix2 p (1 : Fin 2)) + Cert.Spec.eps) := by
  rw [scaled_apply]
  have c0 : r5_0.idx (ix2 p (0 : Fin 1)) = ix2 p (0 : Fin 2) := by
    funext a; apply Fin.ext
    match a with
    | ⟨0, _⟩ => show 0 + 1 * p.val = p.val; omega
    | ⟨1, _⟩ => rfl
  have c1 : r5_1.idx (ix2 p (0 : Fin 1)) = ix2 p (1 : Fin 2) := by
    funext a; apply Fin.ext
    match a with
    | ⟨0, _⟩ => show 0 + 1 * p.val = p.val; omega
    | ⟨1, _⟩ => rfl
  show x0 (ix2 p q) * Ideal.div (x1 (r5_0.idx (ix2 p (0 : Fin 1)))) (x1 (r5_1.idx (ix2 p (0 : Fin 1))) + Cert.Spec.eps) = _
  rw [c0, c1]

/-- At point t the three windows sit at the same block: block row t, block column 0; and t is below 80. -/
private theorem blockAt5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 ∧ t.val < 80 :=
  (by decide +kernel : ∀ t : Fin grid5.N, _)

/-- What point t writes back is rows [10000 t, 10000 t + 10000) of the scaled rows. -/
private theorem writeBack5 (c : Dev nD) (t : Fin cfg5.N) :
    (dat5 (F := Ideal) V c).flushed 2 t = ((cfg5.win 2).blk t).view.read (Elt Ideal)
      (Cert.Spec.reg2 (V c (Pipeline.arrRef spec5 0)) (V c (Pipeline.arrRef spec5 1))) := by
  show (cfg5.win 2).cut (grid5.coords t) ((dat5 (F := Ideal) V c).after 2 t) = _
  rw [after5_2 V c t]
  unfold out5_2
  rw [View.canon_unit_zero origin5]
  simp only [View.ld_unit_zero (S := S10000x128) origin5]
  obtain ⟨a0, a1, b0, b1, o0, o1, ht⟩ := blockAt5 t
  refine funext fun (j : S10000x128.Idx) => ?_
  obtain ⟨p, q, rfl⟩ : ∃ (p : Fin 10000) (q : Fin 128), j = ix2 p q := ⟨j 0, j 1, eq_ix2 j⟩
  refine (scaledBlock_apply (iblk5 V c 0 t) (iblk5 V c 1 t) p q).trans ?_
  have hp : p.val < 10000 := p.isLt
  -- the row of the array that row p of point t's block is
  obtain ⟨r, hr⟩ : ∃ r : Fin 800000, r.val = t.val * 10000 + p.val := ⟨⟨t.val * 10000 + p.val, by omega⟩, rfl⟩
  have e0 : ((cfg5.win 0).blk t).view.emb (ix2 p q) = (ix2 r q : (Cert.Spec.Sh2 800000 128).Idx) := by
    funext a; apply Fin.ext
    match a with
    | ⟨0, _⟩ => show win5_0.index t (0 : Fin 2) * 10000 + 1 * p.val = r.val; omega
    | ⟨1, _⟩ => show win5_0.index t (1 : Fin 2) * 128 + 1 * q.val = q.val; omega
  have e2 : ((cfg5.win 2).blk t).view.emb (ix2 p q) = (ix2 r q : (Cert.Spec.Sh2 800000 128).Idx) := by
    funext a; apply Fin.ext
    match a with
    | ⟨0, _⟩ => show win5_2.index t (0 : Fin 2) * 10000 + 1 * p.val = r.val; omega
    | ⟨1, _⟩ => show win5_2.index t (1 : Fin 2) * 128 + 1 * q.val = q.val; omega
  have e1 : ∀ k : Fin 2, ((cfg5.win 1).blk t).view.emb (ix2 p k) = (ix2 r k : (Cert.Spec.Sh2 800000 2).Idx) := by
    intro k
    funext a; apply Fin.ext
    match a with
    | ⟨0, _⟩ => show win5_1.index t (0 : Fin 2) * 10000 + 1 * p.val = r.val; omega
    | ⟨1, _⟩ => show win5_1.index t (1 : Fin 2) * 2 + 1 * k.val = k.val; omega
  show rows5 V c (((cfg5.win 0).blk t).view.emb (ix2 p q))
      * Ideal.div (pair5 V c (((cfg5.win 1).blk t).view.emb (ix2 p (0 : Fin 2))))
          (pair5 V c (((cfg5.win 1).blk t).view.emb (ix2 p (1 : Fin 2))) + Cert.Spec.eps)
    = Cert.Spec.reg2 (rows5 V c) (pair5 V c) (((cfg5.win 2).blk t).view.emb (ix2 p q))
  rw [e0, e1 0, e1 1, e2]
  rfl

/-- An entry of the array lies in point t's block iff each coordinate lies in the block's range on its axis. -/
private theorem inBlock5 (t : Fin cfg5.N) (i : S800000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v51).slice (win5_2.rect t)).set ↔ _
  rw [View.set_slice_whole, Rect.mem_set_unit]
  exact Iff.rfl

/-- Row r lies in the block of point r / 10000: the eighty blocks fill the array. -/
private theorem filled5 (i : S800000x128.Idx) :
    ∃ t : Fin cfg5.N, (cfg5.win 2).flush t = true ∧ i ∈ ((cfg5.win 2).blk t).view.set := by
  have hr : (i 0).val < 800000 := (i 0).isLt
  have hc : (i 1).val < 128 := (i 1).isLt
  have hN : cfg5.N = 80 := N_5
  let t : Fin cfg5.N := ⟨(i 0).val / 10000, by rw [hN]; omega⟩
  obtain ⟨-, -, -, -, o0, o1, -⟩ := blockAt5 t
  have ht : t.val = (i 0).val / 10000 := rfl
  refine ⟨t, flush5_2 t, ?_⟩
  rw [inBlock5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The second scaling region. After the region's last grid point its output array is this function of the arrays the region found. -/
theorem final5 (c : Dev nD) :
    (dat5 (F := Ideal) V c).arrAt 2 cfg5.N = Cert.Spec.reg2 (V c (Pipeline.arrRef spec5 0)) (V c (Pipeline.arrRef spec5 1)) :=
  (dat5 (F := Ideal) V c).arrAt_eq_of_cover 2 _ (fun t _ => writeBack5 V c t) filled5

end Cert.KernelIdeal.Val

end
-- ==== Proof.Reg6.lean ====
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueIdx

/-
  The plain update region. Its grid has 10 points; at point t every window's block is rows
  [5000 t, 5000 t + 5000) of its [50000, 128] array, all 128 columns. The body adds the block of the node
  states to the block of the aggregated messages and takes tanh, entry by entry, so what point t writes back
  is rows [5000 t, 5000 t + 5000) of tanh (S + agg). Row r lies in the block of point r / 5000, so the ten
  blocks fill the array and it ends holding tanh (S + agg).
-/

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The node states and the aggregated messages as the region finds them, as arrays of extended reals. -/
private abbrev states6 (c : Dev nD) : Cert.Spec.A2 50000 128 := V c (Pipeline.arrRef spec6 0)
private abbrev sums6 (c : Dev nD) : Cert.Spec.A2 50000 128 := V c (Pipeline.arrRef spec6 1)

/-- The body's loads and its store start at row 0, column 0 of the staging block. -/
private theorem origin6 : (![0, 0] : Fin 2 → Nat) = fun _ => 0 :=
  funext fun a => match a with | ⟨0, _⟩ => rfl | ⟨1, _⟩ => rfl

/-- The body's arithmetic at an entry of the block: tanh of the sum of the two loaded entries. -/
private theorem tanhSum_apply (x0 x1 : Vec Ideal S5000x128 .f32) (j : S5000x128.Idx) :
    k6_pay1 (F := Ideal) x0 x1 j = Ideal.tanh (x0 j + x1 j) := by
  unfold k6_pay1
  show Ideal.tanh (shapeCast S5000x128 x0 shapeCasts_S5000x128_S5000x128 j
    + shapeCast S5000x128 x1 shapeCasts_S5000x128_S5000x128 j) = _
  rw [shapeCast_self, shapeCast_self]

/-- At point t the three windows sit at the same block: block row t, block column 0; and t is below 10. -/
private theorem blockAt6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 ∧ t.val < 10 :=
  (by decide +kernel : ∀ t : Fin grid6.N, _)

/-- What point t writes back is rows [5000 t, 5000 t + 5000) of tanh (S + agg). -/
private theorem writeBack6 (c : Dev nD) (t : Fin cfg6.N) :
    (dat6 (F := Ideal) V c).flushed 2 t = ((cfg6.win 2).blk t).view.read (Elt Ideal)
      (Cert.Spec.upd (V c (Pipeline.arrRef spec6 0)) (V c (Pipeline.arrRef spec6 1))) := by
  show (cfg6.win 2).cut (grid6.coords t) ((dat6 (F := Ideal) V c).after 2 t) = _
  rw [after6_2 V c t]
  unfold out6_2
  rw [View.canon_unit_zero origin6]
  simp only [View.ld_unit_zero (S := S5000x128) origin6]
  obtain ⟨a0, a1, b0, b1, o0, o1, -⟩ := blockAt6 t
  funext j
  refine (tanhSum_apply (iblk6 V c 0 t) (iblk6 V c 1 t) j).trans ?_
  show Ideal.tanh (states6 V c (((cfg6.win 0).blk t).view.emb j) + sums6 V c (((cfg6.win 1).blk t).view.emb j))
    = Ideal.tanh (states6 V c (((cfg6.win 2).blk t).view.emb j) + sums6 V c (((cfg6.win 2).blk t).view.emb j))
  have e0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * (j 1).val = win6_2.index t (1 : Fin 2) * 128 + 1 * (j 1).val; omega
  have e1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 128 + 1 * (j 1).val = win6_2.index t (1 : Fin 2) * 128 + 1 * (j 1).val; omega
  rw [e0, e1]

/-- An entry of the array lies in point t's block iff each coordinate lies in the block's range on its axis. -/
private theorem inBlock6 (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v59).slice (win6_2.rect t)).set ↔ _
  rw [View.set_slice_whole, Rect.mem_set_unit]
  exact Iff.rfl

/-- Row r lies in the block of point r / 5000: the ten blocks fill the array. -/
private theorem filled6 (i : S50000x128.Idx) :
    ∃ t : Fin cfg6.N, (cfg6.win 2).flush t = true ∧ i ∈ ((cfg6.win 2).blk t).view.set := by
  have hr : (i 0).val < 50000 := (i 0).isLt
  have hc : (i 1).val < 128 := (i 1).isLt
  have hN : cfg6.N = 10 := N_6
  let t : Fin cfg6.N := ⟨(i 0).val / 5000, by rw [hN]; omega⟩
  obtain ⟨-, -, -, -, o0, o1, -⟩ := blockAt6 t
  have ht : t.val = (i 0).val / 5000 := rfl
  refine ⟨t, flush6_2 t, ?_⟩
  rw [inBlock6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The plain update region: the new node states. After the region's last grid point its output array is this function of the arrays the region found. -/
theorem final6 (c : Dev nD) :
    (dat6 (F := Ideal) V c).arrAt 2 cfg6.N = Cert.Spec.upd (V c (Pipeline.arrRef spec6 0)) (V c (Pipeline.arrRef spec6 1)) :=
  (dat6 (F := Ideal) V c).arrAt_eq_of_cover 2 _ (fun t _ => writeBack6 V c t) filled6

end Cert.KernelIdeal.Val

end
-- ==== Proof.Reg7.lean ====
import proofs.«415169_j41790031790248_2_alg».proof.Proof.Gen.KernelIdeal.Frame
import proofs.«415169_j41790031790248_2_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The contraction of the 128-deep product, coordinate by coordinate -/

/-- Row of the left operand: the output's row. -/
private theorem mm7_lhs_0 (j : S5000x128.Idx) (k : dot_S5000x128_S128x128_S5000x128_1_0_0_1_n_n.contr.Idx) :
    (dot_S5000x128_S128x128_S5000x128_1_0_0_1_n_n.lhsIdx j k 0 : ℕ) = j 0 := by
  simp [DotDims.lhsIdx, dot_S5000x128_S128x128_S5000x128_1_0_0_1_n_n]; rfl
/-- Column of the left operand: the contraction position. -/
private theorem mm7_lhs_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ := by
  simp [DotDims.lhsIdx, dot_S5000x128_S128x128_S5000x128_1_0_0_1_n_n]; rfl
/-- Row of the right operand: the contraction position. -/
private theorem mm7_rhs_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ := by
  simp [DotDims.rhsIdx, dot_S5000x128_S128x128_S5000x128_1_0_0_1_n_n]; rfl
/-- Column of the right operand: the output's column. -/
private theorem mm7_rhs_1 (j : S5000x128.Idx) (k : dot_S5000x128_S128x128_S5000x128_1_0_0_1_n_n.contr.Idx) :
    (dot_S5000x128_S128x128_S5000x128_1_0_0_1_n_n.rhsIdx j k 1 : ℕ) = j 1 := by
  simp [DotDims.rhsIdx, dot_S5000x128_S128x128_S5000x128_1_0_0_1_n_n]; rfl

/-- The contraction positions are `Fin 128`. -/
private abbrev ce7 : dot_S5000x128_S128x128_S5000x128_1_0_0_1_n_n.contr.Idx ≃ Fin 128 :=
  contrEquiv1 dot_S5000x128_S128x128_S5000x128_1_0_0_1_n_n 128 rfl rfl

/-- The left operand's index at output (p, q) and contraction position i is (p, i). -/
private theorem mm7_lhs (p : Fin 5000) (q : Fin 128) (i : Fin 128) :
    dot_S5000x128_S128x128_S5000x128_1_0_0_1_n_n.lhsIdx (ix2 p q) (ce7.symm i) = ix2 p i := by
  funext a; apply Fin.ext
  match a with
  | ⟨0, _⟩ => exact mm7_lhs_0 _ _
  | ⟨1, _⟩ => exact (mm7_lhs_1 _ _).trans (contrEquiv1_symm_val _ 128 rfl rfl i)
/-- The right operand's index there is (i, q). -/
private theorem mm7_rhs (p : Fin 5000) (q : Fin 128) (i : Fin 128) :
    dot_S5000x128_S128x128_S5000x128_1_0_0_1_n_n.rhsIdx (ix2 p q) (ce7.symm i) = ix2 i q := by
  funext a; apply Fin.ext
  match a with
  | ⟨0, _⟩ => exact (mm7_rhs_0 _ _).trans (contrEquiv1_symm_val _ 128 rfl rfl i)
  | ⟨1, _⟩ => exact mm7_rhs_1 _ _

/-- The body's payload at row p and column q: the row of the left block against the column of the weights, plus the bias. -/
private theorem pay7_apply (x0 : FVec Ideal S5000x128 .f32) (x1 : FVec Ideal S128x128 .f32) (x2 : FVec Ideal S1x128 .f32)
    (p : Fin 5000) (q : Fin 128) :
    k7_pay1 (F := Ideal) x0 x1 x2 (ix2 p q) = (∑ k : Fin 128, x0 (ix2 p k) * x1 (ix2 k q)) + x2 (ix2 (0 : Fin 1) q) := by
  unfold k7_pay1
  refine (addf_apply _ _ _).trans ?_
  refine congrArg₂ (· + ·) ?_ ?_
  · refine (Ideal.matmul_constant_zero_apply dot_S5000x128_S128x128_S5000x128_1_0_0_1_n_n none _ x1 (ix2 p q)).trans ?_
    rw [shapeCast_self]
    refine (Equiv.sum_comp ce7.symm _).symm.trans ?_
    exact Finset.sum_congr rfl fun i _ => by rw [mm7_lhs, mm7_rhs]
  · rw [shapeCast_self]
    exact broadcastTo_1b_ab_apply x2 broadcasts_S1x128_S5000x128 p q

/-! ## From the blocks to the array -/

private theorem hz7 : (![0, 0] : Fin 2 → Nat) = fun _ => 0 := funext fun a => by fin_cases a <;> rfl

/-- The payload of blocks that are the rows [r, r + 5000) of S, the whole of W and the whole of b is the linear layer at those rows. -/
private theorem pay7_blk (x0 : FVec Ideal S5000x128 .f32) (x1 : FVec Ideal S128x128 .f32) (x2 : FVec Ideal S1x128 .f32)
    (A0 : Cert.Spec.A2 50000 128) (A1 : Cert.Spec.A2 128 128) (A2 : Cert.Spec.A2 1 128)
    (i : S50000x128.Idx) (j : S5000x128.Idx)
    (h0 : ∀ k : Fin 128, x0 (ix2 (j 0) k) = A0 (ix2 (i 0) k))
    (h1 : ∀ k : Fin 128, x1 (ix2 k (j 1)) = A1 (ix2 k (i 1)))
    (h2 : x2 (ix2 (0 : Fin 1) (j 1)) = A2 (ix2 (0 : Fin 1) (i 1))) :
    k7_pay1 (F := Ideal) x0 x1 x2 j = Cert.Spec.linB A0 A1 A2 i := by
  obtain ⟨p, q, rfl⟩ : ∃ (p : Fin 5000) (q : Fin 128), j = ix2 p q := ⟨j 0, j 1, eq_ix2 j⟩
  refine (pay7_apply x0 x1 x2 p q).trans ?_
  unfold Cert.Spec.linB
  exact congrArg₂ (· + ·) (Finset.sum_congr rfl fun k _ => congrArg₂ (· * ·) (h0 k) (h1 k)) h2

variable (V : (c : Dev nD) → (b : Ref sig .tc) → Buf (Elt Ideal) ((c : Thread nD τ).loc b))

/-- The printed index maps, decided over the grid: the row-blocked windows sit at block t, the weights and the bias at block 0. -/
private theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the linear layer of the arrays the region found. -/
private theorem flushed7 (c : Dev nD) (t : Fin cfg7.N) :
    (dat7 (F := Ideal) V c).flushed 3 t = ((cfg7.win 3).blk t).view.read (Elt Ideal)
      (Cert.Spec.linB (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S5000x128) hz7, View.ld_unit_zero (S := S128x128) hz7, View.ld_unit_zero (S := S1x128) hz7]
  funext j
  obtain ⟨e0, e1, e2, e3, e4, e5, e6, e7⟩ := idx_facts7 t
  show k7_pay1 (F := Ideal) (iblk7 V c 0 t) (iblk7 V c 1 t) (iblk7 V c 2 t) j
    = Cert.Spec.linB (V c (Pipeline.arrRef spec7 0)) (V c (Pipeline.arrRef spec7 1)) (V c (Pipeline.arrRef spec7 2)) (((cfg7.win 3).blk t).view.emb j)
  refine pay7_blk (iblk7 V c 0 t) (iblk7 V c 1 t) (iblk7 V c 2 t) (V c (Pipeline.arrRef spec7 0)) (V c (Pipeline.arrRef spec7 1)) (V c (Pipeline.arrRef spec7 2)) (((cfg7.win 3).blk t).view.emb j) j ?_ ?_ ?_
  · intro k
    show V c (Pipeline.arrRef spec7 0) (((cfg7.win 0).blk t).view.emb (ix2 (j 0) k)) = _
    refine congrArg (V c (Pipeline.arrRef spec7 0)) ?_
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * k.val = k.val; omega
  · intro k
    show V c (Pipeline.arrRef spec7 1) (((cfg7.win 1).blk t).view.emb (ix2 k (j 1))) = _
    refine congrArg (V c (Pipeline.arrRef spec7 1)) ?_
    funext a; apply Fin.ext
    match a with
    | ⟨0, _⟩ => show win7_1.index t (0 : Fin 2) * 128 + 1 * k.val = k.val; omega
    | ⟨1, _⟩ => show win7_1.index t (1 : Fin 2) * 128 + 1 * (j 1).val = win7_3.index t (1 : Fin 2) * 128 + 1 * (j 1).val; omega
  · show V c (Pipeline.arrRef spec7 2) (((cfg7.win 2).blk t).view.emb (ix2 (0 : Fin 1) (j 1))) = _
    refine congrArg (V c (Pipeline.arrRef spec7 2)) ?_
    funext a; apply Fin.ext
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega

/-- An index of the array is in point t's block iff each coordinate is in the block's range on its axis. -/
private theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v61).slice (win7_3.rect t)).set ↔ _
  rw [View.set_slice_whole, Rect.mem_set_unit]
  exact Iff.rfl

/-- Row r lies in the block of point r / 5000: the ten blocks of 5000 rows fill the 50000 rows. -/
private theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by omega⟩, rfl⟩
  obtain ⟨-, -, -, -, -, -, e6, e7⟩ := idx_facts7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The output layer's region. After the region's last grid point its output array is this function of the arrays the region found. -/
theorem final7 (c : Dev nD) :
    (dat7 (F := Ideal) V c).arrAt 3 cfg7.N = Cert.Spec.linB (V c (Pipeline.arrRef spec7 0)) (V c (Pipeline.arrRef spec7 1)) (V c (Pipeline.arrRef spec7 2)) :=
  (dat7 (F := Ideal) V c).arrAt_eq_of_cover 3 _ (fun t _ => flushed7 V c t) cover7

end Cert.KernelIdeal.Val

end
-- ==== Proof.KGlueB.lean ====
import proofs.«415169_j41790031790248_2_alg».proof.Proof.Gen.KernelIdeal.Frame
import proofs.«415169_j41790031790248_2_alg».proof.Proof.Spec
import proofs.«415169_j41790031790248_2_alg».proof.Proof.KArgs
import proofs.«415169_j41790031790248_2_alg».proof.Proof.KTake
import proofs.«415169_j41790031790248_2_alg».proof.Proof.KStretch
import proofs.«415169_j41790031790248_2_alg».proof.Proof.Reg4
import proofs.«415169_j41790031790248_2_alg».proof.Proof.Reg5
import proofs.«415169_j41790031790248_2_alg».proof.Proof.Reg6
import proofs.«415169_j41790031790248_2_alg».proof.Proof.Reg7
import Idealize.ShloMosaic.Lib.ValueLayout
set_option maxRecDepth 16384

noncomputable section

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## A buffer a stretch does not write keeps its contents

For each stretch of host operations the references it writes are listed once; a reference outside the list reads
the same before and after the stretch. -/

/-- Every operation of the stretch writes inside the given list. -/
local macro "writes_in " ops:ident : tactic =>
  `(tactic| (simp only [$ops:ident, List.Forall, StableHlo.nullary_writes, StableHlo.unary_writes, StableHlo.binary_writes,
      StableHlo.ternary_writes, StableHlo.reshape_writes, Finset.singleton_subset_iff, List.mem_toFinset, List.map_cons,
      List.map_nil, List.mem_cons, true_or, or_true, and_self]))

theorem K14 (c : Dev nD) (b : Ref sig .tc) (hb : b ∉ [main_v33, main_v34]) :
    W14 (F := Ideal) m ρ c (Proc.devRef .tc b) = W13 m ρ c (Proc.devRef .tc b) :=
  StableHlo.after_of_writes_sub hostOps4 _ (by writes_in hostOps4) hb

theorem K15 (c : Dev nD) (b : Ref sig .tc)
    (hb : b ∉ [main_call3_c, main_call3_v0, main_call3_v1, main_call3_c_0, main_call3_v2, main_call3_v3, main_call3_v4,
      main_call3_v5, main_call3_c_1, main_call3_c_2, main_call3_v6, main_call3_v7, main_call3_v8, main_call3_v9,
      main_call3_v10, main_call3_v11, main_call3_c_3, main_call3_v12, main_call3_v13, main_call3_v14, main_call3_cst,
      main_call3_v15, main_v35]) :
    W15 (F := Ideal) m ρ c (Proc.devRef .tc b) = W14 m ρ c (Proc.devRef .tc b) :=
  StableHlo.after_of_writes_sub hostOps4_1 _ (by writes_in hostOps4_1) hb

theorem K16 (c : Dev nD) (b : Ref sig .tc)
    (hb : b ∉ [main_call4_c, main_call4_v0, main_call4_v1, main_call4_c_0, main_call4_v2, main_call4_v3, main_call4_v4,
      main_call4_v5, main_call4_c_1, main_call4_c_2, main_call4_v6, main_call4_v7, main_call4_v8, main_call4_v9,
      main_call4_v10, main_call4_v11, main_call4_c_3, main_call4_v12, main_call4_v13, main_call4_v14, main_call4_cst,
      main_call4_v15, main_v36]) :
    W16 (F := Ideal) m ρ c (Proc.devRef .tc b) = W15 m ρ c (Proc.devRef .tc b) :=
  StableHlo.after_of_writes_sub hostOps4_2 _ (by writes_in hostOps4_2) hb

theorem K17 (c : Dev nD) (b : Ref sig .tc)
    (hb : b ∉ [main_v37, main_v38, main_v39, main_v40, main_v41, main_v42]) :
    W17 (F := Ideal) m ρ c (Proc.devRef .tc b) = W16 m ρ c (Proc.devRef .tc b) :=
  StableHlo.after_of_writes_sub hostOps4_3 _ (by writes_in hostOps4_3) hb

theorem K19 (c : Dev nD) (b : Ref sig .tc)
    (hb : b ∉ [main_v44, main_cst_2, main_v45, main_v46, main_v47]) :
    W19 (F := Ideal) m ρ c (Proc.devRef .tc b) = W18 m ρ c (Proc.devRef .tc b) :=
  StableHlo.after_of_writes_sub hostOps5 _ (by writes_in hostOps5) hb

theorem K20 (c : Dev nD) (b : Ref sig .tc)
    (hb : b ∉ [main_call5_c, main_call5_v0, main_call5_v1, main_call5_c_0, main_call5_v2, main_call5_v3, main_call5_v4,
      main_call5_v5, main_call5_c_1, main_call5_c_2, main_call5_v6, main_call5_v7, main_call5_v8, main_call5_v9,
      main_call5_v10, main_call5_v11, main_call5_c_3, main_call5_v12, main_call5_v13, main_call5_cst, main_call5_v14,
      main_v48]) :
    W20 (F := Ideal) m ρ c (Proc.devRef .tc b) = W19 m ρ c (Proc.devRef .tc b) :=
  StableHlo.after_of_writes_sub hostOps5_1 _ (by writes_in hostOps5_1) hb

theorem K21 (c : Dev nD) (b : Ref sig .tc) (hb : b ∉ [main_v49, main_v50]) :
    W21 (F := Ideal) m ρ c (Proc.devRef .tc b) = W20 m ρ c (Proc.devRef .tc b) :=
  StableHlo.after_of_writes_sub hostOps5_2 _ (by writes_in hostOps5_2) hb

theorem K23 (c : Dev nD) (b : Ref sig .tc)
    (hb : b ∉ [main_v52, main_cst_3, main_v53, main_v54, main_v55, main_cst_4, main_v56, main_v57, main_v58]) :
    W23 (F := Ideal) m ρ c (Proc.devRef .tc b) = W22 m ρ c (Proc.devRef .tc b) :=
  StableHlo.after_of_writes_sub hostOps6 _ (by writes_in hostOps6) hb

theorem K25 (c : Dev nD) (b : Ref sig .tc) (hb : b ∉ [main_v60]) :
    W25 (F := Ideal) m ρ c (Proc.devRef .tc b) = W24 m ρ c (Proc.devRef .tc b) :=
  StableHlo.after_of_writes_sub hostOps7 _ (by writes_in hostOps7) hb

/-- Walks a reference's contents back through the regions and stretches that do not touch it. -/
local macro "keep_back" : tactic =>
  `(tactic| repeat (first
      | (rw [W26_of_ne]; rotate_left; decide)
      | (rw [K25]; rotate_left; decide)
      | (rw [W24_of_ne]; rotate_left; decide)
      | (rw [K23]; rotate_left; decide)
      | (rw [W22_of_ne]; rotate_left; decide)
      | (rw [K21]; rotate_left; decide)
      | (rw [K20]; rotate_left; decide)
      | (rw [K19]; rotate_left; decide)
      | (rw [W18_of_ne]; rotate_left; decide)
      | (rw [K17]; rotate_left; decide)
      | (rw [K16]; rotate_left; decide)
      | (rw [K15]; rotate_left; decide)
      | (rw [K14]; rotate_left; decide)))

/-! ## The host's layout operations, as the specification's functions

Each is read index by index: a slice reads the source at the shifted coordinate, a reshape at the same row-major
position, a broadcast along a new unit axis at the old coordinate. -/

section Layout
open Cert.Spec

/-- The left 128 columns of a 256-column matrix. -/
theorem slice_colsL {n : Nat} (P : A2 n 256) (h : (Sh2 n 256).Slices ![0, 0] (Sh2 n 128)) :
    extractStridedSlice (Sh2 n 128) ![0, 0] P h = colsL P := by
  funext i
  obtain ⟨a, j, rfl⟩ : ∃ (a : Fin n) (j : Fin 128), i = ix2 a j := ⟨i 0, i 1, eq_ix2 i⟩
  exact slice2_axis1_apply 0 P h a j ⟨j.val, by omega⟩ (Nat.zero_add _).symm

/-- The right 128 columns. -/
theorem slice_colsR {n : Nat} (P : A2 n 256) (h : (Sh2 n 256).Slices ![0, 128] (Sh2 n 128)) :
    extractStridedSlice (Sh2 n 128) ![0, 128] P h = colsR P := by
  funext i
  obtain ⟨a, j, rfl⟩ : ∃ (a : Fin n) (j : Fin 128), i = ix2 a j := ⟨i 0, i 1, eq_ix2 i⟩
  exact slice2_axis1_apply 128 P h a j ⟨128 + j.val, by omega⟩ rfl

/-- The top 128 rows of the attention MLP's first weight. -/
theorem slice_rowsT (W : A2 256 32) (h : (Sh2 256 32).Slices ![0, 0] (Sh2 128 32)) :
    extractStridedSlice (Sh2 128 32) ![0, 0] W h = rowsT W := by
  funext i
  obtain ⟨a, j, rfl⟩ : ∃ (a : Fin 128) (j : Fin 32), i = ix2 a j := ⟨i 0, i 1, eq_ix2 i⟩
  exact slice2_axis0_apply 0 W h a j ⟨a.val, by omega⟩ (Nat.zero_add _).symm

/-- The bottom 128 rows. -/
theorem slice_rowsB (W : A2 256 32) (h : (Sh2 256 32).Slices ![128, 0] (Sh2 128 32)) :
    extractStridedSlice (Sh2 128 32) ![128, 0] W h = rowsB W := by
  funext i
  obtain ⟨a, j, rfl⟩ : ∃ (a : Fin 128) (j : Fin 32), i = ix2 a j := ⟨i 0, i 1, eq_ix2 i⟩
  exact slice2_axis0_apply 128 W h a j ⟨128 + a.val, by omega⟩ rfl

/-- A vector reshaped to one row. -/
theorem cast_bRow {n : Nat} (b : A1 n) (h : (Sh1 n).ShapeCasts (Sh2 1 n)) :
    shapeCast (Sh2 1 n) b h = bRow b := by
  funext i
  obtain ⟨u, j, rfl⟩ : ∃ (u : Fin 1) (j : Fin n), i = ix2 u j := ⟨i 0, i 1, eq_ix2 i⟩
  exact shapeCast_a_1a_apply b h u j

/-- One column reshaped to a vector. -/
theorem cast_flat {n : Nat} (x : A2 n 1) (h : (Sh2 n 1).ShapeCasts (Sh1 n)) :
    shapeCast (Sh1 n) x h = flat x := by
  funext i
  obtain ⟨e, rfl⟩ : ∃ e : Fin n, i = ix1 e := ⟨i 0, eq_ix1 i⟩
  refine shapeCast_apply x h (ix1 e) (ix2 e (0 : Fin 1)) ?_
  rw [Shape.rowMajor_val_two, Shape.rowMajor_val_one]
  show e.val * 1 + 0 = e.val
  omega

/-- A vector broadcast along a new unit axis reads the vector at the row. -/
theorem bcast_col_apply {α : Type} {n : Nat} (x : (Sh1 n).Idx → α) (hn : n ≠ 1)
    (h : (Sh1 n).BroadcastsInDim (Sh2 n 1) (![0] : Fin 1 → Fin 2)) (e : Fin n) (u : Fin 1) :
    broadcastInDim (Sh2 n 1) ![0] h x (ix2 e u) = x (ix1 e) := by
  refine broadcastInDim_apply _ h x (ix2 e u) (ix1 e) fun a => ?_
  match a with
  | ⟨0, _⟩ =>
    show e.val = if n = 1 then 0 else e.val
    rw [if_neg hn]

/-- A column then flattened is the vector again. -/
theorem flat_bcast_col {n : Nat} (x : A1 n) (hn : n ≠ 1)
    (h : (Sh1 n).BroadcastsInDim (Sh2 n 1) (![0] : Fin 1 → Fin 2)) :
    flat (broadcastInDim (Sh2 n 1) ![0] h x) = x := by
  funext i
  obtain ⟨e, rfl⟩ : ∃ e : Fin n, i = ix1 e := ⟨i 0, eq_ix1 i⟩
  exact bcast_col_apply x hn h e 0

/-- The source and destination rows of the edge table as index columns. -/
theorem bcast_srcIx (idx : Edges) (h : (Sh1 800000).BroadcastsInDim (Sh2 800000 1) (![0] : Fin 1 → Fin 2)) :
    broadcastInDim (Sh2 800000 1) ![0] h (edgeVec idx 0) = srcIx idx := by
  funext i
  obtain ⟨e, u, rfl⟩ : ∃ (e : Fin 800000) (u : Fin 1), i = ix2 e u := ⟨i 0, i 1, eq_ix2 i⟩
  exact bcast_col_apply _ (by decide) h e u
theorem bcast_dstIx (idx : Edges) (h : (Sh1 800000).BroadcastsInDim (Sh2 800000 1) (![0] : Fin 1 → Fin 2)) :
    broadcastInDim (Sh2 800000 1) ![0] h (edgeVec idx 1) = dstIx idx := by
  funext i
  obtain ⟨e, u, rfl⟩ : ∃ (e : Fin 800000) (u : Fin 1), i = ix2 e u := ⟨i 0, i 1, eq_ix2 i⟩
  exact bcast_col_apply _ (by decide) h e u

/-- A per-edge column and a per-edge vector (as a column) joined along the columns. -/
theorem concat_beside (x : A2 800000 1) (y : A1 800000)
    (hb : (Sh1 800000).BroadcastsInDim (Sh2 800000 1) (![0] : Fin 1 → Fin 2))
    (h : Shape.Concatenates [Sh2 800000 1, Sh2 800000 1] (Sh2 800000 2) 1) :
    concatenate (Sh2 800000 2) 1 [⟨Sh2 800000 1, x⟩, ⟨Sh2 800000 1, broadcastInDim (Sh2 800000 1) ![0] hb y⟩] h = beside x y := by
  funext i
  obtain ⟨e, q, rfl⟩ : ∃ (e : Fin 800000) (q : Fin 2), i = ix2 e q := ⟨i 0, i 1, eq_ix2 i⟩
  match q with
  | ⟨0, _⟩ =>
    refine (concatenate_pair_apply_left (t := Sh2 800000 2) (1 : Fin 2) x _ h _ rfl (ix2 e (0 : Fin 1)) fun b => ?_).trans ?_
    · match b with
      | ⟨0, _⟩ => rfl
      | ⟨1, _⟩ => rfl
    · rfl
  | ⟨1, _⟩ =>
    refine (concatenate_pair_apply_right (t := Sh2 800000 2) (1 : Fin 2) x _ h _ rfl rfl (ix2 e (0 : Fin 1)) (fun b hb' => ?_) ?_).trans ?_
    · match b with
      | ⟨0, _⟩ => rfl
      | ⟨1, _⟩ => exact absurd rfl hb'
    · rfl
    · exact bcast_col_apply y (by decide) hb e 0

/-- The two halves of a packed array, and of its gathered rows. -/
theorem colsL_pack {n : Nat} (S T : A2 n 128) : colsL (pack S T) = S := by
  funext i
  obtain ⟨a, j, rfl⟩ : ∃ (a : Fin n) (j : Fin 128), i = ix2 a j := ⟨i 0, i 1, eq_ix2 i⟩
  show (if h : j.val < 128 then S (ix2 a ⟨j.val, h⟩) else _) = _
  rw [dif_pos j.isLt]
theorem colsR_pack {n : Nat} (S T : A2 n 128) : colsR (pack S T) = T := by
  funext i
  obtain ⟨a, j, rfl⟩ : ∃ (a : Fin n) (j : Fin 128), i = ix2 a j := ⟨i 0, i 1, eq_ix2 i⟩
  show (if h : 128 + j.val < 128 then _ else T (ix2 a ⟨128 + j.val - 128, _⟩)) = _
  rw [dif_neg (by omega)]
  exact congrArg T (congrArg (ix2 a) (Fin.ext (by show 128 + j.val - 128 = j.val; omega)))
theorem colsL_gatherRows (P : A2 50000 256) (idx : Edges) (r : Fin 2) :
    colsL (gatherRows P idx r) = gatherRows (colsL P) idx r := rfl
theorem colsR_gatherRows (P : A2 50000 256) (idx : Edges) (r : Fin 2) :
    colsR (gatherRows P idx r) = gatherRows (colsR P) idx r := rfl

end Layout

/-! ## Each host stretch, from any contents

What a stretch leaves in each buffer it writes, as a function of the contents `V` it starts from. -/

section HostStages
open Cert.Spec
variable (V : Valuation τ sig (Elt Ideal))

/-- The packed array's left half. -/
theorem ops4_v33 :
    StableHlo.after (hostOps4 (F := Ideal)) V (Proc.devRef .tc main_v33) = colsL (V (Proc.devRef .tc main_v32) : A2 50000 256) := by
  after_results
  exact slice_colsL _ _

/-- The gathered packed rows' two halves, the two halves of the first attention weight, and the two biases as rows. -/
theorem ops4_3_v37 :
    StableHlo.after (hostOps4_3 (F := Ideal)) V (Proc.devRef .tc main_v37) = colsL (V (Proc.devRef .tc main_v36) : A2 800000 256) := by
  after_results
  exact slice_colsL _ _
theorem ops4_3_v38 :
    StableHlo.after (hostOps4_3 (F := Ideal)) V (Proc.devRef .tc main_v38) = colsR (V (Proc.devRef .tc main_v36) : A2 800000 256) := by
  after_results
  exact slice_colsR _ _
theorem ops4_3_v39 :
    StableHlo.after (hostOps4_3 (F := Ideal)) V (Proc.devRef .tc main_v39) = rowsT (V (Proc.devRef .tc main_arg6)) := by
  after_results
  exact slice_rowsT _ _
theorem ops4_3_v40 :
    StableHlo.after (hostOps4_3 (F := Ideal)) V (Proc.devRef .tc main_v40) = rowsB (V (Proc.devRef .tc main_arg6)) := by
  after_results
  exact slice_rowsB _ _
theorem ops4_3_v41 :
    StableHlo.after (hostOps4_3 (F := Ideal)) V (Proc.devRef .tc main_v41) = bRow (V (Proc.devRef .tc main_arg7) : A1 32) := by
  after_results
  exact cast_bRow (n := 32) _ shapeCasts_S32_S1x32
theorem ops4_3_v42 :
    StableHlo.after (hostOps4_3 (F := Ideal)) V (Proc.devRef .tc main_v42) = bRow (V (Proc.devRef .tc main_arg9) : A1 1) := by
  after_results
  exact cast_bRow (n := 1) _ shapeCasts_S1_S1x1

/-- The attention column flattened, and the normaliser: the scatter-add of it at the sources into zeros. -/
theorem ops5_v44 :
    StableHlo.after (hostOps5 (F := Ideal)) V (Proc.devRef .tc main_v44) = flat (V (Proc.devRef .tc main_v43) : A2 800000 1) := by
  after_results
  exact cast_flat (n := 800000) _ shapeCasts_S800000x1_S800000
theorem ops5_v47 (idx : Edges) (h1 : V (Proc.devRef .tc main_v1) = edgeVec idx 0) :
    StableHlo.after (hostOps5 (F := Ideal)) V (Proc.devRef .tc main_v47)
      = sumExp (flat (V (Proc.devRef .tc main_v43) : A2 800000 1)) idx := by
  after_results
  rw [h1]
  unfold sumExp
  rw [← bcast_srcIx idx bcast_S800000_S800000x1_0, ← cast_flat (n := 800000) _ shapeCasts_S800000x1_S800000]
  rfl

/-- The normaliser at the sources as a column, and beside the attention column. -/
theorem ops5_2_v49 :
    StableHlo.after (hostOps5_2 (F := Ideal)) V (Proc.devRef .tc main_v49)
      = broadcastInDim S800000x1 ![0] bcast_S800000_S800000x1_0 (V (Proc.devRef .tc main_v48) : A1 800000) := by
  after_results
theorem ops5_2_v50 :
    StableHlo.after (hostOps5_2 (F := Ideal)) V (Proc.devRef .tc main_v50)
      = beside (V (Proc.devRef .tc main_v43)) (V (Proc.devRef .tc main_v48)) := by
  after_results
  exact concat_beside _ _ _ _

/-- The attention weights, and the messages added into their destinations. -/
theorem ops6_v55 :
    StableHlo.after (hostOps6 (F := Ideal)) V (Proc.devRef .tc main_v55)
      = fun i => Ideal.div ((V (Proc.devRef .tc main_v44) : A1 800000) i) (flat (V (Proc.devRef .tc main_v49) : A2 800000 1) i + eps) := by
  after_results
  rw [← cast_flat (n := 800000) _ shapeCasts_S800000x1_S800000]
  rfl
theorem ops6_v58 (idx : Edges) (h3 : V (Proc.devRef .tc main_v3) = edgeVec idx 1) :
    StableHlo.after (hostOps6 (F := Ideal)) V (Proc.devRef .tc main_v58) = aggOf (V (Proc.devRef .tc main_v51)) idx := by
  after_results
  rw [h3]
  unfold aggOf
  rw [← bcast_dstIx idx bcast_S800000_S800000x1_0]
  rfl

/-- The output bias as a row. -/
theorem ops7_v60 :
    StableHlo.after (hostOps7 (F := Ideal)) V (Proc.devRef .tc main_v60) = bRow (V (Proc.devRef .tc main_arg5) : A1 128) := by
  after_results
  exact cast_bRow (n := 128) _ shapeCasts_S128_S1x128

end HostStages

/-! ## The run from the fourth region's exit

From the node states `S` the packed array holds there, buffer by buffer in the program's order: the gathers, the
attention region, the normaliser, the scaling region, the aggregation, the update region, the output layer. -/

section Chain
open Cert.Spec

/-- What is known of core c's buffers at the fourth region's exit. -/
structure At13 (c : Dev nD) (S : A2 50000 128) : Prop where
  idx : InRange (aIdx m c)
  v32 : W13 (F := Ideal) m ρ c (Proc.devRef .tc main_v32) = pack S (mm S (aWn m c))
  v1 : W13 (F := Ideal) m ρ c (Proc.devRef .tc main_v1) = edgeVec (aIdx m c) 0
  v3 : W13 (F := Ideal) m ρ c (Proc.devRef .tc main_v3) = edgeVec (aIdx m c) 1
  a4 : W13 (F := Ideal) m ρ c (Proc.devRef .tc main_arg4) = m ((c.tc : Thread nD τ).loc main_arg4)
  a5 : W13 (F := Ideal) m ρ c (Proc.devRef .tc main_arg5) = m ((c.tc : Thread nD τ).loc main_arg5)
  a6 : W13 (F := Ideal) m ρ c (Proc.devRef .tc main_arg6) = m ((c.tc : Thread nD τ).loc main_arg6)
  a7 : W13 (F := Ideal) m ρ c (Proc.devRef .tc main_arg7) = m ((c.tc : Thread nD τ).loc main_arg7)
  a8 : W13 (F := Ideal) m ρ c (Proc.devRef .tc main_arg8) = m ((c.tc : Thread nD τ).loc main_arg8)
  a9 : W13 (F := Ideal) m ρ c (Proc.devRef .tc main_arg9) = m ((c.tc : Thread nD τ).loc main_arg9)

variable {c : Dev nD} {S : A2 50000 128}

/-- The node states, split off the packed array. -/
theorem W14_v33 (H : At13 m ρ c S) : W14 (F := Ideal) m ρ c (Proc.devRef .tc main_v33) = S := by
  refine (ops4_v33 (W13 m ρ c)).trans ?_
  rw [H.v32]
  exact colsL_pack _ _

/-- The states at the edges' destinations. -/
theorem W15_v35 (H : At13 m ρ c S) :
    W15 (F := Ideal) m ρ c (Proc.devRef .tc main_v35) = gatherRows S (aIdx m c) 1 := by
  refine (hostOps4_1_main_v35 (W14 m ρ c)).trans ?_
  rw [W14_v33 m ρ H, (show W14 (F := Ideal) m ρ c (Proc.devRef .tc main_v3) = edgeVec (aIdx m c) 1 from by keep_back; exact H.v3)]
  exact Take.take128_eq S _ 1 H.idx

/-- The packed rows at the edges' sources. -/
theorem W16_v36 (H : At13 m ρ c S) :
    W16 (F := Ideal) m ρ c (Proc.devRef .tc main_v36) = gatherRows (pack S (mm S (aWn m c))) (aIdx m c) 0 := by
  refine (hostOps4_2_main_v36 (W15 m ρ c)).trans ?_
  keep_back
  rw [H.v32, H.v1]
  exact Take.take256_eq _ _ 0 H.idx

/-- The attention region's seven inputs. -/
theorem W17_v37 (H : At13 m ρ c S) :
    W17 (F := Ideal) m ρ c (Proc.devRef .tc main_v37) = gatherRows S (aIdx m c) 0 := by
  refine (ops4_3_v37 (W16 m ρ c)).trans ?_
  rw [W16_v36 m ρ H, colsL_gatherRows, colsL_pack]
theorem W17_v38 (H : At13 m ρ c S) :
    W17 (F := Ideal) m ρ c (Proc.devRef .tc main_v38) = gatherRows (mm S (aWn m c)) (aIdx m c) 0 := by
  refine (ops4_3_v38 (W16 m ρ c)).trans ?_
  rw [W16_v36 m ρ H, colsR_gatherRows, colsR_pack]
theorem W17_v35 (H : At13 m ρ c S) :
    W17 (F := Ideal) m ρ c (Proc.devRef .tc main_v35) = gatherRows S (aIdx m c) 1 := by
  keep_back
  exact W15_v35 m ρ H
theorem W17_v39 (H : At13 m ρ c S) : W17 (F := Ideal) m ρ c (Proc.devRef .tc main_v39) = rowsT (aWa1 m c) := by
  refine (ops4_3_v39 (W16 m ρ c)).trans ?_
  keep_back
  rw [H.a6]
theorem W17_v40 (H : At13 m ρ c S) : W17 (F := Ideal) m ρ c (Proc.devRef .tc main_v40) = rowsB (aWa1 m c) := by
  refine (ops4_3_v40 (W16 m ρ c)).trans ?_
  keep_back
  rw [H.a6]
theorem W17_v41 (H : At13 m ρ c S) : W17 (F := Ideal) m ρ c (Proc.devRef .tc main_v41) = bRow (aBa1 m c) := by
  refine (ops4_3_v41 (W16 m ρ c)).trans ?_
  keep_back
  rw [H.a7]
theorem W17_v42 (H : At13 m ρ c S) : W17 (F := Ideal) m ρ c (Proc.devRef .tc main_v42) = bRow (aBa2 m c) := by
  refine (ops4_3_v42 (W16 m ρ c)).trans ?_
  keep_back
  rw [H.a9]
theorem W17_arg8 (H : At13 m ρ c S) : W17 (F := Ideal) m ρ c (Proc.devRef .tc main_arg8) = aWa2 m c := by
  keep_back
  exact H.a8

/-- The attention region's output: ex, one column. -/
theorem W18_v43 (H : At13 m ρ c S) :
    W18 (F := Ideal) m ρ c (Proc.devRef .tc main_v43) = exCol (aIdx m c) (aWa1 m c) (aBa1 m c) (aWa2 m c) (aBa2 m c) S := by
  refine ((W18_arr m ρ c 7).trans (final4 (V17 m ρ) c)).trans ?_
  show reg1 (W17 (F := Ideal) m ρ c (Proc.devRef .tc main_v37)) (W17 (F := Ideal) m ρ c (Proc.devRef .tc main_v35))
    (W17 (F := Ideal) m ρ c (Proc.devRef .tc main_v39)) (W17 (F := Ideal) m ρ c (Proc.devRef .tc main_v40))
    (W17 (F := Ideal) m ρ c (Proc.devRef .tc main_v41)) (W17 (F := Ideal) m ρ c (Proc.devRef .tc main_arg8))
    (W17 (F := Ideal) m ρ c (Proc.devRef .tc main_v42)) = _
  rw [W17_v37 m ρ H, W17_v35 m ρ H, W17_v39 m ρ H, W17_v40 m ρ H, W17_v41 m ρ H, W17_arg8 m ρ H, W17_v42 m ρ H]
  rfl

/-- ex flattened, the normaliser of every node, and the normaliser at every edge's source. -/
theorem W19_v44 (H : At13 m ρ c S) :
    W19 (F := Ideal) m ρ c (Proc.devRef .tc main_v44) = flat (exCol (aIdx m c) (aWa1 m c) (aBa1 m c) (aWa2 m c) (aBa2 m c) S) := by
  refine (ops5_v44 (W18 m ρ c)).trans ?_
  rw [W18_v43 m ρ H]
theorem W19_v47 (H : At13 m ρ c S) :
    W19 (F := Ideal) m ρ c (Proc.devRef .tc main_v47)
      = sumExp (flat (exCol (aIdx m c) (aWa1 m c) (aBa1 m c) (aWa2 m c) (aBa2 m c) S)) (aIdx m c) := by
  refine (ops5_v47 (W18 m ρ c) (aIdx m c) (by keep_back; exact H.v1)).trans ?_
  rw [W18_v43 m ρ H]
theorem W20_v48 (H : At13 m ρ c S) :
    W20 (F := Ideal) m ρ c (Proc.devRef .tc main_v48)
      = seSrc (aIdx m c) (flat (exCol (aIdx m c) (aWa1 m c) (aBa1 m c) (aWa2 m c) (aBa2 m c) S)) := by
  refine (hostOps5_1_main_v48 (W19 m ρ c)).trans ?_
  rw [W19_v47 m ρ H, (show W19 (F := Ideal) m ρ c (Proc.devRef .tc main_v1) = edgeVec (aIdx m c) 0 from by keep_back; exact H.v1)]
  exact Take.take1_eq _ _ 0 H.idx

/-- The scaling region's second input: ex beside the normaliser at the source. -/
theorem W21_v49 (H : At13 m ρ c S) :
    W21 (F := Ideal) m ρ c (Proc.devRef .tc main_v49)
      = broadcastInDim S800000x1 ![0] bcast_S800000_S800000x1_0
          (seSrc (aIdx m c) (flat (exCol (aIdx m c) (aWa1 m c) (aBa1 m c) (aWa2 m c) (aBa2 m c) S))) := by
  refine (ops5_2_v49 (W20 m ρ c)).trans ?_
  rw [W20_v48 m ρ H]
theorem W21_v50 (H : At13 m ρ c S) :
    W21 (F := Ideal) m ρ c (Proc.devRef .tc main_v50)
      = beside (exCol (aIdx m c) (aWa1 m c) (aBa1 m c) (aWa2 m c) (aBa2 m c) S)
          (seSrc (aIdx m c) (flat (exCol (aIdx m c) (aWa1 m c) (aBa1 m c) (aWa2 m c) (aBa2 m c) S))) := by
  refine (ops5_2_v50 (W20 m ρ c)).trans ?_
  rw [W20_v48 m ρ H, (show W20 (F := Ideal) m ρ c (Proc.devRef .tc main_v43)
    = exCol (aIdx m c) (aWa1 m c) (aBa1 m c) (aWa2 m c) (aBa2 m c) S from by keep_back; exact W18_v43 m ρ H)]

/-- The scaling region's output: the messages. -/
theorem W22_v51 (H : At13 m ρ c S) :
    W22 (F := Ideal) m ρ c (Proc.devRef .tc main_v51)
      = msgOf (aIdx m c) (aWa1 m c) (aBa1 m c) (aWa2 m c) (aBa2 m c) (aWn m c) S := by
  refine ((W22_arr m ρ c 2).trans (final5 (V21 m ρ) c)).trans ?_
  show reg2 (W21 (F := Ideal) m ρ c (Proc.devRef .tc main_v38)) (W21 (F := Ideal) m ρ c (Proc.devRef .tc main_v50)) = _
  rw [(show W21 (F := Ideal) m ρ c (Proc.devRef .tc main_v38) = gatherRows (mm S (aWn m c)) (aIdx m c) 0 from by
    keep_back; exact W17_v38 m ρ H), W21_v50 m ρ H]
  rfl

/-- The attention weights. -/
theorem W23_v55 (H : At13 m ρ c S) :
    W23 (F := Ideal) m ρ c (Proc.devRef .tc main_v55) = attnOf (aIdx m c) (aWa1 m c) (aBa1 m c) (aWa2 m c) (aBa2 m c) S := by
  refine (ops6_v55 (W22 m ρ c)).trans ?_
  rw [(show W22 (F := Ideal) m ρ c (Proc.devRef .tc main_v44)
      = flat (exCol (aIdx m c) (aWa1 m c) (aBa1 m c) (aWa2 m c) (aBa2 m c) S) from by keep_back; exact W19_v44 m ρ H),
    (show W22 (F := Ideal) m ρ c (Proc.devRef .tc main_v49)
      = broadcastInDim S800000x1 ![0] bcast_S800000_S800000x1_0
          (seSrc (aIdx m c) (flat (exCol (aIdx m c) (aWa1 m c) (aBa1 m c) (aWa2 m c) (aBa2 m c) S))) from by
      keep_back; exact W21_v49 m ρ H),
    flat_bcast_col _ (by decide)]
  rfl

/-- The messages added into their destinations, and the update region's output: the next node states. -/
theorem W23_v58 (H : At13 m ρ c S) :
    W23 (F := Ideal) m ρ c (Proc.devRef .tc main_v58)
      = aggOf (msgOf (aIdx m c) (aWa1 m c) (aBa1 m c) (aWa2 m c) (aBa2 m c) (aWn m c) S) (aIdx m c) := by
  refine (ops6_v58 (W22 m ρ c) (aIdx m c) (by keep_back; exact H.v3)).trans ?_
  rw [W22_v51 m ρ H]
theorem W24_v59 (H : At13 m ρ c S) : W24 (F := Ideal) m ρ c (Proc.devRef .tc main_v59) = stp m c S := by
  refine ((W24_arr m ρ c 2).trans (final6 (V23 m ρ) c)).trans ?_
  show upd (W23 (F := Ideal) m ρ c (Proc.devRef .tc main_v33)) (W23 (F := Ideal) m ρ c (Proc.devRef .tc main_v58)) = _
  rw [(show W23 (F := Ideal) m ρ c (Proc.devRef .tc main_v33) = S from by keep_back; exact W14_v33 m ρ H), W23_v58 m ρ H]
  rfl

/-- The output layer. -/
theorem W26_v61 (H : At13 m ρ c S) :
    W26 (F := Ideal) m ρ c (Proc.devRef .tc main_v61) = linB (stp m c S) (aWo m c) (bRow (aBo m c)) := by
  refine ((W26_arr m ρ c 3).trans (final7 (V25 m ρ) c)).trans ?_
  show linB (W25 (F := Ideal) m ρ c (Proc.devRef .tc main_v59)) (W25 (F := Ideal) m ρ c (Proc.devRef .tc main_arg4))
    (W25 (F := Ideal) m ρ c (Proc.devRef .tc main_v60)) = _
  rw [(show W25 (F := Ideal) m ρ c (Proc.devRef .tc main_v59) = stp m c S from by keep_back; exact W24_v59 m ρ H),
    (show W25 (F := Ideal) m ρ c (Proc.devRef .tc main_arg4) = aWo m c from by keep_back; exact H.a4),
    (show W25 (F := Ideal) m ρ c (Proc.devRef .tc main_v60) = bRow (aBo m c) from
      (ops7_v60 (W24 m ρ c)).trans (by keep_back; rw [H.a5]))]

/-- The attention weights reach the return untouched. -/
theorem W26_v55 (H : At13 m ρ c S) :
    W26 (F := Ideal) m ρ c (Proc.devRef .tc main_v55) = attnOf (aIdx m c) (aWa1 m c) (aBa1 m c) (aWa2 m c) (aBa2 m c) S := by
  keep_back
  exact W23_v55 m ρ H

end Chain

/-! From the exit of the fourth region to the return (the second diffusion step and the output layer), from whatever node states S
    the packed array holds there. -/

/-- The first result: one more step from S, then the output layer. -/
theorem out_of_W13 (c : Dev nD) (S : Cert.Spec.A2 50000 128) (hidx : Cert.Spec.InRange (aIdx m c))
    (h32 : W13 (F := Ideal) m ρ c (Proc.devRef .tc main_v32) = Cert.Spec.pack S (Cert.Spec.mm S (aWn m c)))
    (h1 : W13 (F := Ideal) m ρ c (Proc.devRef .tc main_v1) = Cert.Spec.edgeVec (aIdx m c) 0)
    (h3 : W13 (F := Ideal) m ρ c (Proc.devRef .tc main_v3) = Cert.Spec.edgeVec (aIdx m c) 1)
    (h4 : W13 (F := Ideal) m ρ c (Proc.devRef .tc main_arg4) = m ((c.tc : Thread nD τ).loc main_arg4))
    (h5 : W13 (F := Ideal) m ρ c (Proc.devRef .tc main_arg5) = m ((c.tc : Thread nD τ).loc main_arg5))
    (h6 : W13 (F := Ideal) m ρ c (Proc.devRef .tc main_arg6) = m ((c.tc : Thread nD τ).loc main_arg6))
    (h7 : W13 (F := Ideal) m ρ c (Proc.devRef .tc main_arg7) = m ((c.tc : Thread nD τ).loc main_arg7))
    (h8 : W13 (F := Ideal) m ρ c (Proc.devRef .tc main_arg8) = m ((c.tc : Thread nD τ).loc main_arg8))
    (h9 : W13 (F := Ideal) m ρ c (Proc.devRef .tc main_arg9) = m ((c.tc : Thread nD τ).loc main_arg9))
    (h10 : W13 (F := Ideal) m ρ c (Proc.devRef .tc main_arg10) = m ((c.tc : Thread nD τ).loc main_arg10)) :
    W26 (F := Ideal) m ρ c (Proc.devRef .tc main_v61)
      = Cert.Spec.linB (stp m c S) (aWo m c) (Cert.Spec.bRow (aBo m c)) :=
  W26_v61 m ρ ⟨hidx, h32, h1, h3, h4, h5, h6, h7, h8, h9⟩

/-- The second result: the attention weights of the step from S. -/
theorem attn_of_W13 (c : Dev nD) (S : Cert.Spec.A2 50000 128) (hidx : Cert.Spec.InRange (aIdx m c))
    (h32 : W13 (F := Ideal) m ρ c (Proc.devRef .tc main_v32) = Cert.Spec.pack S (Cert.Spec.mm S (aWn m c)))
    (h1 : W13 (F := Ideal) m ρ c (Proc.devRef .tc main_v1) = Cert.Spec.edgeVec (aIdx m c) 0)
    (h3 : W13 (F := Ideal) m ρ c (Proc.devRef .tc main_v3) = Cert.Spec.edgeVec (aIdx m c) 1)
    (h4 : W13 (F := Ideal) m ρ c (Proc.devRef .tc main_arg4) = m ((c.tc : Thread nD τ).loc main_arg4))
    (h5 : W13 (F := Ideal) m ρ c (Proc.devRef .tc main_arg5) = m ((c.tc : Thread nD τ).loc main_arg5))
    (h6 : W13 (F := Ideal) m ρ c (Proc.devRef .tc main_arg6) = m ((c.tc : Thread nD τ).loc main_arg6))
    (h7 : W13 (F := Ideal) m ρ c (Proc.devRef .tc main_arg7) = m ((c.tc : Thread nD τ).loc main_arg7))
    (h8 : W13 (F := Ideal) m ρ c (Proc.devRef .tc main_arg8) = m ((c.tc : Thread nD τ).loc main_arg8))
    (h9 : W13 (F := Ideal) m ρ c (Proc.devRef .tc main_arg9) = m ((c.tc : Thread nD τ).loc main_arg9))
    (h10 : W13 (F := Ideal) m ρ c (Proc.devRef .tc main_arg10) = m ((c.tc : Thread nD τ).loc main_arg10)) :
    W26 (F := Ideal) m ρ c (Proc.devRef .tc main_v55)
      = Cert.Spec.attnOf (aIdx m c) (aWa1 m c) (aBa1 m c) (aWa2 m c) (aBa2 m c) S :=
  W26_v55 m ρ ⟨hidx, h32, h1, h3, h4, h5, h6, h7, h8, h9⟩

end Cert.KernelIdeal.Val

end
-- ==== Proof.KVal.lean ====
import proofs.«415169_j41790031790248_2_alg».proof.Proof.Gen.KernelIdeal.Frame
import proofs.«415169_j41790031790248_2_alg».proof.Proof.Spec
import proofs.«415169_j41790031790248_2_alg».proof.Proof.KGlueA
import proofs.«415169_j41790031790248_2_alg».proof.Proof.KGlueB
set_option maxRecDepth 16384

noncomputable section

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! The two result buffers at the end of the fold are the specification's two results. -/

theorem out_eq (c : Dev nD) (hidx : Cert.Spec.InRange (aIdx m c)) :
    W26 (F := Ideal) m ρ c (Proc.devRef .tc main_v61)
      = Cert.Spec.result0 (aX m c) (aIdx m c) (aWl m c) (aBl m c) (aWo m c) (aBo m c) (aWa1 m c) (aBa1 m c) (aWa2 m c) (aBa2 m c) (aWn m c) :=
  out_of_W13 m ρ c (stp m c (S1 m c)) hidx (W13_v32 m ρ c hidx) (W13_v1 m ρ c) (W13_v3 m ρ c) (W13_arg4 m ρ c) (W13_arg5 m ρ c)
    (W13_arg6 m ρ c) (W13_arg7 m ρ c) (W13_arg8 m ρ c) (W13_arg9 m ρ c) (W13_arg10 m ρ c)

theorem attn_eq (c : Dev nD) (hidx : Cert.Spec.InRange (aIdx m c)) :
    W26 (F := Ideal) m ρ c (Proc.devRef .tc main_v55)
      = Cert.Spec.result1 (aX m c) (aIdx m c) (aWl m c) (aBl m c) (aWa1 m c) (aBa1 m c) (aWa2 m c) (aBa2 m c) (aWn m c) :=
  attn_of_W13 m ρ c (stp m c (S1 m c)) hidx (W13_v32 m ρ c hidx) (W13_v1 m ρ c) (W13_v3 m ρ c) (W13_arg4 m ρ c) (W13_arg5 m ρ c)
    (W13_arg6 m ρ c) (W13_arg7 m ρ c) (W13_arg8 m ρ c) (W13_arg9 m ρ c) (W13_arg10 m ρ c)

end Cert.KernelIdeal.Val

end
-- ==== Proof.RefTerm.lean ====
/-
  The reference program's two results as functions of its eleven arguments, and the proof that they are the
  specification's.

  The definitions follow the reference operation by operation: the encoder relu (X · W_lin + b_lin); then, twice, the
  diffusion step — gather the node states at the edges' sources and destinations, contract the concatenated pair with
  the attention MLP's first weight, leaky-relu, contract with the second weight, clip, exponentiate, add the
  exponentials into their source nodes, divide each by its source's sum plus ε, scale the gathered rows of S · W_node,
  add them into their destination nodes and take tanh (S + agg) —; then the output layer.

  The proof is index by index. A contraction over the 256 columns of the concatenated pair is the sum of the two
  contractions over its 128-column halves; a reshape of a one-column matrix to a vector commutes with the pointwise
  operations; an index in range is its own normalisation and its own clamp.
-/
import proofs.«415169_j41790031790248_2_alg».proof.ReferenceIdeal
import proofs.«415169_j41790031790248_2_alg».proof.Proof.Gen.ReferenceIdeal
import proofs.«415169_j41790031790248_2_alg».proof.Proof.Spec
import Idealize.ShloMosaic.PureOps.Ideal
import Idealize.ShloMosaic.PureOps.Ideal.Laws
import Idealize.ShloMosaic.PureOps.Contract
import Idealize.ShloMosaic.Lib.ValueIdx
import Idealize.ShloMosaic.Lib.ValueLayout
import Idealize.ShloMosaic.Lib.Pipeline.Value
import Mathlib.Algebra.BigOperators.Fin

noncomputable section

open scoped BigOperators

namespace Cert.ReferenceIdeal.Term

open Cert.ReferenceIdeal Cert.ReferenceIdeal.Gen Idealize.ShloMosaic Idealize.ShloMosaic.ValueIdx

/-! ## The reference, stage by stage -/

/-- The sources (row 0 of the edge table) and the destinations (row 1), as vectors. -/
def srcV (a1 : IVec S2x800000 32) : IVec S800000 32 :=
  shapeCast S800000 (extractStridedSlice S1x800000 ![0, 0] a1 slices_S2x800000_S1x800000_0_0) shapeCasts_S1x800000_S800000
def dstV (a1 : IVec S2x800000 32) : IVec S800000 32 :=
  shapeCast S800000 (extractStridedSlice S1x800000 ![1, 0] a1 slices_S2x800000_S1x800000_1_0) shapeCasts_S1x800000_S800000

/-- A negative index counts from the end of the table. -/
def normIdx (d : IVec S800000 32) : IVec S800000 32 :=
  select (cmpi .slt d (broadcastInDim S800000 ![] bcast_S_S800000 (constantI S_ 32 0#32)))
    (addi d (broadcastInDim S800000 ![] bcast_S_S800000 (constantI S_ 32 50000#32))) d

/-- A vector of indices as a one-column matrix. -/
def idxCol (d : IVec S800000 32) : IVec S800000x1 32 :=
  broadcastInDim S800000x1 ![0] bcast_S800000_S800000x1_0 d

/-- The rows of a node table at a vector of indices. -/
def rowsAt (T : FVec Ideal S50000x128 .f32) (d : IVec S800000 32) : FVec Ideal S800000x128 .f32 :=
  Host.gather gather_S50000x128_S800000x1_S800000x128_1_0_n_n_0_1_1128 T (idxCol (normIdx d))

/-- The encoder: relu (X · W_lin + b_lin). -/
def encS (a0 : FVec Ideal S50000x256 .f32) (a2 : FVec Ideal S256x128 .f32) (a3 : FVec Ideal S128 .f32) :
    FVec Ideal S50000x128 .f32 :=
  maximumf
    (addf (Host.dotGeneral dot_S50000x256_S256x128_S50000x128_1_0_0_1_n_n none a0 a2)
      (broadcastInDim S50000x128 ![0, 1] bcast_S1x128_S50000x128_0_1 (broadcastInDim S1x128 ![1] bcast_S128_S1x128_1 a3)))
    (broadcastInDim S50000x128 ![] bcast_S_S50000x128 (constant S_ .f32 0x00000000#32))

/-- The source and destination states of every edge, side by side. -/
def pairR (S : FVec Ideal S50000x128 .f32) (a1 : IVec S2x800000 32) : FVec Ideal S800000x256 .f32 :=
  concatenate S800000x256 1 [⟨S800000x128, rowsAt S (srcV a1)⟩, ⟨S800000x128, rowsAt S (dstV a1)⟩]
    concatenates_S800000x128_S800000x128_S800000x256_d1

/-- x where x ≥ 0, else 0.2 · x. -/
def leakyR (x : FVec Ideal S800000x32 .f32) : FVec Ideal S800000x32 .f32 :=
  select (cmpf .oge x (broadcastInDim S800000x32 ![] bcast_S_S800000x32 (constant S_ .f32 0x00000000#32))) x
    (mulf (broadcastInDim S800000x32 ![] bcast_S_S800000x32 (id (constant S_ .f32 0x3E4CCCCD#32))) x)

/-- The attention MLP's hidden layer. -/
def hidR (S : FVec Ideal S50000x128 .f32) (a1 : IVec S2x800000 32) (a6 : FVec Ideal S256x32 .f32)
    (a7 : FVec Ideal S32 .f32) : FVec Ideal S800000x32 .f32 :=
  leakyR
    (addf (Host.dotGeneral dot_S800000x256_S256x32_S800000x32_1_0_0_1_n_n none (pairR S a1) a6)
      (broadcastInDim S800000x32 ![0, 1] bcast_S1x32_S800000x32_0_1 (broadcastInDim S1x32 ![1] bcast_S32_S1x32_1 a7)))

/-- The attention logit of every edge, a vector. -/
def rawR (S : FVec Ideal S50000x128 .f32) (a1 : IVec S2x800000 32) (a6 : FVec Ideal S256x32 .f32)
    (a7 : FVec Ideal S32 .f32) (a8 : FVec Ideal S32x1 .f32) (a9 : FVec Ideal S1 .f32) : FVec Ideal S800000 .f32 :=
  shapeCast S800000
    (addf (Host.dotGeneral dot_S800000x32_S32x1_S800000x1_1_0_0_1_n_n none (hidR S a1 a6 a7) a8)
      (broadcastInDim S800000x1 ![0, 1] bcast_S1x1_S800000x1_0_1 (broadcastInDim S1x1 ![1] bcast_S1_S1x1_1 a9)))
    shapeCasts_S800000x1_S800000

/-- min 10 (max (−20) x). -/
def clipR (x : FVec Ideal S800000 .f32) : FVec Ideal S800000 .f32 :=
  minimumf (broadcastInDim S800000 ![] bcast_S_S800000 (id (constant S_ .f32 0x41200000#32)))
    (maximumf (broadcastInDim S800000 ![] bcast_S_S800000 (id (constant S_ .f32 0xC1A00000#32))) x)

/-- exp (clip logit). -/
def exR (S : FVec Ideal S50000x128 .f32) (a1 : IVec S2x800000 32) (a6 : FVec Ideal S256x32 .f32)
    (a7 : FVec Ideal S32 .f32) (a8 : FVec Ideal S32x1 .f32) (a9 : FVec Ideal S1 .f32) : FVec Ideal S800000 .f32 :=
  Host.exp (clipR (rawR S a1 a6 a7 a8 a9))

/-- The exponentials added into their source nodes. -/
def sumExpR (ex : FVec Ideal S800000 .f32) (a1 : IVec S2x800000 32) : FVec Ideal S50000 .f32 :=
  Host.scatterAdd scatter_S50000_S800000x1_S800000_n_0_0_1
    (broadcastInDim S50000 ![] bcast_S_S50000 (constant S_ .f32 0x00000000#32)) (idxCol (srcV a1)) ex

/-- ex / (the source's sum + ε). -/
def attnOfEx (ex : FVec Ideal S800000 .f32) (a1 : IVec S2x800000 32) : FVec Ideal S800000 .f32 :=
  Host.divf ex
    (addf (Host.gather gather_S50000_S800000x1_S800000_n_0_n_n_0_1_1 (sumExpR ex a1) (idxCol (normIdx (srcV a1))))
      (broadcastInDim S800000 ![] bcast_S_S800000 (constant S_ .f32 0x3089705F#32)))

/-- The attention weights a step computes from the states it starts from. -/
def attnR (S : FVec Ideal S50000x128 .f32) (a1 : IVec S2x800000 32) (a6 : FVec Ideal S256x32 .f32)
    (a7 : FVec Ideal S32 .f32) (a8 : FVec Ideal S32x1 .f32) (a9 : FVec Ideal S1 .f32) : FVec Ideal S800000 .f32 :=
  attnOfEx (exR S a1 a6 a7 a8 a9) a1

/-- The messages: the rows of S · W_node at the sources, each scaled by its edge's attention weight. -/
def msgR (S : FVec Ideal S50000x128 .f32) (a1 : IVec S2x800000 32) (a6 : FVec Ideal S256x32 .f32)
    (a7 : FVec Ideal S32 .f32) (a8 : FVec Ideal S32x1 .f32) (a9 : FVec Ideal S1 .f32) (a10 : FVec Ideal S128x128 .f32) :
    FVec Ideal S800000x128 .f32 :=
  mulf (rowsAt (Host.dotGeneral dot_S50000x128_S128x128_S50000x128_1_0_0_1_n_n none S a10) (srcV a1))
    (broadcastInDim S800000x128 ![0, 1] bcast_S800000x1_S800000x128_0_1
      (broadcastInDim S800000x1 ![0] bcast_S800000_S800000x1_0 (attnR S a1 a6 a7 a8 a9)))

/-- The messages added into their destination nodes. -/
def aggR (msg : FVec Ideal S800000x128 .f32) (a1 : IVec S2x800000 32) : FVec Ideal S50000x128 .f32 :=
  Host.scatterAdd scatter_S50000x128_S800000x1_S800000x128_1_0_0_1
    (broadcastInDim S50000x128 ![] bcast_S_S50000x128 (constant S_ .f32 0x00000000#32)) (idxCol (dstV a1)) msg

/-- One diffusion step: tanh (S + agg). -/
def stepR (S : FVec Ideal S50000x128 .f32) (a1 : IVec S2x800000 32) (a6 : FVec Ideal S256x32 .f32)
    (a7 : FVec Ideal S32 .f32) (a8 : FVec Ideal S32x1 .f32) (a9 : FVec Ideal S1 .f32) (a10 : FVec Ideal S128x128 .f32) :
    FVec Ideal S50000x128 .f32 :=
  Host.tanh (addf S (aggR (msgR S a1 a6 a7 a8 a9 a10) a1))

/-- The output layer: S · W_out + b_out. -/
def outL (S : FVec Ideal S50000x128 .f32) (a4 : FVec Ideal S128x128 .f32) (a5 : FVec Ideal S128 .f32) :
    FVec Ideal S50000x128 .f32 :=
  addf (Host.dotGeneral dot_S50000x128_S128x128_S50000x128_1_0_0_1_n_n none S a4)
    (broadcastInDim S50000x128 ![0, 1] bcast_S1x128_S50000x128_0_1 (broadcastInDim S1x128 ![1] bcast_S128_S1x128_1 a5))

/-- The reference's first result. -/
def out (a0 : FVec Ideal S50000x256 .f32) (a1 : IVec S2x800000 32) (a2 : FVec Ideal S256x128 .f32)
    (a3 : FVec Ideal S128 .f32) (a4 : FVec Ideal S128x128 .f32) (a5 : FVec Ideal S128 .f32)
    (a6 : FVec Ideal S256x32 .f32) (a7 : FVec Ideal S32 .f32) (a8 : FVec Ideal S32x1 .f32) (a9 : FVec Ideal S1 .f32)
    (a10 : FVec Ideal S128x128 .f32) : FVec Ideal S50000x128 .f32 :=
  outL (stepR (stepR (encS a0 a2 a3) a1 a6 a7 a8 a9 a10) a1 a6 a7 a8 a9 a10) a4 a5

/-- The reference's second result: the second step's attention weights. -/
def attn (a0 : FVec Ideal S50000x256 .f32) (a1 : IVec S2x800000 32) (a2 : FVec Ideal S256x128 .f32)
    (a3 : FVec Ideal S128 .f32) (a4 : FVec Ideal S128x128 .f32) (a5 : FVec Ideal S128 .f32)
    (a6 : FVec Ideal S256x32 .f32) (a7 : FVec Ideal S32 .f32) (a8 : FVec Ideal S32x1 .f32) (a9 : FVec Ideal S1 .f32)
    (a10 : FVec Ideal S128x128 .f32) : FVec Ideal S800000 .f32 :=
  attnR (stepR (encS a0 a2 a3) a1 a6 a7 a8 a9 a10) a1 a6 a7 a8 a9

/-! ## A plain matrix product at an index -/

section Dot
variable {m n p : Nat}

/-- The dimension numbers of a plain matrix product [m, n] × [n, p], over whatever evidence of their conditions. -/
abbrev D2 (wf : DotDims.WF ⟨2, ![m, n]⟩ ⟨2, ![n, p]⟩ ⟨2, ![m, p]⟩ [1] [0] [0] [1] [] []) :
    DotDims ⟨2, ![m, n]⟩ ⟨2, ![n, p]⟩ ⟨2, ![m, p]⟩ := ⟨[1], [0], [0], [1], [], [], wf⟩

variable (wf : DotDims.WF ⟨2, ![m, n]⟩ ⟨2, ![n, p]⟩ ⟨2, ![m, p]⟩ [1] [0] [0] [1] [] [])

theorem lhs_0 (i : (⟨2, ![m, p]⟩ : Shape).Idx) (q : (D2 wf).contr.Idx) : ((D2 wf).lhsIdx i q 0).val = (i 0).val := by
  unfold DotDims.lhsIdx
  rw [dif_neg (show ¬(0 : Fin 2) ∈ (D2 wf).lhsBatch from List.not_mem_nil), dif_pos (show (0 : Fin 2) ∈ (D2 wf).lhsNonContracting from List.mem_singleton.mpr rfl)]
  rfl
theorem lhs_1 (i : (⟨2, ![m, p]⟩ : Shape).Idx) (q : (D2 wf).contr.Idx) : ((D2 wf).lhsIdx i q 1).val = (q ⟨0, Nat.one_pos⟩).val :=
  (D2 wf).lhsIdx_val_of_single rfl i q
theorem rhs_0 (i : (⟨2, ![m, p]⟩ : Shape).Idx) (q : (D2 wf).contr.Idx) : ((D2 wf).rhsIdx i q 0).val = (q ⟨0, Nat.one_pos⟩).val :=
  (D2 wf).rhsIdx_val_of_single rfl i q
theorem rhs_1 (i : (⟨2, ![m, p]⟩ : Shape).Idx) (q : (D2 wf).contr.Idx) : ((D2 wf).rhsIdx i q 1).val = (i 1).val := by
  unfold DotDims.rhsIdx
  rw [dif_neg (show ¬(1 : Fin 2) ∈ (D2 wf).rhsBatch from List.not_mem_nil), dif_pos (show (1 : Fin 2) ∈ (D2 wf).rhsNonContracting from List.mem_singleton.mpr rfl)]
  rfl

theorem D2_apply {φ₁ φ₂ : FTy} (A : FVec Ideal ⟨2, ![m, n]⟩ φ₁) (B : FVec Ideal ⟨2, ![n, p]⟩ φ₂) (i : (⟨2, ![m, p]⟩ : Shape).Idx) :
    Host.dotGeneral (D2 wf) none A B i = ∑ k : Fin n, A (ix2 (i 0) k) * B (ix2 k (i 1)) := by
  simp only [Host.dotGeneral]
  rw [Ideal.dotGeneral_apply, ← Equiv.sum_comp (contrEquiv1 (D2 wf) n rfl rfl).symm]
  refine Finset.sum_congr rfl fun k _ => ?_
  have hk := contrEquiv1_symm_val (D2 wf) n rfl rfl k
  have el : (D2 wf).lhsIdx i ((contrEquiv1 (D2 wf) n rfl rfl).symm k) = ix2 (i 0) k := funext fun a => Fin.ext (by
    match a with
    | ⟨0, _⟩ => exact lhs_0 wf _ _
    | ⟨1, _⟩ => exact (lhs_1 wf _ _).trans hk)
  have er : (D2 wf).rhsIdx i ((contrEquiv1 (D2 wf) n rfl rfl).symm k) = ix2 k (i 1) := funext fun a => Fin.ext (by
    match a with
    | ⟨0, _⟩ => exact (rhs_0 wf _ _).trans hk
    | ⟨1, _⟩ => exact rhs_1 wf _ _)
  exact congrArg₂ (· * ·) (congrArg A el) (congrArg B er)

/-- A plain matrix product's dimension numbers, whatever record holds them: the product at an index is the sum over the
    shared axis. -/
theorem dot2_apply {φ₁ φ₂ : FTy} (d : DotDims ⟨2, ![m, n]⟩ ⟨2, ![n, p]⟩ ⟨2, ![m, p]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![m, n]⟩ φ₁) (B : FVec Ideal ⟨2, ![n, p]⟩ φ₂) (i : (⟨2, ![m, p]⟩ : Shape).Idx) :
    Host.dotGeneral d none A B i = ∑ k : Fin n, A (ix2 (i 0) k) * B (ix2 k (i 1)) := by
  obtain ⟨lc, rc, ln, rn, lb, rb, wf⟩ := d
  simp only at hlc hrc hln hrn hlb hrb
  subst hlc hrc hln hrn hlb hrb
  exact D2_apply wf A B i

end Dot

/-! ## Layout operations at an index; an index's normalisation; the two gathers -/

section Layout
variable {α : Type}

/-- A vector made a one-row matrix and the row repeated: at (r, c) the vector at c. -/
theorem bcastRow_apply {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (i : (⟨2, ![m, n]⟩ : Shape).Idx) :
    broadcastInDim ⟨2, ![m, n]⟩ ![0, 1] h2 (broadcastInDim ⟨2, ![1, n]⟩ ![1] h1 b) i = b (ix1 (i 1)) := by
  refine (broadcastInDim_apply ![0, 1] h2 _ i (ix2 (0 : Fin 1) (i 1)) fun a => ?_).trans
    (broadcastInDim_apply ![1] h1 b _ (ix1 (i 1)) fun a => ?_)
  · match a with
    | ⟨0, _⟩ => rfl
    | ⟨1, _⟩ =>
      show (i 1).val = if n = 1 then 0 else (i 1).val
      split_ifs with h
      · have hlt : (i 1).val < n := (i 1).isLt
        omega
      · rfl
  · match a with
    | ⟨0, _⟩ =>
      show (i 1).val = if n = 1 then 0 else (i 1).val
      split_ifs with h
      · have hlt : (i 1).val < n := (i 1).isLt
        omega
      · rfl

/-- A vector made a one-column matrix: at (r, 0) the vector at r. -/
theorem bcastCol_apply {m : Nat} (h : (⟨1, ![m]⟩ : Shape).BroadcastsInDim ⟨2, ![m, 1]⟩ ![0])
    (d : (⟨1, ![m]⟩ : Shape).Idx → α) (j : (⟨2, ![m, 1]⟩ : Shape).Idx) :
    broadcastInDim ⟨2, ![m, 1]⟩ ![0] h d j = d (ix1 (j 0)) := by
  refine broadcastInDim_apply ![0] h d j (ix1 (j 0)) fun a => ?_
  match a with
  | ⟨0, _⟩ =>
    show (j 0).val = if m = 1 then 0 else (j 0).val
    split_ifs with h
    · have hlt : (j 0).val < m := (j 0).isLt
      omega
    · rfl

/-- A one-column matrix repeated along the rows: at (r, c) the column at r. -/
theorem bcastColRow_apply {m p : Nat} (h : (⟨2, ![m, 1]⟩ : Shape).BroadcastsInDim ⟨2, ![m, p]⟩ ![0, 1])
    (c : (⟨2, ![m, 1]⟩ : Shape).Idx → α) (j : (⟨2, ![m, p]⟩ : Shape).Idx) :
    broadcastInDim ⟨2, ![m, p]⟩ ![0, 1] h c j = c (ix2 (j 0) (0 : Fin 1)) := by
  refine broadcastInDim_apply ![0, 1] h c j (ix2 (j 0) (0 : Fin 1)) fun a => ?_
  match a with
  | ⟨0, _⟩ =>
    show (j 0).val = if m = 1 then 0 else (j 0).val
    split_ifs with h
    · have hlt : (j 0).val < m := (j 0).isLt
      omega
    · rfl
  | ⟨1, _⟩ => rfl

/-- A one-column matrix read as a vector: at r the column at (r, 0). -/
theorem colVec_apply {m : Nat} (x : (⟨2, ![m, 1]⟩ : Shape).Idx → α) (h : (⟨2, ![m, 1]⟩ : Shape).ShapeCasts ⟨1, ![m]⟩)
    (j : (⟨1, ![m]⟩ : Shape).Idx) : shapeCast ⟨1, ![m]⟩ x h j = x (ix2 (j 0) (0 : Fin 1)) :=
  shapeCast_apply x h _ _ (by
    rw [Shape.rowMajor_val_two, Shape.rowMajor_val_one]
    show (j 0).val * 1 + 0 = (j 0).val
    omega)

/-- Row r of a matrix as a vector. -/
theorem rowVec_apply {R m : Nat} (r : Nat) (hr : r < R) (x : (⟨2, ![R, m]⟩ : Shape).Idx → α)
    (hs : (⟨2, ![R, m]⟩ : Shape).Slices ![r, 0] ⟨2, ![1, m]⟩) (hc : (⟨2, ![1, m]⟩ : Shape).ShapeCasts ⟨1, ![m]⟩)
    (j : (⟨1, ![m]⟩ : Shape).Idx) :
    shapeCast ⟨1, ![m]⟩ (extractStridedSlice ⟨2, ![1, m]⟩ ![r, 0] x hs) hc j = x (ix2 ⟨r, hr⟩ (j 0)) := by
  obtain ⟨a, rfl⟩ : ∃ a, j = ix1 a := ⟨j 0, eq_ix1 j⟩
  refine (shapeCast_1a_a_apply _ hc a).trans ?_
  exact slice2_axis0_apply r x hs (0 : Fin 1) a ⟨r, hr⟩ (Nat.add_zero r).symm

end Layout

section Norm

/-- An index in the table's range is not negative: its normalisation is itself. -/
theorem norm_of_nonneg (x c : BitVec 32) (h : 0 ≤ x.toInt) :
    Scalar.select (IntOp.cmpi .slt x 0#32) (IntOp.addi x c) x = x := by
  have hs : x.slt 0#32 = false := by
    rw [BitVec.slt_eq_decide]
    simpa using h
  show (if BitVec.ofBool (x.slt 0#32) = 1 then _ else _) = _
  rw [hs]
  rfl

end Norm

section Gather
variable {α : Type} {N R C w : Nat}

/-- x[idx] of a matrix x : [N, C] along its rows, idx : [R, 1]. -/
abbrev G2 (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the e-th index, read signed and clamped into [0, N − 1]. -/
theorem G2_op0 (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    ((G2 wf).operandIdx j idx 0).val = min (idx (ix2 (j 0) (0 : Fin 1))).toInt.toNat (N - 1) := by
  show (G2 wf).start j idx 0 + (G2 wf).batchCoord j 0 + (G2 wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (G2 wf).startIndexMap from List.mem_singleton.mpr rfl)]
  have hsi : (G2 wf).siIdx j ⟨List.idxOf (0 : Fin 2) (G2 wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the operand index is the result's column. -/
theorem G2_op1 (wf : GatherDims.WF ⟨2, ![N, C]⟩ ⟨2, ![R, 1]⟩ ⟨2, ![R, C]⟩ [1] [0] [] [0] [] 1 ![1, C])
    (idx : IVec ⟨2, ![R, 1]⟩ w) (j : (⟨2, ![R, C]⟩ : Shape).Idx) :
    ((G2 wf).operandIdx j idx 1).val = (j 1).val := by
  show (G2 wf).start j idx 1 + (G2 wf).batchCoord j 1 + (G2 wf).offCoord j 1 = _
  have hst : (G2 wf).start j idx 1 = 0 := by
    unfold GatherDims.start
    rw [dif_neg (show ¬(1 : Fin 2) ∈ (G2 wf).startIndexMap from
      fun h => absurd (List.mem_singleton.mp h) (show ¬(1 : Fin 2) = 0 by decide))]
  have hoff : (G2 wf).offCoord j 1 = (j 1).val := by
    unfold GatherDims.offCoord
    rw [dif_pos (show (1 : Fin 2) ∈ (G2 wf).sKept from
      (GatherDims.mem_sKept _ _).mpr ⟨fun h => absurd (List.mem_singleton.mp h) (show ¬(1 : Fin 2) = 0 by decide),
        List.not_mem_nil⟩)]
    rfl
  rw [hst, hoff, GatherDims.batchCoord_eq_zero _ _ _ List.not_mem_nil]
  omega

/-- Row e of the result is the operand's row at the e-th index, read signed and clamped into [0, N − 1]. -/
theorem G2_apply (hN : 0 < N) (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (G2 wf) x idx j
      = x (ix2 ⟨min (idx (ix2 (j 0) (0 : Fin 1))).toInt.toNat (N - 1), by omega⟩ (j 1)) := by
  unfold Host.gather
  congr 1
  funext a
  refine Fin.ext ?_
  match a with
  | ⟨0, _⟩ => exact G2_op0 wf idx j
  | ⟨1, _⟩ => exact G2_op1 wf idx j

/-- x[idx] of a vector x : [N], idx : [R, 1]. -/
abbrev G1 (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the result is the operand at the e-th index, read signed and clamped into [0, N − 1]. -/
theorem G1_apply (hN : 0 < N) (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (G1 wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (G1 wf).start j idx 0 + (G1 wf).batchCoord j 0 + (G1 wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (G1 wf).startIndexMap from List.mem_singleton.mpr rfl)]
  have hsi : (G1 wf).siIdx j ⟨List.idxOf (0 : Fin 1) (G1 wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

end Gather

/-! ## The concatenated pair, and a contraction over it -/

section Pack
variable {m : Nat}

/-- Two 128-column matrices concatenated along the columns: the specification's side-by-side pair. -/
theorem concat_pair_apply {α : Type} (P Q : (⟨2, ![m, 128]⟩ : Shape).Idx → α)
    (h : Shape.Concatenates [(⟨2, ![m, 128]⟩ : Shape), ⟨2, ![m, 128]⟩] ⟨2, ![m, 256]⟩ 1) (i : (⟨2, ![m, 256]⟩ : Shape).Idx) :
    concatenate ⟨2, ![m, 256]⟩ 1 [⟨⟨2, ![m, 128]⟩, P⟩, ⟨⟨2, ![m, 128]⟩, Q⟩] h i
      = if hlt : (i 1).val < 128 then P (ix2 (i 0) ⟨(i 1).val, hlt⟩)
        else Q (ix2 (i 0) ⟨(i 1).val - 128, by have := idx2_lt1 i; omega⟩) := by
  by_cases hlt : (i 1).val < 128
  · rw [dif_pos hlt]
    refine concatenate_pair_apply_left (1 : Fin 2) P Q h i rfl _ (fun b => ?_)
    match b with
    | ⟨0, _⟩ => rfl
    | ⟨1, _⟩ => rfl
  · rw [dif_neg hlt]
    refine concatenate_pair_apply_right (1 : Fin 2) P Q h i rfl rfl _ (fun b hb => ?_) ?_
    · match b with
      | ⟨0, _⟩ => rfl
      | ⟨1, _⟩ => exact absurd rfl hb
    · show (i 1).val - 128 + 128 = (i 1).val
      omega

/-- A contraction over the 256 columns of a side-by-side pair is the sum of the contractions of its halves with the
    top and the bottom 128 rows of the weight. -/
theorem sum_pack (P Q : Cert.Spec.A2 m 128) (W : Cert.Spec.A2 256 32) (e : Fin m) (c : Fin 32) :
    ∑ k : Fin 256, Cert.Spec.pack P Q (ix2 e k) * W (ix2 k c)
      = (∑ k : Fin 128, P (ix2 e k) * Cert.Spec.rowsT W (ix2 k c))
        + ∑ k : Fin 128, Q (ix2 e k) * Cert.Spec.rowsB W (ix2 k c) := by
  refine (Fin.sum_univ_add (M := EReal) (a := 128) (b := 128)
    (fun k : Fin (128 + 128) => Cert.Spec.pack P Q (ix2 e k) * W (ix2 k c))).trans ?_
  refine congrArg₂ (· + ·) ?_ ?_
  · refine Finset.sum_congr rfl fun k _ => ?_
    have hp : Cert.Spec.pack P Q (ix2 e (Fin.castAdd 128 k)) = P (ix2 e k) := by
      unfold Cert.Spec.pack
      rw [dif_pos (show ((ix2 e (Fin.castAdd 128 k) : (⟨2, ![m, 256]⟩ : Shape).Idx) 1).val < 128 from k.isLt)]
      rfl
    rw [hp]
    rfl
  · refine Finset.sum_congr rfl fun k _ => ?_
    have hp : Cert.Spec.pack P Q (ix2 e (Fin.natAdd 128 k)) = Q (ix2 e k) := by
      unfold Cert.Spec.pack
      rw [dif_neg (show ¬((ix2 e (Fin.natAdd 128 k) : (⟨2, ![m, 256]⟩ : Shape).Idx) 1).val < 128 from
        Nat.not_lt.2 (Nat.le_add_right 128 k.val))]
      refine congrArg Q (congrArg (ix2 e) (Fin.ext ?_))
      show 128 + k.val - 128 = k.val
      omega
    rw [hp]
    rfl

end Pack

/-! ## The reference's stages are the specification's -/

section Stages
open Cert.Spec (InRange)

/-! ### The dense products, at an index -/

theorem dotEnc_apply (A : FVec Ideal S50000x256 .f32) (B : FVec Ideal S256x128 .f32) (i : S50000x128.Idx) :
    Host.dotGeneral dot_S50000x256_S256x128_S50000x128_1_0_0_1_n_n none A B i
      = ∑ k : Fin 256, A (ix2 (i 0) k) * B (ix2 k (i 1)) :=
  dot2_apply dot_S50000x256_S256x128_S50000x128_1_0_0_1_n_n rfl rfl rfl rfl rfl rfl A B i

theorem dotPair_apply (A : FVec Ideal S800000x256 .f32) (B : FVec Ideal S256x32 .f32) (i : S800000x32.Idx) :
    Host.dotGeneral dot_S800000x256_S256x32_S800000x32_1_0_0_1_n_n none A B i
      = ∑ k : Fin 256, A (ix2 (i 0) k) * B (ix2 k (i 1)) :=
  dot2_apply dot_S800000x256_S256x32_S800000x32_1_0_0_1_n_n rfl rfl rfl rfl rfl rfl A B i

theorem dotHid_apply (A : FVec Ideal S800000x32 .f32) (B : FVec Ideal S32x1 .f32) (i : S800000x1.Idx) :
    Host.dotGeneral dot_S800000x32_S32x1_S800000x1_1_0_0_1_n_n none A B i
      = ∑ k : Fin 32, A (ix2 (i 0) k) * B (ix2 k (i 1)) :=
  dot2_apply dot_S800000x32_S32x1_S800000x1_1_0_0_1_n_n rfl rfl rfl rfl rfl rfl A B i

theorem dotNode_apply (A : FVec Ideal S50000x128 .f32) (B : FVec Ideal S128x128 .f32) (i : S50000x128.Idx) :
    Host.dotGeneral dot_S50000x128_S128x128_S50000x128_1_0_0_1_n_n none A B i
      = ∑ k : Fin 128, A (ix2 (i 0) k) * B (ix2 k (i 1)) :=
  dot2_apply dot_S50000x128_S128x128_S50000x128_1_0_0_1_n_n rfl rfl rfl rfl rfl rfl A B i

/-- S · W_node is the specification's product. -/
theorem dotNode_eq (S : FVec Ideal S50000x128 .f32) (W : FVec Ideal S128x128 .f32) :
    Host.dotGeneral dot_S50000x128_S128x128_S50000x128_1_0_0_1_n_n none S W = Cert.Spec.mm S W :=
  funext fun i => dotNode_apply S W i

/-! ### The pointwise pieces, at an index -/

theorem leakyR_apply (x : FVec Ideal S800000x32 .f32) (i : S800000x32.Idx) : leakyR x i = Cert.Spec.leaky (x i) := rfl
theorem clipR_apply (x : FVec Ideal S800000 .f32) (i : S800000.Idx) : clipR x i = Cert.Spec.clip (x i) := rfl
theorem hostExp_apply {s : Shape} (x : FVec Ideal s .f32) (i : s.Idx) : Host.exp x i = Ideal.exp (x i) := rfl

/-! ### The edge table's rows, and the gathers -/

variable (a1 : IVec S2x800000 32)

theorem srcV_apply (j : S800000.Idx) : srcV a1 j = a1 (ix2 (0 : Fin 2) (j 0)) :=
  rowVec_apply 0 (by decide) a1 slices_S2x800000_S1x800000_0_0 shapeCasts_S1x800000_S800000 j
theorem dstV_apply (j : S800000.Idx) : dstV a1 j = a1 (ix2 (1 : Fin 2) (j 0)) :=
  rowVec_apply 1 (by decide) a1 slices_S2x800000_S1x800000_1_0 shapeCasts_S1x800000_S800000 j

theorem srcV_nonneg (h : InRange a1) (i : S800000.Idx) : 0 ≤ (srcV a1 i).toInt := by
  rw [srcV_apply]; exact (h _).1
theorem dstV_nonneg (h : InRange a1) (i : S800000.Idx) : 0 ≤ (dstV a1 i).toInt := by
  rw [dstV_apply]; exact (h _).1

/-- Indices that are not negative are their own normalisation. -/
theorem normIdx_eq (d : IVec S800000 32) (h : ∀ i, 0 ≤ (d i).toInt) : normIdx d = d :=
  funext fun i => norm_of_nonneg (d i) 50000#32 (h i)

theorem idxCol_apply (d : IVec S800000 32) (j : S800000x1.Idx) : idxCol d j = d (ix1 (j 0)) :=
  bcastCol_apply bcast_S800000_S800000x1_0 d j

/-- The index columns the two scatter-adds take. -/
theorem idxCol_src : idxCol (srcV a1) = Cert.Spec.srcIx a1 :=
  funext fun j => (idxCol_apply (srcV a1) j).trans (srcV_apply a1 _)
theorem idxCol_dst : idxCol (dstV a1) = Cert.Spec.dstIx a1 :=
  funext fun j => (idxCol_apply (dstV a1) j).trans (dstV_apply a1 _)

/-- The rows of a node table at indices that are not negative: each index read signed and clamped into the table. -/
theorem rowsAt_apply (T : FVec Ideal S50000x128 .f32) (d : IVec S800000 32) (hd : ∀ i, 0 ≤ (d i).toInt)
    (j : S800000x128.Idx) :
    rowsAt T d j = T (ix2 ⟨min (d (ix1 (j 0))).toInt.toNat 49999, by omega⟩ (j 1)) := by
  unfold rowsAt
  rw [normIdx_eq d hd]
  refine (G2_apply (by decide) gather_S50000x128_S800000x1_S800000x128_1_0_n_n_0_1_1128_wf T (idxCol d) j).trans ?_
  refine congrArg T (congrArg (fun r => ix2 r (j 1)) (Fin.ext ?_))
  exact congrArg (fun v : BitVec 32 => min v.toInt.toNat 49999) (idxCol_apply d _)

theorem rowsAt_src (T : FVec Ideal S50000x128 .f32) (h : InRange a1) :
    rowsAt T (srcV a1) = Cert.Spec.gatherRows T a1 0 := by
  funext j
  rw [rowsAt_apply T (srcV a1) (srcV_nonneg a1 h) j]
  refine congrArg T (congrArg (fun r => ix2 r (j 1)) (Fin.ext ?_))
  exact congrArg (fun v : BitVec 32 => min v.toInt.toNat 49999) (srcV_apply a1 _)
theorem rowsAt_dst (T : FVec Ideal S50000x128 .f32) (h : InRange a1) :
    rowsAt T (dstV a1) = Cert.Spec.gatherRows T a1 1 := by
  funext j
  rw [rowsAt_apply T (dstV a1) (dstV_nonneg a1 h) j]
  refine congrArg T (congrArg (fun r => ix2 r (j 1)) (Fin.ext ?_))
  exact congrArg (fun v : BitVec 32 => min v.toInt.toNat 49999) (dstV_apply a1 _)

/-! ### The encoder -/

theorem encS_eq (a0 : FVec Ideal S50000x256 .f32) (a2 : FVec Ideal S256x128 .f32) (a3 : FVec Ideal S128 .f32) :
    encS a0 a2 a3 = Cert.Spec.encB a0 a2 (Cert.Spec.bRow a3) := by
  funext i
  unfold encS
  rw [maximumf_apply, addf_apply, dotEnc_apply, bcastRow_apply]
  rfl

/-! ### The attention logit -/

theorem pairR_eq (S : FVec Ideal S50000x128 .f32) (h : InRange a1) :
    pairR S a1 = Cert.Spec.pack (Cert.Spec.gatherRows S a1 0) (Cert.Spec.gatherRows S a1 1) := by
  unfold pairR
  rw [rowsAt_src a1 S h, rowsAt_dst a1 S h]
  funext i
  exact concat_pair_apply _ _ _ i

theorem hidR_eq (S : FVec Ideal S50000x128 .f32) (h : InRange a1) (a6 : FVec Ideal S256x32 .f32)
    (a7 : FVec Ideal S32 .f32) :
    hidR S a1 a6 a7 = Cert.Spec.hidB (Cert.Spec.gatherRows S a1 0) (Cert.Spec.gatherRows S a1 1)
      (Cert.Spec.rowsT a6) (Cert.Spec.rowsB a6) (Cert.Spec.bRow a7) := by
  funext i
  unfold hidR
  rw [leakyR_apply, addf_apply, dotPair_apply, bcastRow_apply, pairR_eq a1 S h]
  exact congrArg (fun v => Cert.Spec.leaky (v + a7 (ix1 (i 1))))
    (sum_pack (Cert.Spec.gatherRows S a1 0) (Cert.Spec.gatherRows S a1 1) a6 (i 0) (i 1))

theorem exR_eq (S : FVec Ideal S50000x128 .f32) (h : InRange a1) (a6 : FVec Ideal S256x32 .f32)
    (a7 : FVec Ideal S32 .f32) (a8 : FVec Ideal S32x1 .f32) (a9 : FVec Ideal S1 .f32) :
    exR S a1 a6 a7 a8 a9 = Cert.Spec.flat (Cert.Spec.exCol a1 a6 a7 a8 a9 S) := by
  funext j
  unfold exR
  rw [hostExp_apply, clipR_apply]
  unfold rawR
  rw [colVec_apply, addf_apply, dotHid_apply, bcastRow_apply, hidR_eq a1 S h]
  rfl

/-! ### The normaliser and the attention weights -/

theorem sumExpR_eq (ex : FVec Ideal S800000 .f32) : sumExpR ex a1 = Cert.Spec.sumExp ex a1 := by
  unfold sumExpR Cert.Spec.sumExp
  rw [idxCol_src]
  rfl

/-- The normaliser gathered at every edge's source. -/
theorem seG_eq (ex : FVec Ideal S800000 .f32) (h : InRange a1) :
    Host.gather gather_S50000_S800000x1_S800000_n_0_n_n_0_1_1 (sumExpR ex a1) (idxCol (normIdx (srcV a1)))
      = Cert.Spec.seSrc a1 ex := by
  funext i
  rw [normIdx_eq _ (srcV_nonneg a1 h), idxCol_src, sumExpR_eq]
  exact G1_apply (by decide) gather_S50000_S800000x1_S800000_n_0_n_n_0_1_1_wf (Cert.Spec.sumExp ex a1)
    (Cert.Spec.srcIx a1) i

theorem hostDivf_apply {s : Shape} (a b : FVec Ideal s .f32) (i : s.Idx) : Host.divf a b i = Ideal.div (a i) (b i) := rfl

theorem attnOfEx_eq (ex : FVec Ideal S800000 .f32) (h : InRange a1) : attnOfEx ex a1 = Cert.Spec.attnV a1 ex := by
  unfold attnOfEx
  rw [seG_eq a1 ex h]
  funext i
  rw [hostDivf_apply, addf_apply]
  exact congrArg (Ideal.div (ex i)) (congrArg (Cert.Spec.seSrc a1 ex i + ·) rfl)

theorem attnR_eq (S : FVec Ideal S50000x128 .f32) (h : InRange a1) (a6 : FVec Ideal S256x32 .f32)
    (a7 : FVec Ideal S32 .f32) (a8 : FVec Ideal S32x1 .f32) (a9 : FVec Ideal S1 .f32) :
    attnR S a1 a6 a7 a8 a9 = Cert.Spec.attnOf a1 a6 a7 a8 a9 S := by
  unfold attnR
  rw [exR_eq a1 S h, attnOfEx_eq a1 _ h]
  rfl

/-! ### The messages, the aggregation, the step -/

theorem msgR_eq (S : FVec Ideal S50000x128 .f32) (h : InRange a1) (a6 : FVec Ideal S256x32 .f32)
    (a7 : FVec Ideal S32 .f32) (a8 : FVec Ideal S32x1 .f32) (a9 : FVec Ideal S1 .f32) (a10 : FVec Ideal S128x128 .f32) :
    msgR S a1 a6 a7 a8 a9 a10 = Cert.Spec.msgOf a1 a6 a7 a8 a9 a10 S := by
  funext i
  unfold msgR
  rw [mulf_apply, bcastColRow_apply, bcastCol_apply, dotNode_eq, rowsAt_src a1 _ h, attnR_eq a1 S h]
  rfl

theorem aggR_eq (msg : FVec Ideal S800000x128 .f32) : aggR msg a1 = Cert.Spec.aggOf msg a1 := by
  unfold aggR Cert.Spec.aggOf
  rw [idxCol_dst]
  rfl

theorem stepR_eq (S : FVec Ideal S50000x128 .f32) (h : InRange a1) (a6 : FVec Ideal S256x32 .f32)
    (a7 : FVec Ideal S32 .f32) (a8 : FVec Ideal S32x1 .f32) (a9 : FVec Ideal S1 .f32) (a10 : FVec Ideal S128x128 .f32) :
    stepR S a1 a6 a7 a8 a9 a10 = Cert.Spec.step a1 a6 a7 a8 a9 a10 S := by
  unfold stepR
  rw [msgR_eq a1 S h, aggR_eq]
  rfl

/-! ### The output layer -/

theorem outL_eq (S : FVec Ideal S50000x128 .f32) (a4 : FVec Ideal S128x128 .f32) (a5 : FVec Ideal S128 .f32) :
    outL S a4 a5 = Cert.Spec.linB S a4 (Cert.Spec.bRow a5) := by
  funext i
  unfold outL
  rw [addf_apply, dotNode_apply, bcastRow_apply]
  rfl

end Stages

/-! ## The two results are the specification's -/

theorem out_eq (a0 : FVec Ideal S50000x256 .f32) (a1 : IVec S2x800000 32) (a2 : FVec Ideal S256x128 .f32) (a3 : FVec Ideal S128 .f32) (a4 : FVec Ideal S128x128 .f32) (a5 : FVec Ideal S128 .f32) (a6 : FVec Ideal S256x32 .f32) (a7 : FVec Ideal S32 .f32) (a8 : FVec Ideal S32x1 .f32) (a9 : FVec Ideal S1 .f32) (a10 : FVec Ideal S128x128 .f32) (h : Cert.Spec.InRange a1) : out a0 a1 a2 a3 a4 a5 a6 a7 a8 a9 a10 = Cert.Spec.result0 a0 a1 a2 a3 a4 a5 a6 a7 a8 a9 a10 := by
  unfold out Cert.Spec.result0
  rw [encS_eq, stepR_eq a1 _ h, stepR_eq a1 _ h, outL_eq]

theorem attn_eq (a0 : FVec Ideal S50000x256 .f32) (a1 : IVec S2x800000 32) (a2 : FVec Ideal S256x128 .f32) (a3 : FVec Ideal S128 .f32) (a4 : FVec Ideal S128x128 .f32) (a5 : FVec Ideal S128 .f32) (a6 : FVec Ideal S256x32 .f32) (a7 : FVec Ideal S32 .f32) (a8 : FVec Ideal S32x1 .f32) (a9 : FVec Ideal S1 .f32) (a10 : FVec Ideal S128x128 .f32) (h : Cert.Spec.InRange a1) : attn a0 a1 a2 a3 a4 a5 a6 a7 a8 a9 a10 = Cert.Spec.result1 a0 a1 a2 a3 a6 a7 a8 a9 a10 := by
  unfold attn Cert.Spec.result1
  rw [encS_eq, stepR_eq a1 _ h, attnR_eq a1 _ h]

end Cert.ReferenceIdeal.Term

end
-- ==== Proof.RefRun.lean ====
import proofs.«415169_j41790031790248_2_alg».proof.ReferenceIdeal
import proofs.«415169_j41790031790248_2_alg».proof.Proof.Gen.ReferenceIdeal
import proofs.«415169_j41790031790248_2_alg».proof.Proof.Spec
import proofs.«415169_j41790031790248_2_alg».proof.Proof.RefTerm
import Idealize.ShloMosaic.Lib.StableHlo.Run
import Idealize.ShloMosaic.Lib.Pipeline.Frame

noncomputable section

namespace Cert.ReferenceIdeal.Val

open Cert.ReferenceIdeal Cert.ReferenceIdeal.Gen
open Idealize.ShloMosaic Idealize.ShloMosaic.TcCoe Idealize.SL.Sem Idealize.ShloMosaic.StableHlo

/-! ## The reference as one straight line

@main's 154 statements are 177 host operations once its five calls are unfolded at their call sites (relu: the zero,
its broadcast, the maximum; leaky_relu: the zero, its broadcast, the comparison, the slope converted and broadcast,
the product, and the select of the function it calls in turn; clip: each bound converted and broadcast, the maximum,
the minimum), each call over its own record of buffers. The line is cut into five consecutive stretches, a cut before
each of the two concatenations and at the two boundaries between @main's printed windows:
the encoder and the first step's two gathers; the first step's attention weights; the first step's update and the second
step's two gathers; the second step's exponentials and their sums per source node; the second step's attention weights,
its update and the output layer. -/

section Line

variable {F : FTy → Type} [FloatOps F]

/-- The edge table's two rows as vectors, the encoder relu (X · W_lin + b_lin), and its rows gathered at the edges' sources and destinations (29 operations). -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v7 : TRef sig ⟨S50000x128, .f32⟩) main_call0.v0 main_call0.v1 maximumf,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v3 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v3 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v3 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v8 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The first step from the gathered pair to its attention weights: the pair side by side, the attention MLP, the clip, the exponential, the sums per source node, the quotient (44 operations). -/
abbrev opsB : List (HloOp τ sig (Elt F)) :=
  [ binary main_v15 main_v22 main_v23 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v23 main_arg6 main_v24 ((fun l r => Host.dotGeneral dot_S800000x256_S256x32_S800000x32_1_0_0_1_n_n none l r) : (⟨S800000x256, .f32⟩ : BufTy).Contents (Elt F) → (⟨S256x32, .f32⟩ : BufTy).Contents (Elt F) → (⟨S800000x32, .f32⟩ : BufTy).Contents (Elt F)),
    unary main_arg7 main_v25 (broadcastInDim S1x32 ![1] bcast_S32_S1x32_1 : (⟨S32, .f32⟩ : BufTy).Contents (Elt F) → (⟨S1x32, .f32⟩ : BufTy).Contents (Elt F)),
    unary main_v25 main_v26 (broadcastInDim S800000x32 ![0, 1] bcast_S1x32_S800000x32_0_1 : (⟨S1x32, .f32⟩ : BufTy).Contents (Elt F) → (⟨S800000x32, .f32⟩ : BufTy).Contents (Elt F)),
    binary main_v24 main_v26 main_v27 (addf : (⟨S800000x32, .f32⟩ : BufTy).Contents (Elt F) → (⟨S800000x32, .f32⟩ : BufTy).Contents (Elt F) → (⟨S800000x32, .f32⟩ : BufTy).Contents (Elt F)),
    nullary main_cst (constant S_ .f32 0x3E4CCCCD#32),
    TRef.nullary main_call1.cst (constant S_ .f32 0x00000000#32),
    TRef.unary main_call1.cst main_call1.v0 (broadcastInDim S800000x32 ![] bcast_S_S800000x32),
    TRef.binary (.of main_v27 : TRef sig ⟨S800000x32, .f32⟩) main_call1.v0 main_call1.v1 (cmpf .oge),
    TRef.unary (.of main_cst : TRef sig ⟨S_, .f32⟩) main_call1.v2 id,
    TRef.unary main_call1.v2 main_call1.v3 (broadcastInDim S800000x32 ![] bcast_S_S800000x32),
    TRef.binary main_call1.v3 (.of main_v27 : TRef sig ⟨S800000x32, .f32⟩) main_call1.v4 mulf,
    TRef.ternary main_call1.v1 (.of main_v27 : TRef sig ⟨S800000x32, .f32⟩) main_call1.v4 main_call1.call0.v0 select,
    binary main_v28 main_arg8 main_v29 ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)),
    unary main_arg9 main_v30 (broadcastInDim S1x1 ![1] bcast_S1_S1x1_1 : (⟨S1, .f32⟩ : BufTy).Contents (Elt F) → (⟨S1x1, .f32⟩ : BufTy).Contents (Elt F)),
    unary main_v30 main_v31 (broadcastInDim S800000x1 ![0, 1] bcast_S1x1_S800000x1_0_1 : (⟨S1x1, .f32⟩ : BufTy).Contents (Elt F) → (⟨S800000x1, .f32⟩ : BufTy).Contents (Elt F)),
    binary main_v29 main_v31 main_v32 (addf : (⟨S800000x1, .f32⟩ : BufTy).Contents (Elt F) → (⟨S800000x1, .f32⟩ : BufTy).Contents (Elt F) → (⟨S800000x1, .f32⟩ : BufTy).Contents (Elt F)),
    reshape main_v32 main_v33 rfl shapeCasts_S800000x1_S800000,
    nullary main_cst_3 (constant S_ .f32 0xC1A00000#32),
    nullary main_cst_4 (constant S_ .f32 0x41200000#32),
    TRef.unary (.of main_cst_3 : TRef sig ⟨S_, .f32⟩) main_call2.v0 id,
    TRef.unary main_call2.v0 main_call2.v1 (broadcastInDim S800000 ![] bcast_S_S800000),
    TRef.binary main_call2.v1 (.of main_v33 : TRef sig ⟨S800000, .f32⟩) main_call2.v2 maximumf,
    TRef.unary (.of main_cst_4 : TRef sig ⟨S_, .f32⟩) main_call2.v3 id,
    TRef.unary main_call2.v3 main_call2.v4 (broadcastInDim S800000 ![] bcast_S_S800000),
    TRef.binary main_call2.v4 main_call2.v2 main_call2.v5 minimumf,
    unary main_v34 main_v35 (Host.exp : (⟨S800000, .f32⟩ : BufTy).Contents (Elt F) → (⟨S800000, .f32⟩ : BufTy).Contents (Elt F)),
    nullary main_cst_5 (constant S_ .f32 0x00000000#32),
    unary main_cst_5 main_v36 (broadcastInDim S50000 ![] bcast_S_S50000 : (⟨S_, .f32⟩ : BufTy).Contents (Elt F) → (⟨S50000, .f32⟩ : BufTy).Contents (Elt F)),
    unary main_v1 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_c_6 (constantI S_ 32 0#32),
    unary main_c_6 main_v39 (broadcastInDim S800000 ![] bcast_S_S800000 : (⟨S_, .i32⟩ : BufTy).Contents (Elt F) → (⟨S800000, .i32⟩ : BufTy).Contents (Elt F)),
    binary main_v1 main_v39 main_v40 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v41 (broadcastInDim S800000 ![] bcast_S_S800000 : (⟨S_, .i32⟩ : BufTy).Contents (Elt F) → (⟨S800000, .i32⟩ : BufTy).Contents (Elt F)),
    binary main_v1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_cst_8 (constant S_ .f32 0x3089705F#32),
    unary main_cst_8 main_v46 (broadcastInDim S800000 ![] bcast_S_S800000 : (⟨S_, .f32⟩ : BufTy).Contents (Elt F) → (⟨S800000, .f32⟩ : BufTy).Contents (Elt F)),
    binary main_v45 main_v46 main_v47 (addf : (⟨S800000, .f32⟩ : BufTy).Contents (Elt F) → (⟨S800000, .f32⟩ : BufTy).Contents (Elt F) → (⟨S800000, .f32⟩ : BufTy).Contents (Elt F)),
    binary main_v35 main_v47 main_v48 (Host.divf : (⟨S800000, .f32⟩ : BufTy).Contents (Elt F) → (⟨S800000, .f32⟩ : BufTy).Contents (Elt F) → (⟨S800000, .f32⟩ : BufTy).Contents (Elt F)) ]

/-- The first step's messages, their sums per destination node and the update tanh (S + agg); then the new states gathered at the edges' sources and destinations (37 operations). -/
abbrev opsC : List (HloOp τ sig (Elt F)) :=
  [ binary main_v8 main_arg10 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v50 (broadcastInDim S800000 ![] bcast_S_S800000 : (⟨S_, .i32⟩ : BufTy).Contents (Elt F) → (⟨S800000, .i32⟩ : BufTy).Contents (Elt F)),
    binary main_v1 main_v50 main_v51 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v52 (broadcastInDim S800000 ![] bcast_S_S800000 : (⟨S_, .i32⟩ : BufTy).Contents (Elt F) → (⟨S800000, .i32⟩ : BufTy).Contents (Elt F)),
    binary main_v1 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v49 main_v55 main_v56 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v48 main_v57 (broadcastInDim S800000x1 ![0] bcast_S800000_S800000x1_0 : (⟨S800000, .f32⟩ : BufTy).Contents (Elt F) → (⟨S800000x1, .f32⟩ : BufTy).Contents (Elt F)),
    unary main_v57 main_v58 (broadcastInDim S800000x128 ![0, 1] bcast_S800000x1_S800000x128_0_1 : (⟨S800000x1, .f32⟩ : BufTy).Contents (Elt F) → (⟨S800000x128, .f32⟩ : BufTy).Contents (Elt F)),
    binary main_v56 main_v58 main_v59 (mulf : (⟨S800000x128, .f32⟩ : BufTy).Contents (Elt F) → (⟨S800000x128, .f32⟩ : BufTy).Contents (Elt F) → (⟨S800000x128, .f32⟩ : BufTy).Contents (Elt F)),
    nullary main_cst_11 (constant S_ .f32 0x00000000#32),
    unary main_cst_11 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v8 main_v62 main_v63 (addf : (⟨S50000x128, .f32⟩ : BufTy).Contents (Elt F) → (⟨S50000x128, .f32⟩ : BufTy).Contents (Elt F) → (⟨S50000x128, .f32⟩ : BufTy).Contents (Elt F)),
    unary main_v63 main_v64 (Host.tanh : (⟨S50000x128, .f32⟩ : BufTy).Contents (Elt F) → (⟨S50000x128, .f32⟩ : BufTy).Contents (Elt F)),
    nullary main_c_12 (constantI S_ 32 0#32),
    unary main_c_12 main_v65 (broadcastInDim S800000 ![] bcast_S_S800000 : (⟨S_, .i32⟩ : BufTy).Contents (Elt F) → (⟨S800000, .i32⟩ : BufTy).Contents (Elt F)),
    binary main_v1 main_v65 main_v66 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v67 (broadcastInDim S800000 ![] bcast_S_S800000 : (⟨S_, .i32⟩ : BufTy).Contents (Elt F) → (⟨S800000, .i32⟩ : BufTy).Contents (Elt F)),
    binary main_v1 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v64 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_14 (constantI S_ 32 0#32),
    unary main_c_14 main_v72 (broadcastInDim S800000 ![] bcast_S_S800000 : (⟨S_, .i32⟩ : BufTy).Contents (Elt F) → (⟨S800000, .i32⟩ : BufTy).Contents (Elt F)),
    binary main_v3 main_v72 main_v73 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v74 (broadcastInDim S800000 ![] bcast_S_S800000 : (⟨S_, .i32⟩ : BufTy).Contents (Elt F) → (⟨S800000, .i32⟩ : BufTy).Contents (Elt F)),
    binary main_v3 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v3 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v64 main_v77 main_v78 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The second step from the gathered pair to the sums of its exponentials per source node, and the sign test of the source indices that the next stretch selects by (34 operations). -/
abbrev opsD : List (HloOp τ sig (Elt F)) :=
  [ binary main_v71 main_v78 main_v79 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v79 main_arg6 main_v80 ((fun l r => Host.dotGeneral dot_S800000x256_S256x32_S800000x32_1_0_0_1_n_n none l r) : (⟨S800000x256, .f32⟩ : BufTy).Contents (Elt F) → (⟨S256x32, .f32⟩ : BufTy).Contents (Elt F) → (⟨S800000x32, .f32⟩ : BufTy).Contents (Elt F)),
    unary main_arg7 main_v81 (broadcastInDim S1x32 ![1] bcast_S32_S1x32_1 : (⟨S32, .f32⟩ : BufTy).Contents (Elt F) → (⟨S1x32, .f32⟩ : BufTy).Contents (Elt F)),
    unary main_v81 main_v82 (broadcastInDim S800000x32 ![0, 1] bcast_S1x32_S800000x32_0_1 : (⟨S1x32, .f32⟩ : BufTy).Contents (Elt F) → (⟨S800000x32, .f32⟩ : BufTy).Contents (Elt F)),
    binary main_v80 main_v82 main_v83 (addf : (⟨S800000x32, .f32⟩ : BufTy).Contents (Elt F) → (⟨S800000x32, .f32⟩ : BufTy).Contents (Elt F) → (⟨S800000x32, .f32⟩ : BufTy).Contents (Elt F)),
    nullary main_cst_16 (constant S_ .f32 0x3E4CCCCD#32),
    TRef.nullary main_call3.cst (constant S_ .f32 0x00000000#32),
    TRef.unary main_call3.cst main_call3.v0 (broadcastInDim S800000x32 ![] bcast_S_S800000x32),
    TRef.binary (.of main_v83 : TRef sig ⟨S800000x32, .f32⟩) main_call3.v0 main_call3.v1 (cmpf .oge),
    TRef.unary (.of main_cst_16 : TRef sig ⟨S_, .f32⟩) main_call3.v2 id,
    TRef.unary main_call3.v2 main_call3.v3 (broadcastInDim S800000x32 ![] bcast_S_S800000x32),
    TRef.binary main_call3.v3 (.of main_v83 : TRef sig ⟨S800000x32, .f32⟩) main_call3.v4 mulf,
    TRef.ternary main_call3.v1 (.of main_v83 : TRef sig ⟨S800000x32, .f32⟩) main_call3.v4 main_call3.call0.v0 select,
    binary main_v84 main_arg8 main_v85 ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)),
    unary main_arg9 main_v86 (broadcastInDim S1x1 ![1] bcast_S1_S1x1_1 : (⟨S1, .f32⟩ : BufTy).Contents (Elt F) → (⟨S1x1, .f32⟩ : BufTy).Contents (Elt F)),
    unary main_v86 main_v87 (broadcastInDim S800000x1 ![0, 1] bcast_S1x1_S800000x1_0_1 : (⟨S1x1, .f32⟩ : BufTy).Contents (Elt F) → (⟨S800000x1, .f32⟩ : BufTy).Contents (Elt F)),
    binary main_v85 main_v87 main_v88 (addf : (⟨S800000x1, .f32⟩ : BufTy).Contents (Elt F) → (⟨S800000x1, .f32⟩ : BufTy).Contents (Elt F) → (⟨S800000x1, .f32⟩ : BufTy).Contents (Elt F)),
    reshape main_v88 main_v89 rfl shapeCasts_S800000x1_S800000,
    nullary main_cst_17 (constant S_ .f32 0xC1A00000#32),
    nullary main_cst_18 (constant S_ .f32 0x41200000#32),
    TRef.unary (.of main_cst_17 : TRef sig ⟨S_, .f32⟩) main_call4.v0 id,
    TRef.unary main_call4.v0 main_call4.v1 (broadcastInDim S800000 ![] bcast_S_S800000),
    TRef.binary main_call4.v1 (.of main_v89 : TRef sig ⟨S800000, .f32⟩) main_call4.v2 maximumf,
    TRef.unary (.of main_cst_18 : TRef sig ⟨S_, .f32⟩) main_call4.v3 id,
    TRef.unary main_call4.v3 main_call4.v4 (broadcastInDim S800000 ![] bcast_S_S800000),
    TRef.binary main_call4.v4 main_call4.v2 main_call4.v5 minimumf,
    unary main_v90 main_v91 (Host.exp : (⟨S800000, .f32⟩ : BufTy).Contents (Elt F) → (⟨S800000, .f32⟩ : BufTy).Contents (Elt F)),
    nullary main_cst_19 (constant S_ .f32 0x00000000#32),
    unary main_cst_19 main_v92 (broadcastInDim S50000 ![] bcast_S_S50000 : (⟨S_, .f32⟩ : BufTy).Contents (Elt F) → (⟨S50000, .f32⟩ : BufTy).Contents (Elt F)),
    unary main_v1 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_c_20 (constantI S_ 32 0#32),
    unary main_c_20 main_v95 (broadcastInDim S800000 ![] bcast_S_S800000 : (⟨S_, .i32⟩ : BufTy).Contents (Elt F) → (⟨S800000, .i32⟩ : BufTy).Contents (Elt F)),
    binary main_v1 main_v95 main_v96 (cmpi .slt : (⟨S800000, .i32⟩ : BufTy).Contents (Elt F) → (⟨S800000, .i32⟩ : BufTy).Contents (Elt F) → (⟨S800000, .i1⟩ : BufTy).Contents (Elt F)) ]

/-- The second step's attention weights, its messages, their sums per destination node, the update, and the output layer (33 operations). -/
abbrev opsE : List (HloOp τ sig (Elt F)) :=
  [ nullary main_c_21 (constantI S_ 32 50000#32),
    unary main_c_21 main_v97 (broadcastInDim S800000 ![] bcast_S_S800000 : (⟨S_, .i32⟩ : BufTy).Contents (Elt F) → (⟨S800000, .i32⟩ : BufTy).Contents (Elt F)),
    binary main_v1 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v94 main_v100 main_v101 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_cst_22 (constant S_ .f32 0x3089705F#32),
    unary main_cst_22 main_v102 (broadcastInDim S800000 ![] bcast_S_S800000 : (⟨S_, .f32⟩ : BufTy).Contents (Elt F) → (⟨S800000, .f32⟩ : BufTy).Contents (Elt F)),
    binary main_v101 main_v102 main_v103 (addf : (⟨S800000, .f32⟩ : BufTy).Contents (Elt F) → (⟨S800000, .f32⟩ : BufTy).Contents (Elt F) → (⟨S800000, .f32⟩ : BufTy).Contents (Elt F)),
    binary main_v91 main_v103 main_v104 (Host.divf : (⟨S800000, .f32⟩ : BufTy).Contents (Elt F) → (⟨S800000, .f32⟩ : BufTy).Contents (Elt F) → (⟨S800000, .f32⟩ : BufTy).Contents (Elt F)),
    binary main_v64 main_arg10 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_23 (constantI S_ 32 0#32),
    unary main_c_23 main_v106 (broadcastInDim S800000 ![] bcast_S_S800000 : (⟨S_, .i32⟩ : BufTy).Contents (Elt F) → (⟨S800000, .i32⟩ : BufTy).Contents (Elt F)),
    binary main_v1 main_v106 main_v107 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v108 (broadcastInDim S800000 ![] bcast_S_S800000 : (⟨S_, .i32⟩ : BufTy).Contents (Elt F) → (⟨S800000, .i32⟩ : BufTy).Contents (Elt F)),
    binary main_v1 main_v108 main_v109 (addi : (⟨S800000, .i32⟩ : BufTy).Contents (Elt F) → (⟨S800000, .i32⟩ : BufTy).Contents (Elt F) → (⟨S800000, .i32⟩ : BufTy).Contents (Elt F)),
    ternary main_v107 main_v109 main_v1 main_v110 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v110 main_v111 (broadcastInDim S800000x1 ![0] bcast_S800000_S800000x1_0 : (⟨S800000, .i32⟩ : BufTy).Contents (Elt F) → (⟨S800000x1, .i32⟩ : BufTy).Contents (Elt F)),
    binary main_v105 main_v111 main_v112 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v104 main_v113 (broadcastInDim S800000x1 ![0] bcast_S800000_S800000x1_0 : (⟨S800000, .f32⟩ : BufTy).Contents (Elt F) → (⟨S800000x1, .f32⟩ : BufTy).Contents (Elt F)),
    unary main_v113 main_v114 (broadcastInDim S800000x128 ![0, 1] bcast_S800000x1_S800000x128_0_1 : (⟨S800000x1, .f32⟩ : BufTy).Contents (Elt F) → (⟨S800000x128, .f32⟩ : BufTy).Contents (Elt F)),
    binary main_v112 main_v114 main_v115 (mulf : (⟨S800000x128, .f32⟩ : BufTy).Contents (Elt F) → (⟨S800000x128, .f32⟩ : BufTy).Contents (Elt F) → (⟨S800000x128, .f32⟩ : BufTy).Contents (Elt F)),
    nullary main_cst_25 (constant S_ .f32 0x00000000#32),
    unary main_cst_25 main_v116 (broadcastInDim S50000x128 ![] bcast_S_S50000x128 : (⟨S_, .f32⟩ : BufTy).Contents (Elt F) → (⟨S50000x128, .f32⟩ : BufTy).Contents (Elt F)),
    unary main_v3 main_v117 (broadcastInDim S800000x1 ![0] bcast_S800000_S800000x1_0 : (⟨S800000, .i32⟩ : BufTy).Contents (Elt F) → (⟨S800000x1, .i32⟩ : BufTy).Contents (Elt F)),
    ternary main_v116 main_v117 main_v115 main_v118 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v64 main_v118 main_v119 (addf : (⟨S50000x128, .f32⟩ : BufTy).Contents (Elt F) → (⟨S50000x128, .f32⟩ : BufTy).Contents (Elt F) → (⟨S50000x128, .f32⟩ : BufTy).Contents (Elt F)),
    unary main_v119 main_v120 (Host.tanh : (⟨S50000x128, .f32⟩ : BufTy).Contents (Elt F) → (⟨S50000x128, .f32⟩ : BufTy).Contents (Elt F)),
    binary main_v120 main_arg4 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)) ]

/-- @main's operations, in order. -/
abbrev ops : List (HloOp τ sig (Elt F)) := opsA ++ (opsB ++ (opsC ++ (opsD ++ opsE)))

set_option maxRecDepth 8192 in
set_option maxHeartbeats 4000000 in
/-- @main's first window is the first two stretches: the functions' definitions unfolded at their calls and the
    records at their fields, both sides are one chain of steps once sequencing is reassociated. -/
theorem main_part0_eq (c : Dev nD) : main_part0 (F := F) c = seq (opsA ++ opsB) := by
  rw [seq_append]
  simp only [main_part0, fn_relu.body, fn_leaky_relu.body, fn_where.body, fn_clip.body, seq, bind_assoc, pure_bind]
  rfl

set_option maxRecDepth 8192 in
set_option maxHeartbeats 4000000 in
/-- @main's second window is the third and fourth stretches. -/
theorem main_part1_eq (c : Dev nD) : main_part1 (F := F) c = seq (opsC ++ opsD) := by
  rw [seq_append]
  simp only [main_part1, fn_relu.body, fn_leaky_relu.body, fn_where.body, fn_clip.body, seq, bind_assoc, pure_bind]
  rfl

set_option maxRecDepth 8192 in
set_option maxHeartbeats 4000000 in
/-- @main's last window is the last stretch. -/
theorem main_part2_eq (c : Dev nD) : main_part2 (F := F) c = seq opsE := by
  simp only [main_part2, seq, bind_assoc, pure_bind]

/-- @main is the whole line: its three windows in order. -/
theorem main_eq (c : Dev nD) : main (F := F) c = seq ops := by
  have e : (ops : List (HloOp τ sig (Elt F))) = (opsA ++ opsB) ++ ((opsC ++ opsD) ++ opsE) := by
    simp only [ops, List.append_assoc]
  rw [e, seq_append (opsA ++ opsB) _, seq_append (opsC ++ opsD) opsE, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., reshape_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_sub : (opsD : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., reshape_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., binary_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsE_sub : (opsE : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub ..⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

theorem ops_fresh : ∀ op ∈ (ops : List (HloOp τ sig (Elt F))), op.fresh = ∅ := fun op h => by
  simp only [ops, List.mem_append] at h
  rcases h with h | h | h | h | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h]

/-- From any memory with zero counters, every weakly fair execution of @main on the TensorCores terminates, and every
    final state has each buffer at the fold of the line's operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Line

/-! ## The values, stretch by stretch

The contents after each stretch are read from the contents before it: a buffer the stretch does not write keeps what it
held, and each buffer a later stretch reads holds the corresponding stage of the reference's term — the edge table's
rows, the node states after the encoder and after each step, their rows at the edges' ends, the exponentials and their
sums per source node, the attention weights. -/

section Values

/-- The buffers each stretch writes, in order. -/
abbrev opsA_W : List (Ref sig .tc) :=
  [main_v0, main_v1, main_v2, main_v3, main_v4, main_v5, main_v6, main_v7, main_call0_cst, main_call0_v0, main_v8, main_c, main_v9, main_v10, main_c_0, main_v11, main_v12, main_v13, main_v14, main_v15, main_c_1, main_v16, main_v17, main_c_2, main_v18, main_v19, main_v20, main_v21, main_v22]
abbrev opsB_W : List (Ref sig .tc) :=
  [main_v23, main_v24, main_v25, main_v26, main_v27, main_cst, main_call1_cst, main_call1_v0, main_call1_v1, main_call1_v2, main_call1_v3, main_call1_v4, main_v28, main_v29, main_v30, main_v31, main_v32, main_v33, main_cst_3, main_cst_4, main_call2_v0, main_call2_v1, main_call2_v2, main_call2_v3, main_call2_v4, main_v34, main_v35, main_cst_5, main_v36, main_v37, main_v38, main_c_6, main_v39, main_v40, main_c_7, main_v41, main_v42, main_v43, main_v44, main_v45, main_cst_8, main_v46, main_v47, main_v48]
abbrev opsC_W : List (Ref sig .tc) :=
  [main_v49, main_c_9, main_v50, main_v51, main_c_10, main_v52, main_v53, main_v54, main_v55, main_v56, main_v57, main_v58, main_v59, main_cst_11, main_v60, main_v61, main_v62, main_v63, main_v64, main_c_12, main_v65, main_v66, main_c_13, main_v67, main_v68, main_v69, main_v70, main_v71, main_c_14, main_v72, main_v73, main_c_15, main_v74, main_v75, main_v76, main_v77, main_v78]
abbrev opsD_W : List (Ref sig .tc) :=
  [main_v79, main_v80, main_v81, main_v82, main_v83, main_cst_16, main_call3_cst, main_call3_v0, main_call3_v1, main_call3_v2, main_call3_v3, main_call3_v4, main_v84, main_v85, main_v86, main_v87, main_v88, main_v89, main_cst_17, main_cst_18, main_call4_v0, main_call4_v1, main_call4_v2, main_call4_v3, main_call4_v4, main_v90, main_v91, main_cst_19, main_v92, main_v93, main_v94, main_c_20, main_v95, main_v96]
abbrev opsE_W : List (Ref sig .tc) :=
  [main_c_21, main_v97, main_v98, main_v99, main_v100, main_v101, main_cst_22, main_v102, main_v103, main_v104, main_v105, main_c_23, main_v106, main_v107, main_c_24, main_v108, main_v109, main_v110, main_v111, main_v112, main_v113, main_v114, main_v115, main_cst_25, main_v116, main_v117, main_v118, main_v119, main_v120, main_v121, main_v122, main_v123, main_v124]

theorem opsA_writes : (opsA : List (HloOp τ sig (Elt Ideal))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem opsB_writes : (opsB : List (HloOp τ sig (Elt Ideal))).Forall fun op =>
    op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem opsC_writes : (opsC : List (HloOp τ sig (Elt Ideal))).Forall fun op =>
    op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem opsD_writes : (opsD : List (HloOp τ sig (Elt Ideal))).Forall fun op =>
    op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))
theorem opsE_writes : (opsE : List (HloOp τ sig (Elt Ideal))).Forall fun op =>
    op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

variable (V : Valuation τ sig (Elt Ideal))

/-- The arguments' contents. -/
abbrev x0 : FVec Ideal S50000x256 .f32 := V (Proc.devRef .tc main_arg0)
abbrev x1 : IVec S2x800000 32 := V (Proc.devRef .tc main_arg1)
abbrev x2 : FVec Ideal S256x128 .f32 := V (Proc.devRef .tc main_arg2)
abbrev x3 : FVec Ideal S128 .f32 := V (Proc.devRef .tc main_arg3)
abbrev x4 : FVec Ideal S128x128 .f32 := V (Proc.devRef .tc main_arg4)
abbrev x5 : FVec Ideal S128 .f32 := V (Proc.devRef .tc main_arg5)
abbrev x6 : FVec Ideal S256x32 .f32 := V (Proc.devRef .tc main_arg6)
abbrev x7 : FVec Ideal S32 .f32 := V (Proc.devRef .tc main_arg7)
abbrev x8 : FVec Ideal S32x1 .f32 := V (Proc.devRef .tc main_arg8)
abbrev x9 : FVec Ideal S1 .f32 := V (Proc.devRef .tc main_arg9)
abbrev x10 : FVec Ideal S128x128 .f32 := V (Proc.devRef .tc main_arg10)

/-- The node states after the encoder, and after the first step. -/
abbrev st1 : FVec Ideal S50000x128 .f32 := Term.encS (x0 V) (x2 V) (x3 V)
abbrev st2 : FVec Ideal S50000x128 .f32 := Term.stepR (st1 V) (x1 V) (x6 V) (x7 V) (x8 V) (x9 V) (x10 V)

/-- The contents after the first stretch, the first two, …, all five. -/
def val1 : Valuation τ sig (Elt Ideal) := after opsA V
def val2 : Valuation τ sig (Elt Ideal) := after opsB (val1 V)
def val3 : Valuation τ sig (Elt Ideal) := after opsC (val2 V)
def val4 : Valuation τ sig (Elt Ideal) := after opsD (val3 V)
def val5 : Valuation τ sig (Elt Ideal) := after opsE (val4 V)

theorem after_ops : after ops V = val5 V := by
  simp only [ops, after_append]
  rfl

theorem val1_keep (r : Ref sig .tc) (h : r ∉ opsA_W) : val1 V (Proc.devRef .tc r) = V (Proc.devRef .tc r) :=
  after_of_writes_sub opsA _ opsA_writes h
theorem val2_keep (r : Ref sig .tc) (h : r ∉ opsB_W) : val2 V (Proc.devRef .tc r) = val1 V (Proc.devRef .tc r) :=
  after_of_writes_sub opsB _ opsB_writes h
theorem val3_keep (r : Ref sig .tc) (h : r ∉ opsC_W) : val3 V (Proc.devRef .tc r) = val2 V (Proc.devRef .tc r) :=
  after_of_writes_sub opsC _ opsC_writes h
theorem val4_keep (r : Ref sig .tc) (h : r ∉ opsD_W) : val4 V (Proc.devRef .tc r) = val3 V (Proc.devRef .tc r) :=
  after_of_writes_sub opsD _ opsD_writes h
theorem val5_keep (r : Ref sig .tc) (h : r ∉ opsE_W) : val5 V (Proc.devRef .tc r) = val4 V (Proc.devRef .tc r) :=
  after_of_writes_sub opsE _ opsE_writes h

/-- The arguments' buffers: no stretch writes them. -/
abbrev argRefs : List (Ref sig .tc) :=
  [main_arg0, main_arg1, main_arg2, main_arg3, main_arg4, main_arg5, main_arg6, main_arg7, main_arg8, main_arg9, main_arg10]
theorem val1_arg {r : Ref sig .tc} (h : r ∈ argRefs) : val1 V (no_index (Proc.devRef .tc r)) = V (Proc.devRef .tc r) :=
  val1_keep V r ((by decide : ∀ r ∈ argRefs, r ∉ opsA_W) r h)
theorem val2_arg {r : Ref sig .tc} (h : r ∈ argRefs) : val2 V (no_index (Proc.devRef .tc r)) = V (Proc.devRef .tc r) :=
  (val2_keep V r ((by decide : ∀ r ∈ argRefs, r ∉ opsB_W) r h)).trans (val1_arg V h)
theorem val3_arg {r : Ref sig .tc} (h : r ∈ argRefs) : val3 V (no_index (Proc.devRef .tc r)) = V (Proc.devRef .tc r) :=
  (val3_keep V r ((by decide : ∀ r ∈ argRefs, r ∉ opsC_W) r h)).trans (val2_arg V h)
theorem val4_arg {r : Ref sig .tc} (h : r ∈ argRefs) : val4 V (no_index (Proc.devRef .tc r)) = V (Proc.devRef .tc r) :=
  (val4_keep V r ((by decide : ∀ r ∈ argRefs, r ∉ opsD_W) r h)).trans (val3_arg V h)
theorem val5_arg {r : Ref sig .tc} (h : r ∈ argRefs) : val5 V (no_index (Proc.devRef .tc r)) = V (Proc.devRef .tc r) :=
  (val5_keep V r ((by decide : ∀ r ∈ argRefs, r ∉ opsE_W) r h)).trans (val4_arg V h)

/-! ### After the encoder and the first gathers -/

theorem val1_v1 : val1 V (no_index (Proc.devRef .tc main_v1)) = Term.srcV (x1 V) := by
  unfold val1
  simp only [opsA]
  after_results_simp
  rfl
theorem val1_v3 : val1 V (no_index (Proc.devRef .tc main_v3)) = Term.dstV (x1 V) := by
  unfold val1
  simp only [opsA]
  after_results_simp
  rfl
theorem val1_v8 : val1 V (no_index (Proc.devRef .tc main_v8)) = st1 V := by
  unfold val1
  simp only [opsA]
  after_results_simp
  rfl
theorem val1_v15 : val1 V (no_index (Proc.devRef .tc main_v15)) = Term.rowsAt (st1 V) (Term.srcV (x1 V)) := by
  unfold val1
  simp only [opsA]
  after_results_simp
  rfl
theorem val1_v22 : val1 V (no_index (Proc.devRef .tc main_v22)) = Term.rowsAt (st1 V) (Term.dstV (x1 V)) := by
  unfold val1
  simp only [opsA]
  after_results_simp
  rfl

/-! ### After the first step's attention weights -/

theorem val2_v1 : val2 V (no_index (Proc.devRef .tc main_v1)) = Term.srcV (x1 V) :=
  (val2_keep V main_v1 (by decide)).trans (val1_v1 V)
theorem val2_v3 : val2 V (no_index (Proc.devRef .tc main_v3)) = Term.dstV (x1 V) :=
  (val2_keep V main_v3 (by decide)).trans (val1_v3 V)
theorem val2_v8 : val2 V (no_index (Proc.devRef .tc main_v8)) = st1 V :=
  (val2_keep V main_v8 (by decide)).trans (val1_v8 V)
theorem val2_v48 : val2 V (no_index (Proc.devRef .tc main_v48)) = Term.attnR (st1 V) (x1 V) (x6 V) (x7 V) (x8 V) (x9 V) := by
  unfold val2
  simp only [opsB]
  after_results_simp
  rw [val1_v15, val1_v22]
  simp only [val1_v1, val1_arg V (r := main_arg6) (by decide), val1_arg V (r := main_arg7) (by decide), val1_arg V (r := main_arg8) (by decide), val1_arg V (r := main_arg9) (by decide), TRef.ofBuf, TRef.toBuf, cast_eq]
  rfl

/-! ### After the first step's update and the second gathers -/

theorem val3_v1 : val3 V (no_index (Proc.devRef .tc main_v1)) = Term.srcV (x1 V) :=
  (val3_keep V main_v1 (by decide)).trans (val2_v1 V)
theorem val3_v3 : val3 V (no_index (Proc.devRef .tc main_v3)) = Term.dstV (x1 V) :=
  (val3_keep V main_v3 (by decide)).trans (val2_v3 V)
theorem val3_v64 : val3 V (no_index (Proc.devRef .tc main_v64)) = st2 V := by
  unfold val3
  simp only [opsC]
  after_results_simp
  simp only [val2_v8, val2_v48, val2_v1, val2_v3, val2_arg V (r := main_arg10) (by decide)]
  rfl
theorem val3_v71 : val3 V (no_index (Proc.devRef .tc main_v71)) = Term.rowsAt (st2 V) (Term.srcV (x1 V)) := by
  unfold val3
  simp only [opsC]
  after_results_simp
  simp only [val2_v8, val2_v48, val2_v1, val2_v3, val2_arg V (r := main_arg10) (by decide)]
  rfl
theorem val3_v78 : val3 V (no_index (Proc.devRef .tc main_v78)) = Term.rowsAt (st2 V) (Term.dstV (x1 V)) := by
  unfold val3
  simp only [opsC]
  after_results_simp
  simp only [val2_v8, val2_v48, val2_v1, val2_v3, val2_arg V (r := main_arg10) (by decide)]
  rfl

/-! ### After the second step's exponentials and their sums -/

theorem val4_v1 : val4 V (no_index (Proc.devRef .tc main_v1)) = Term.srcV (x1 V) :=
  (val4_keep V main_v1 (by decide)).trans (val3_v1 V)
theorem val4_v3 : val4 V (no_index (Proc.devRef .tc main_v3)) = Term.dstV (x1 V) :=
  (val4_keep V main_v3 (by decide)).trans (val3_v3 V)
theorem val4_v64 : val4 V (no_index (Proc.devRef .tc main_v64)) = st2 V :=
  (val4_keep V main_v64 (by decide)).trans (val3_v64 V)
theorem val4_v91 : val4 V (no_index (Proc.devRef .tc main_v91)) = Term.exR (st2 V) (x1 V) (x6 V) (x7 V) (x8 V) (x9 V) := by
  unfold val4
  simp only [opsD]
  after_results_simp
  rw [val3_v71, val3_v78]
  simp only [val3_arg V (r := main_arg6) (by decide), val3_arg V (r := main_arg7) (by decide), val3_arg V (r := main_arg8) (by decide), val3_arg V (r := main_arg9) (by decide), TRef.ofBuf, TRef.toBuf, cast_eq]
  rfl
theorem val4_v94 : val4 V (no_index (Proc.devRef .tc main_v94)) = Term.sumExpR (Term.exR (st2 V) (x1 V) (x6 V) (x7 V) (x8 V) (x9 V)) (x1 V) := by
  unfold val4
  simp only [opsD]
  after_results_simp
  rw [val3_v71, val3_v78]
  simp only [val3_v1, val3_arg V (r := main_arg6) (by decide), val3_arg V (r := main_arg7) (by decide), val3_arg V (r := main_arg8) (by decide), val3_arg V (r := main_arg9) (by decide), TRef.ofBuf, TRef.toBuf, cast_eq]
  rfl
theorem val4_v96 : val4 V (no_index (Proc.devRef .tc main_v96)) = cmpi .slt (Term.srcV (x1 V)) (broadcastInDim S800000 ![] bcast_S_S800000 (constantI S_ 32 0#32)) := by
  unfold val4
  simp only [opsD]
  after_results_simp
  simp only [val3_v1]

/-! ### At the end -/

theorem val5_v104 : val5 V (no_index (Proc.devRef .tc main_v104)) = Term.attn (x0 V) (x1 V) (x2 V) (x3 V) (x4 V) (x5 V) (x6 V) (x7 V) (x8 V) (x9 V) (x10 V) := by
  unfold val5
  simp only [opsE]
  after_results_simp
  simp only [val4_v91, val4_v94, val4_v96, val4_v1]
  rfl
theorem val5_v124 : val5 V (no_index (Proc.devRef .tc main_v124)) = Term.out (x0 V) (x1 V) (x2 V) (x3 V) (x4 V) (x5 V) (x6 V) (x7 V) (x8 V) (x9 V) (x10 V) := by
  unfold val5
  simp only [opsE]
  after_results_simp
  simp only [val4_v91, val4_v94, val4_v96, val4_v1, val4_v3, val4_v64, val4_arg V (r := main_arg10) (by decide), val4_arg V (r := main_arg4) (by decide), val4_arg V (r := main_arg5) (by decide)]
  rfl

end Values

/-- From any memory whose edge table holds node indices, every weakly fair execution of the reference's @main terminates with its two
    results at the specification's two results of the arguments, and the arguments unchanged. -/
theorem run_values (m : (ℓ : Loc nD τ sig) → Buf (Elt Ideal) ℓ) (ρ : Dev nD → PrngReg)
    (hidx : ∀ c : Dev nD, Cert.Spec.InRange (m ((c.tc : Thread nD τ).loc main_arg1))) :
    θ_run defs (onTc (τ := τ) (main (F := Ideal))) ⟨m, fun _ => 0, ρ⟩ fun r => ∀ c : Dev nD,
      r.2.mem ((c.tc : Thread nD τ).loc main_v124) = Cert.Spec.result0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v104) = Cert.Spec.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      (h c main_v124).trans ((congrFun (after_ops _) _).trans ((val5_v124 _).trans (Term.out_eq _ _ _ _ _ _ _ _ _ _ _ (hidx c)))),
      (h c main_v104).trans ((congrFun (after_ops _) _).trans ((val5_v104 _).trans (Term.attn_eq _ _ _ _ _ _ _ _ _ _ _ (hidx c)))),
      (h c main_arg0).trans ((congrFun (after_ops _) _).trans (val5_arg _ (r := main_arg0) (by decide))),
      (h c main_arg1).trans ((congrFun (after_ops _) _).trans (val5_arg _ (r := main_arg1) (by decide))),
      (h c main_arg2).trans ((congrFun (after_ops _) _).trans (val5_arg _ (r := main_arg2) (by decide))),
      (h c main_arg3).trans ((congrFun (after_ops _) _).trans (val5_arg _ (r := main_arg3) (by decide))),
      (h c main_arg4).trans ((congrFun (after_ops _) _).trans (val5_arg _ (r := main_arg4) (by decide))),
      (h c main_arg5).trans ((congrFun (after_ops _) _).trans (val5_arg _ (r := main_arg5) (by decide))),
      (h c main_arg6).trans ((congrFun (after_ops _) _).trans (val5_arg _ (r := main_arg6) (by decide))),
      (h c main_arg7).trans ((congrFun (after_ops _) _).trans (val5_arg _ (r := main_arg7) (by decide))),
      (h c main_arg8).trans ((congrFun (after_ops _) _).trans (val5_arg _ (r := main_arg8) (by decide))),
      (h c main_arg9).trans ((congrFun (after_ops _) _).trans (val5_arg _ (r := main_arg9) (by decide))),
      (h c main_arg10).trans ((congrFun (after_ops _) _).trans (val5_arg _ (r := main_arg10) (by decide)))⟩)
    (run_all m ρ)

end Cert.ReferenceIdeal.Val

end
-- ==== Proof.lean ====
/-
  The certificate's proof. A graph encoder: node states S₁ = relu (X · W_lin + b_lin), then two diffusion steps
  S ↦ tanh (S + agg), agg the scatter-add over destinations of (S · W_node)[src] · attn, attn the edge softmax (normalised over
  the edges sharing a source) of a clipped two-layer MLP of the pair (S[src], S[dst]); the results are S₃ · W_out + b_out and the
  second step's attn (Proof/Spec.lean states all of it index by index).

  The kernel program computes it in eight kernel regions (the encoder fused with S · W_node; per step the attention MLP on gathered
  rows, the message scaling, the update — fused with S · W_node in the first step —; the output layer) with the gathers and the two
  scatter-adds on the host between them; the reference computes it with host operations alone. Over the extended reals the two agree
  operation by operation once each contraction is read as a sum: the only rearrangement is that the reference contracts the
  concatenated pair (S[src] | S[dst]) with the whole 256-row weight where the kernel adds the two 128-row halves' products, which is
  splitting one finite sum in two. The kernel's gathers fill out-of-range entries where the reference's clamp them, so the claim is
  stated for edge tables whose entries are node indices (the precondition's last two conjuncts), where neither happens.

  The three frames: the kernel programs' are the generated frame certificates; the reference's is its run with the results dropped.
-/
import proofs.«415169_j41790031790248_2_alg».proof.Defs
import proofs.«415169_j41790031790248_2_alg».proof.Proof.Gen.Kernel
import proofs.«415169_j41790031790248_2_alg».proof.Proof.Gen.Kernel.Skeleton
import proofs.«415169_j41790031790248_2_alg».proof.Proof.Gen.Kernel.Launch
import proofs.«415169_j41790031790248_2_alg».proof.Proof.Gen.Kernel.Points
import proofs.«415169_j41790031790248_2_alg».proof.Proof.Gen.Kernel.Frame
import proofs.«415169_j41790031790248_2_alg».proof.Proof.Gen.KernelIdeal
import proofs.«415169_j41790031790248_2_alg».proof.Proof.Gen.KernelIdeal.Skeleton
import proofs.«415169_j41790031790248_2_alg».proof.Proof.Gen.KernelIdeal.Launch
import proofs.«415169_j41790031790248_2_alg».proof.Proof.Gen.KernelIdeal.Points
import proofs.«415169_j41790031790248_2_alg».proof.Proof.Gen.KernelIdeal.Frame
import proofs.«415169_j41790031790248_2_alg».proof.Proof.Gen.ReferenceIdeal
import proofs.«415169_j41790031790248_2_alg».proof.Proof.Gen.Pre_finite_inputs
import proofs.«415169_j41790031790248_2_alg».proof.Proof.Spec
import proofs.«415169_j41790031790248_2_alg».proof.Proof.PreIdx
import proofs.«415169_j41790031790248_2_alg».proof.Proof.KRun
import proofs.«415169_j41790031790248_2_alg».proof.Proof.KVal
import proofs.«415169_j41790031790248_2_alg».proof.Proof.RefRun
import Idealize.ShloMosaic.Adequacy
import Idealize.ShloMosaic.Init

noncomputable section

namespace Cert.Proof

open Idealize.ShloMosaic Idealize.SL.Sem

/-- Under the precondition the kernel program's edge table holds node indices. -/
theorem idxK (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.InRange (m ((c.tc : Thread Cert.KernelIdeal.nD Cert.KernelIdeal.τ).loc Cert.KernelIdeal.main_arg1)) :=
  Cert.PreIdx.inRange_of_pre _ _ _ _ _ _ _ _ _ _ _ (hpre c)

/-- And so does the reference's. -/
theorem idxR (m : (ℓ : Loc Cert.ReferenceIdeal.nD Cert.ReferenceIdeal.τ Cert.ReferenceIdeal.sig) → Buf (Elt Ideal) ℓ)
    (hpre : Cert.Pre_ReferenceIdeal (hPre_finite_inputs := Cert.Pre_finite_inputs.Gen.facts) m) (c : Dev Cert.ReferenceIdeal.nD) :
    Cert.Spec.InRange (m ((c.tc : Thread Cert.ReferenceIdeal.nD Cert.ReferenceIdeal.τ).loc Cert.ReferenceIdeal.main_arg1)) :=
  Cert.PreIdx.inRange_of_pre _ _ _ _ _ _ _ _ _ _ _ (hpre c)

theorem frame_ri : Cert.frame_ReferenceIdeal (hReferenceIdeal := Cert.ReferenceIdeal.Gen.facts)
    (hPre_finite_inputs := Cert.Pre_finite_inputs.Gen.facts) := fun m ρ hpre =>
  (θ_run Cert.ReferenceIdeal.defs _ _).mono (fun _ h c => (h c).2.2)
    (Cert.ReferenceIdeal.Val.run_values m ρ (idxR m hpre))

/-- Both programs end at the specification's two results of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hidx' : ∀ c : Dev Cert.ReferenceIdeal.nD, Cert.Spec.InRange (m' ((c.tc : Thread Cert.ReferenceIdeal.nD Cert.ReferenceIdeal.τ).loc Cert.ReferenceIdeal.main_arg1)) := fun c => by
    rw [(hagree c).2.1]; exact idxK m hpre c
  refine ⟨fun c => Cert.Spec.result0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.result1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    (θ_run Cert.KernelIdeal.defs _ _).mono (fun r h c => ⟨(h c).1.trans (Cert.KernelIdeal.Val.out_eq m ρ c (idxK m hpre c)),
      (h c).2.1.trans (Cert.KernelIdeal.Val.attn_eq m ρ c (idxK m hpre c)), (h c).2.2⟩)
      (Cert.KernelIdeal.GenV.run_values (F := Ideal) m ρ),
    (θ_run Cert.ReferenceIdeal.defs _ _).mono (fun r h c => ⟨?_, ?_, (h c).2.2⟩)
      (Cert.ReferenceIdeal.Val.run_values m' ρ' hidx')⟩
  · rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
  · rw [(h c).2.1, (hagree c).1, (hagree c).2.1, (hagree c).2.2.1, (hagree c).2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
